-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024 .f32 .bf16
  ∧ IdealRules.truncf_extf.Statement Cert.KernelIdeal.S1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128 : S_.BroadcastsInDim S128 (![] : Fin 0 → Fin S128.rank)
  reducesTo_S128_S_d0 : S128.ReducesTo [0] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1000000x128 .f32) (main_arg1 : IVec S1000000 32) (main_arg2 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_c_2 : IVec S_ 32 := constantI S_ 32 0#32
  let main_v9 : IVec S1000000 32 := broadcastInDim S1000000 ![] bcast_S_S1000000 main_c_2
  let main_v10 : IVec S1000000 1 := cmpi .sge main_arg1 main_v9
  let main_c_3 : IVec S_ 1 := constantI S_ 1 1#1
  let main_v11 : IVec S_ 1 := (fun x v => Host.reduce IntOp.andi x v reducesTo_S1000000_S_d0 h_S_) main_v10 main_c_3
  let main_v12 : IVec S_ 1 := andi main_v8 main_v11
  let main_c_4 : IVec S_ 32 := constantI S_ 32 1024#32
  let main_v13 : IVec S1000000 32 := broadcastInDim S1000000 ![] bcast_S_S1000000 main_c_4
  let main_v14 : IVec S1000000 1 := cmpi .slt main_arg1 main_v13
  let main_c_5 : IVec S_ 1 := constantI S_ 1 1#1
  let main_v15 : IVec S_ 1 := (fun x v => Host.reduce IntOp.andi x v reducesTo_S1000000_S_d0 h_S_) main_v14 main_c_5
  fn_part1 (F := F) main_v12 main_v15
-- ==== Kernel.lean ====
abbrev S1000000x128 : Shape := ⟨2, ![1000000, 128]⟩
abbrev S1000000 : Shape := ⟨1, ![1000000]⟩
abbrev S128 : Shape := ⟨1, ![128]⟩
abbrev S_ : Shape := ⟨0, ![]⟩
abbrev S1015808x128 : Shape := ⟨2, ![1015808, 128]⟩
abbrev S1015808 : Shape := ⟨1, ![1015808]⟩
abbrev S2x1x1024 : Shape := ⟨3, ![2, 1, 1024]⟩
abbrev S2x1x128 : Shape := ⟨3, ![2, 1, 128]⟩
abbrev S8192x128 : Shape := ⟨2, ![8192, 128]⟩
abbrev S8192 : Shape := ⟨1, ![8192]⟩
abbrev S1x1x1024 : Shape := ⟨3, ![1, 1, 1024]⟩
abbrev S1x1x128 : Shape := ⟨3, ![1, 1, 128]⟩
abbrev S1x1024 : Shape := ⟨2, ![1, 1024]⟩
abbrev S1x128 : Shape := ⟨2, ![1, 128]⟩
abbrev S1024x1024 : Shape := ⟨2, ![1024, 1024]⟩
abbrev S1024x128 : Shape := ⟨2, ![1024, 128]⟩
abbrev S1024 : Shape := ⟨1, ![1024]⟩
abbrev S1 : Shape := ⟨1, ![1]⟩
abbrev S1x1 : Shape := ⟨2, ![1, 1]⟩
abbrev S1024x1 : Shape := ⟨2, ![1024, 1]⟩
abbrev S1024x5 : Shape := ⟨2, ![1024, 5]⟩

abbrev nBuf : Space → Nat
  | .hbm => 53
  | .vmem => 13
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128, .f32⟩
  | .hbm, ⟨3, _⟩ => ⟨S_, .i32⟩
  | .hbm, ⟨4, _⟩ => ⟨S_, .f32⟩
  | .hbm, ⟨5, _⟩ => ⟨S1015808x128, .f32⟩
  | .hbm, ⟨6, _⟩ => ⟨S_, .i32⟩
  | .hbm, ⟨7, _⟩ => ⟨S_, .i32⟩
  | .hbm, ⟨8, _⟩ => ⟨S1015808, .i32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x128, .f32⟩
  | .hbm, ⟨13, _⟩ => ⟨S_, .f32⟩
  | .hbm, ⟨14, _⟩ => ⟨S1x1024, .f32⟩
  | .hbm, ⟨15, _⟩ => ⟨S1024, .f32⟩
  | .hbm, ⟨16, _⟩ => ⟨S_, .f32⟩
  | .hbm, ⟨17, _⟩ => ⟨S1x1024, .f32⟩
  | .hbm, ⟨18, _⟩ => ⟨S1024, .f32⟩
  | .hbm, ⟨19, _⟩ => ⟨S_, .f32⟩
  | .hbm, ⟨20, _⟩ => ⟨S1x1024, .f32⟩
  | .hbm, ⟨21, _⟩ => ⟨S1024, .f32⟩
  | .hbm, ⟨22, _⟩ => ⟨S_, .f32⟩
  | .hbm, ⟨23, _⟩ => ⟨S1x128, .f32⟩
  | .hbm, ⟨24, _⟩ => ⟨S128, .f32⟩
  | .hbm, ⟨25, _⟩ => ⟨S1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192, .i32⟩
  | .local _ .vmem, ⟨3, _⟩ => ⟨S8192, .i32⟩
  | .local _ .vmem, ⟨4, _⟩ => ⟨S128, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x128, .f32⟩
  | .local _ .vmem, ⟨12, _⟩ => ⟨S1x1x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_cst_8 : Ref sig .tc := ⟨.hbm, 40, rfl⟩
abbrev main_v22 : Ref sig .tc := ⟨.hbm, 41, rfl⟩
abbrev main_cst_9 : Ref sig .tc := ⟨.hbm, 42, rfl⟩
abbrev main_v23 : Ref sig .tc := ⟨.hbm, 43, rfl⟩
abbrev main_v24 : Ref sig .tc := ⟨.hbm, 44, rfl⟩
abbrev main_cst_10 : Ref sig .tc := ⟨.hbm, 45, rfl⟩
abbrev main_v25 : Ref sig .tc := ⟨.hbm, 46, rfl⟩
abbrev main_cst_11 : Ref sig .tc := ⟨.hbm, 47, rfl⟩
abbrev main_v26 : Ref sig .tc := ⟨.hbm, 48, rfl⟩
abbrev main_v27 : Ref sig .tc := ⟨.hbm, 49, rfl⟩
abbrev main_cst_12 : Ref sig .tc := ⟨.hbm, 50, rfl⟩
abbrev main_v28 : Ref sig .tc := ⟨.hbm, 51, rfl⟩
abbrev main_v29 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 62], ![false, false]⟩

@[reducible] def k0_t1_loop : Scf.Loop 32 :=
  let c0_i32_1 : BitVec 32 := 0#32
  let c8_i32 : BitVec 32 := 8#32
  let v5 : BitVec 32 := Scalar.addi c0_i32_1 c8_i32
  let c1_i32 : BitVec 32 := 1#32
  ⟨c0_i32_1, v5, c1_i32⟩
def k0_mult1 (k0_t1 : Fin k0_t1_loop.trips) : BitVec 32 :=
  let c0_i32_4 : BitVec 32 := 0#32
  let c0_i32_1 : BitVec 32 := 0#32
  let c1_i32 : BitVec 32 := 1#32
  let arg9 : BitVec 32 := Scf.iv c0_i32_1 c1_i32 k0_t1
  let c1_i32_3 : BitVec 32 := 1#32
  let v6 : BitVec 32 := Scalar.muli arg9 c1_i32_3
  let v7 : BitVec 32 := Scalar.addi c0_i32_4 v6
  let c1024_i32 : BitVec 32 := 1024#32
  let v8 : BitVec 32 := Scalar.muli v7 c1024_i32
  v8
def k0_off1 (k0_t1 : Fin k0_t1_loop.trips) : Fin 2 → Nat :=
  let c0_i32_4 : BitVec 32 := 0#32
  let c0_i32_1 : BitVec 32 := 0#32
  let c1_i32 : BitVec 32 := 1#32
  let arg9 : BitVec 32 := Scf.iv c0_i32_1 c1_i32 k0_t1
  let c1_i32_3 : BitVec 32 := 1#32
  let v6 : BitVec 32 := Scalar.muli arg9 c1_i32_3
  let v7 : BitVec 32 := Scalar.addi c0_i32_4 v6
  let c1024_i32 : BitVec 32 := 1024#32
  let v8 : BitVec 32 := Scalar.muli v7 c1024_i32
  let v9 : BitVec 32 := v8
  let v10 : Index := Scalar.indexCast v9
  let c0_5 : Index := 0#32
  ![v10.toNat, 0]
def k0_off2 (k0_t1 : Fin k0_t1_loop.trips) : Fin 1 → Nat :=
  let c0_i32_4 : BitVec 32 := 0#32
  let c0_i32_1 : BitVec 32 := 0#32
  let c1_i32 : BitVec 32 := 1#32
  let arg9 : BitVec 32 := Scf.iv c0_i32_1 c1_i32 k0_t1
  let c1_i32_3 : BitVec 32 := 1#32
  let v6 : BitVec 32 := Scalar.muli arg9 c1_i32_3
  let v7 : BitVec 32 := Scalar.addi c0_i32_4 v6
  let c1024_i32 : BitVec 32 := 1024#32
  let v8 : BitVec 32 := Scalar.muli v7 c1024_i32
  let v9 : BitVec 32 := v8
  let v13 : Index := Scalar.indexCast v9
  ![v13.toNat]
def cc0_transform_0 (i : grid0.Coords) : Fin 2 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c62_i32 : BitVec 32 := 62#32
  let v0 : BitVec 32 := Scalar.muli arg0 c62_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  pads_S1000000x128_S1015808x128_0158080_000 : S1000000x128.Pads (![0, 0] : Fin 2 → Nat) ![15808, 0] ![0, 0] S1015808x128
  h_S_ : 0 < S_.numel
  pads_S1000000_S1015808_0158080 : S1000000.Pads (![0] : Fin 1 → Nat) ![15808] ![0] S1015808
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S128_S128_0 : ∀ a, (![0] : Fin 1 → Nat) a + S128.size a ≤ S128.size a
  h_S128 : 0 < S128.numel
  iota_S1024x1024_d0_w32 : S1024x1024.Iotas .tc 32 [0]
  h_S1024x128 : 0 < S1024x128.numel
  shapeCasts_S1024x128_S1024x128 : S1024x128.ShapeCasts S1024x128
  h_S1024 : 0 < S1024.numel
  shapeCasts_S1024_S1024 : S1024.ShapeCasts S1024
  shapeCasts_S128_S1x128 : S128.ShapeCasts S1x128
  broadcasts_S1x128_S1024x128 : S1x128.Broadcasts S1024x128
  reduces_S1024x128_S1024 : S1024x128.Reduces [1] S1024
  shapeCasts_S1024_S1x1024 : S1024.ShapeCasts S1x1024
  reduces_S1x1024_S1 : S1x1024.Reduces [1] S1
  shapeCasts_S1_S1x1 : S1.ShapeCasts S1x1
  inpos_S1x1_p0_0 : ∀ a, (![0, 0] : Fin 2 → Nat) a < S1x1.size a
  bitsLt_bf16_f32 : FTy.bits .bf16 < FTy.bits .f32
  shapeCasts_S1024_S1024x1 : S1024.ShapeCasts S1024x1
  concatenates_S1024x1_S1024x1_S1024x1_S1024x1_S1024x1_S1024x5_d1 : Shape.Concatenates [S1024x1, S1024x1, S1024x1, S1024x1, S1024x1] S1024x5 1
  broadcasts_S1x1024_S1024x1024 : S1x1024.Broadcasts S1024x1024
  natLt_1_32 : 1 < 32
  slices_S1024x5_o0_0_S1024x1 : S1024x5.Slices ![0, 0] S1024x1
  shapeCasts_S1024x1_S1024 : S1024x1.ShapeCasts S1024
  slices_S1024x5_o0_1_S1024x1 : S1024x5.Slices ![0, 1] S1024x1
  slices_S1024x5_o0_2_S1024x1 : S1024x5.Slices ![0, 2] S1024x1
  slices_S1024x5_o0_3_S1024x1 : S1024x5.Slices ![0, 3] S1024x1
  slices_S1024x5_o0_4_S1024x1 : S1024x5.Slices ![0, 4] S1024x1
  reducesTo_S2x1x1024_S1x1024_d0 : S2x1x1024.ReducesTo [0] S1x1024
  shapeCasts_S1x1024_S1024 : S1x1024.ShapeCasts S1024
  reducesTo_S2x1x128_S1x128_d0 : S2x1x128.ReducesTo [0] S1x128
  shapeCasts_S1x128_S128 : S1x128.ShapeCasts S128
  slices_S128_S1_0 : S128.Slices ![0] S1
  shapeCasts_S1_S_ : S1.ShapeCasts S_
  bcast_S_S1024 : S_.BroadcastsInDim S1024 (![] : Fin 0 → Fin S1024.rank)
  reducesTo_S1024_S_d0 : S1024.ReducesTo [0] S_
  dot_S1024x1024_S1024x5_S1024x5_1_0_0_1_n_n_wf : DotDims.WF S1024x1024 S1024x5 S1024x5 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S8192x128.size a
  k0_off2_inb : ∀ k0_t1 : Fin k0_t1_loop.trips, ∀ a, (k0_off2 k0_t1) a + S1024.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1015808x128.size a
  hwx0_0 : ∀ i : grid0.Coords, EltTy.bits .f32 = 32 ∨ (Rect.block (s := S1015808x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S1015808.size a
  hwx0_1 : ∀ i : grid0.Coords, EltTy.bits .i32 = 32 ∨ (Rect.block (s := S1015808) S8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x1024.size a
  hwx0_3 : ∀ i : grid0.Coords, EltTy.bits .f32 = 32 ∨ (Rect.block (s := S2x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S2x1x1024.size a
  hwx0_4 : ∀ i : grid0.Coords, EltTy.bits .f32 = 32 ∨ (Rect.block (s := S2x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S2x1x1024.size a
  hwx0_5 : ∀ i : grid0.Coords, EltTy.bits .f32 = 32 ∨ (Rect.block (s := S2x1x1024) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S2x1x128.size a
  hwx0_6 : ∀ i : grid0.Coords, EltTy.bits .f32 = 32 ∨ (Rect.block (s := S2x1x128) S1x1x128.size (cc0_transform_6 i) (hinb0_6 i)).WholeWords (EltTy.packing .f32)

variable [Facts₀]

def dot_S1024x1024_S1024x5_S1024x5_1_0_0_1_n_n : DotDims S1024x1024 S1024x5 S1024x5 where
  lhsContracting := [1]
  rhsContracting := [0]
  lhsNonContracting := [0]
  rhsNonContracting := [1]
  lhsBatch := []
  rhsBatch := []
  wf := dot_S1024x1024_S1024x5_S1024x5_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x1x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x1x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_3) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S128 : Shape := ⟨1, ![128]⟩
abbrev S1x128 : Shape := ⟨2, ![1, 128]⟩
abbrev S_ : Shape := ⟨0, ![]⟩
abbrev S1024 : Shape := ⟨1, ![1024]⟩
abbrev S1000000x1 : Shape := ⟨2, ![1000000, 1]⟩

abbrev nBuf : Space → Nat
  | .hbm => 68
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128, .f32⟩
  | .hbm, ⟨3, _⟩ => ⟨S1000000x128, .f32⟩
  | .hbm, ⟨4, _⟩ => ⟨S1x128, .f32⟩
  | .hbm, ⟨5, _⟩ => ⟨S1000000x128, .f32⟩
  | .hbm, ⟨6, _⟩ => ⟨S1000000x128, .f32⟩
  | .hbm, ⟨7, _⟩ => ⟨S_, .f32⟩
  | .hbm, ⟨8, _⟩ => ⟨S1000000, .f32⟩
  | .hbm, ⟨9, _⟩ => ⟨S1000000, .f32⟩
  | .hbm, ⟨10, _⟩ => ⟨S_, .f32⟩
  | .hbm, ⟨11, _⟩ => ⟨S1000000, .f32⟩
  | .hbm, ⟨12, _⟩ => ⟨S1000000, .f32⟩
  | .hbm, ⟨13, _⟩ => ⟨S_, .f32⟩
  | .hbm, ⟨14, _⟩ => ⟨S1000000, .f32⟩
  | .hbm, ⟨15, _⟩ => ⟨S1000000, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1000000, .f32⟩
  | .hbm, ⟨22, _⟩ => ⟨S_, .f32⟩
  | .hbm, ⟨23, _⟩ => ⟨S1024, .f32⟩
  | .hbm, ⟨24, _⟩ => ⟨S1000000x1, .i32⟩
  | .hbm, ⟨25, _⟩ => ⟨S1024, .f32⟩
  | .hbm, ⟨26, _⟩ => ⟨S_, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1000000x1, .i32⟩
  | .hbm, ⟨33, _⟩ => ⟨S1024, .f32⟩
  | .hbm, ⟨34, _⟩ => ⟨S1024, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000, .f32⟩
  | .hbm, ⟨44, _⟩ => ⟨S1000000, .f32⟩
  | .hbm, ⟨45, _⟩ => ⟨S1000000, .f32⟩
  | .hbm, ⟨46, _⟩ => ⟨S_, .f32⟩
  | .hbm, ⟨47, _⟩ => ⟨S1024, .f32⟩
  | .hbm, ⟨48, _⟩ => ⟨S1000000x1, .i32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_call1_v0 : Ref sig .tc := ⟨.hbm, 27, rfl⟩
abbrev main_call1_v1 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_cst_12 : Ref sig .tc := ⟨.hbm, 57, rfl⟩
abbrev main_v36 : Ref sig .tc := ⟨.hbm, 58, rfl⟩
abbrev main_v37 : Ref sig .tc := ⟨.hbm, 59, rfl⟩
abbrev main_cst_13 : Ref sig .tc := ⟨.hbm, 60, rfl⟩
abbrev main_v38 : Ref sig .tc := ⟨.hbm, 61, rfl⟩
abbrev main_cst_14 : Ref sig .tc := ⟨.hbm, 62, rfl⟩
abbrev main_v39 : Ref sig .tc := ⟨.hbm, 63, rfl⟩
abbrev main_v40 : Ref sig .tc := ⟨.hbm, 64, rfl⟩
abbrev main_cst_15 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  reducesTo_S1000000x128_S1000000_d1 : S1000000x128.ReducesTo [1] S1000000
  h_S_ : 0 < S_.numel
  bcast_S_S1000000 : S_.BroadcastsInDim S1000000 (![] : Fin 0 → Fin S1000000.rank)
  reducesTo_S1000000_S_d0 : S1000000.ReducesTo [0] S_
  bcast_S_S1024 : S_.BroadcastsInDim S1024 (![] : Fin 0 → Fin S1024.rank)
  bcast_S1000000_S1000000x1_0 : S1000000.BroadcastsInDim S1000000x1 (![0] : Fin 1 → Fin S1000000x1.rank)
  reducesTo_S1024_S_d0 : S1024.ReducesTo [0] S_
  scatter_S1024_S1000000x1_S1000000_n_0_0_1_wf : ScatterDims.WF S1024 S1000000x1 S1000000 [] [0] [0] 1
  gather_S1024_S1000000x1_S1000000_n_0_n_n_0_1_1_wf : GatherDims.WF S1024 S1000000x1 S1000000 [] [0] [] [0] [] 1 ![1]

variable [Facts₀]

def scatter_S1024_S1000000x1_S1000000_n_0_0_1 : ScatterDims S1024 S1000000x1 S1000000 where
  updateWindowDims := []
  insertedWindowDims := [0]
  scatterDimsToOperandDims := [0]
  indexVectorDim := 1
  wf := scatter_S1024_S1000000x1_S1000000_n_0_0_1_wf
def gather_S1024_S1000000x1_S1000000_n_0_n_n_0_1_1 : GatherDims S1024 S1000000x1 S1000000 where
  offsetDims := []
  collapsedSliceDims := [0]
  operandBatchingDims := []
  startIndicesBatchingDims := []
  startIndexMap := [0]
  indexVectorDim := 1
  sliceSizes := ![1]
  wf := gather_S1024_S1000000x1_S1000000_n_0_n_n_0_1_1_wf

class Facts : Prop extends Facts₀ where

variable [Facts]
-- ==== Proof.KTrip.lean ====
/-
  What one grid point's body leaves in the four accumulator blocks, as a fold over its eight 1024-row chunks.

  The body walks its 8192-row block in eight chunks.  Chunk `k` reads rows `1024·k … 1024·k + 1023` of the staged
  block of `z` and of the labels and adds its contribution to each accumulator, reading the accumulator back first:
  the class sums, the class counts, the class sums of squares and the hinge sum each go `a ↦ step k a`.  At the first
  point of a core's run the accumulators are zeroed before the loop.  So after the loop each block holds the eight steps
  applied in order to what it held before (case B) or to the zero block (case A).
-/
import proofs.«421990_j76184129896577_3_alg».proof.Proof.Gen.KernelIdeal.Frame
import Idealize.ShloMosaic.Lib.Pipeline.Value
import Idealize.ShloMosaic.Lib.Tactic

set_option maxRecDepth 16384

noncomputable section

namespace Cert.KernelIdeal.KTrip

open Cert.KernelIdeal Cert.KernelIdeal.Gen
open Idealize.ShloMosaic Idealize.ShloMosaic.TcCoe Idealize.SL.Sem Idealize.ShloMosaic.Tactic

variable {F : FTy → Type} [FloatOps F]

/-- The whole-block rectangle of a [1,1,1024] accumulator, and of the [1,1,128] one. -/
abbrev R3 : Rect S1x1x1024 := Rect.unit (s := S1x1x1024) ![0, 0, 0] S1x1x1024.size inb_S1x1x1024_S1x1x1024_0_0_0
abbrev R8 : Rect S1x1x128 := Rect.unit (s := S1x1x128) ![0, 0, 0] S1x1x128.size inb_S1x1x128_S1x1x128_0_0_0

theorem hz3 : (![0, 0, 0] : Fin 3 → Nat) = fun _ => 0 := funext fun a => by fin_cases a <;> rfl

/-- Chunk `k`'s rows of a staged block of `z`, and its label words. -/
abbrev zch (x0 : Vec F S8192x128 .f32) (k : Fin k0_t1_loop.trips) : Vec F S1024x128 .f32 :=
  View.ld x0 (Rect.unit (s := S8192x128) (k0_off1 k) S1024x128.size (k0_off1_inb k))
abbrev lch (x1 : Vec F S8192 .i32) (k : Fin k0_t1_loop.trips) : Vec F S1024 .i32 :=
  View.ld x1 (Rect.unit (s := S8192) (k0_off2 k) S1024.size (k0_off2_inb k))

/-- One chunk's step on each accumulator: sums, counts, sums of squares, hinge. -/
def step3 (v3 : Vec F S128 .f32) (v4 : IVec S1024x1024 32) (zc : Vec F S1024x128 .f32) (lc : Vec F S1024 .i32)
    (a : Vec F S1x1x1024 .f32) : Vec F S1x1x1024 .f32 :=
  k0_pay16 v4 (k0_pay6 lc) (k0_pay9 v3 zc) (k0_pay10 v3 zc) (k0_pay11 v3 zc) (k0_pay12 v3 zc) (k0_pay13 v3 zc) a
def step4 (v3 : Vec F S128 .f32) (v4 : IVec S1024x1024 32) (zc : Vec F S1024x128 .f32) (lc : Vec F S1024 .i32)
    (a : Vec F S1x1x1024 .f32) : Vec F S1x1x1024 .f32 :=
  k0_pay15 v4 (k0_pay6 lc) (k0_pay9 v3 zc) (k0_pay10 v3 zc) (k0_pay11 v3 zc) (k0_pay12 v3 zc) (k0_pay13 v3 zc) a
def step5 (v3 : Vec F S128 .f32) (v4 : IVec S1024x1024 32) (zc : Vec F S1024x128 .f32) (lc : Vec F S1024 .i32)
    (a : Vec F S1x1x1024 .f32) : Vec F S1x1x1024 .f32 :=
  k0_pay5 (k0_pay14 v4 (k0_pay6 lc) (k0_pay9 v3 zc) (k0_pay10 v3 zc) (k0_pay11 v3 zc) (k0_pay12 v3 zc) (k0_pay13 v3 zc))
    (k0_pay17 a) (k0_pay18 v4 (k0_pay6 lc) (k0_pay9 v3 zc) (k0_pay10 v3 zc) (k0_pay11 v3 zc) (k0_pay12 v3 zc) (k0_pay13 v3 zc))
def step6 (v3 : Vec F S128 .f32) (zc : Vec F S1024x128 .f32) (lc : Vec F S1024 .i32)
    (a : Vec F S1x1x128 .f32) : Vec F S1x1x128 .f32 :=
  k0_pay8 v3 zc lc a

/-- Each accumulator after the first `n` chunks, from what it held: the chunks' steps in order. -/
def fold3 (v3 : Vec F S128 .f32) (v4 : IVec S1024x1024 32) (x0 : Vec F S8192x128 .f32) (x1 : Vec F S8192 .i32)
    (a : Vec F S1x1x1024 .f32) : ℕ → Vec F S1x1x1024 .f32
  | 0 => a
  | n + 1 => if h : n < k0_t1_loop.trips then step3 v3 v4 (zch x0 ⟨n, h⟩) (lch x1 ⟨n, h⟩) (fold3 v3 v4 x0 x1 a n) else fold3 v3 v4 x0 x1 a n
def fold4 (v3 : Vec F S128 .f32) (v4 : IVec S1024x1024 32) (x0 : Vec F S8192x128 .f32) (x1 : Vec F S8192 .i32)
    (a : Vec F S1x1x1024 .f32) : ℕ → Vec F S1x1x1024 .f32
  | 0 => a
  | n + 1 => if h : n < k0_t1_loop.trips then step4 v3 v4 (zch x0 ⟨n, h⟩) (lch x1 ⟨n, h⟩) (fold4 v3 v4 x0 x1 a n) else fold4 v3 v4 x0 x1 a n
def fold5 (v3 : Vec F S128 .f32) (v4 : IVec S1024x1024 32) (x0 : Vec F S8192x128 .f32) (x1 : Vec F S8192 .i32)
    (a : Vec F S1x1x1024 .f32) : ℕ → Vec F S1x1x1024 .f32
  | 0 => a
  | n + 1 => if h : n < k0_t1_loop.trips then step5 v3 v4 (zch x0 ⟨n, h⟩) (lch x1 ⟨n, h⟩) (fold5 v3 v4 x0 x1 a n) else fold5 v3 v4 x0 x1 a n
def fold6 (v3 : Vec F S128 .f32) (x0 : Vec F S8192x128 .f32) (x1 : Vec F S8192 .i32)
    (a : Vec F S1x1x128 .f32) : ℕ → Vec F S1x1x128 .f32
  | 0 => a
  | n + 1 => if h : n < k0_t1_loop.trips then step6 v3 (zch x0 ⟨n, h⟩) (lch x1 ⟨n, h⟩) (fold6 v3 x0 x1 a n) else fold6 v3 x0 x1 a n

/-- A store through the whole-shape rectangle at zero offsets leaves its payload, whatever was there. -/
theorem read_writes_unit_zero {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  subst h; funext y
  have e := View.read_writes_cons_emb v f (Rect.whole S) w [] y
  rw [Rect.emb_whole_apply] at e
  exact e
theorem read_writes_whole3 {sig' : RefSig} {κ : Kind} {sp : Space} (v : View sig' κ sp S1x1x1024 .f32)
    (f : v.ty.Contents (Elt F)) (w : S1x1x1024.Idx → Elt F .f32) :
    v.read (Elt F) (v.writes (Elt F) f [(⟨R3, w⟩ : View.Piece (Elt F) S1x1x1024 .f32)]) = w :=
  read_writes_unit_zero v f hz3 _ w
theorem read_writes_whole8 {sig' : RefSig} {κ : Kind} {sp : Space} (v : View sig' κ sp S1x1x128 .f32)
    (f : v.ty.Contents (Elt F)) (w : S1x1x128.Idx → Elt F .f32) :
    v.read (Elt F) (v.writes (Elt F) f [(⟨R8, w⟩ : View.Piece (Elt F) S1x1x128 .f32)]) = w :=
  read_writes_unit_zero v f hz3 _ w

section Trip
variable (𝒱 : Variants) (c : Dev nD) (bd : Option 𝒱.V) (i : grid0.Coords) (arg2 : Memref sig .tc .vmem S8192x128 .f32) (harg2 : arg2.IsWhole) (arg3 : Memref sig .tc .vmem S8192 .i32) (harg3 : arg3.IsWhole) (arg4 : Memref sig .tc .vmem S128 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x128 .f32) (harg8 : arg8.IsWhole) (v3 : Vec F S128 .f32) (v4 : IVec S1024x1024 32)
  (X2 : BufTy.Contents (Elt F) arg2.view.ty) (X3 : BufTy.Contents (Elt F) arg3.view.ty)

/-- ONE TRIP's pieces: each accumulator gets one store through its whole-block rectangle, of the chunk's step applied to
    what the trip found there. -/
theorem tripL_eq (k : Fin k0_t1_loop.trips)
    (f5 : BufTy.Contents (Elt F) arg5.view.ty) (f6 : BufTy.Contents (Elt F) arg6.view.ty)
    (f7 : BufTy.Contents (Elt F) arg7.view.ty) (f8 : BufTy.Contents (Elt F) arg8.view.ty) :
    tripL_k0_t1 (F := F) 𝒱 c bd i arg2 harg2 arg3 harg3 arg4 harg4 arg5 harg5 arg6 harg6 arg7 harg7 arg8 harg8 v3 v4 X2 X3 k f5 f6 f7 f8
      = ([(⟨R3, step3 v3 v4 (zch (arg2.view.read (Elt F) X2) k) (lch (arg3.view.read (Elt F) X3) k) (View.readAt (Elt F) arg5.view R3.toLoadRect f5)⟩ : View.Piece (Elt F) S1x1x1024 .f32)],
         [(⟨R3, step4 v3 v4 (zch (arg2.view.read (Elt F) X2) k) (lch (arg3.view.read (Elt F) X3) k) (View.readAt (Elt F) arg6.view R3.toLoadRect f6)⟩ : View.Piece (Elt F) S1x1x1024 .f32)],
         [(⟨R3, step5 v3 v4 (zch (arg2.view.read (Elt F) X2) k) (lch (arg3.view.read (Elt F) X3) k) (View.readAt (Elt F) arg7.view R3.toLoadRect f7)⟩ : View.Piece (Elt F) S1x1x1024 .f32)],
         [(⟨R8, step6 v3 (zch (arg2.view.read (Elt F) X2) k) (lch (arg3.view.read (Elt F) X3) k) (View.readAt (Elt F) arg8.view R8.toLoadRect f8)⟩ : View.Piece (Elt F) S1x1x128 .f32)]) := by
  unfold tripL_k0_t1 trip_k0_t1
  rfl

/-- THE LOOP: after `n` trips from contents `G·`, each accumulator reads the `n`-chunk fold of what `G·` read. -/
theorem pb_read (G5 : BufTy.Contents (Elt F) arg5.view.ty) (G6 : BufTy.Contents (Elt F) arg6.view.ty)
    (G7 : BufTy.Contents (Elt F) arg7.view.ty) (G8 : BufTy.Contents (Elt F) arg8.view.ty) :
    ∀ n : ℕ, n ≤ k0_t1_loop.trips →
      arg5.view.read (Elt F) (arg5.view.writes (Elt F) G5 (pb_k0_t1 (F := F) 𝒱 c bd i arg2 harg2 arg3 harg3 arg4 harg4 arg5 harg5 arg6 harg6 arg7 harg7 arg8 harg8 v3 v4 X2 X3 G5 G6 G7 G8 n).1)
          = fold3 v3 v4 (arg2.view.read (Elt F) X2) (arg3.view.read (Elt F) X3) (arg5.view.read (Elt F) G5) n
      ∧ arg6.view.read (Elt F) (arg6.view.writes (Elt F) G6 (pb_k0_t1 (F := F) 𝒱 c bd i arg2 harg2 arg3 harg3 arg4 harg4 arg5 harg5 arg6 harg6 arg7 harg7 arg8 harg8 v3 v4 X2 X3 G5 G6 G7 G8 n).2.1)
          = fold4 v3 v4 (arg2.view.read (Elt F) X2) (arg3.view.read (Elt F) X3) (arg6.view.read (Elt F) G6) n
      ∧ arg7.view.read (Elt F) (arg7.view.writes (Elt F) G7 (pb_k0_t1 (F := F) 𝒱 c bd i arg2 harg2 arg3 harg3 arg4 harg4 arg5 harg5 arg6 harg6 arg7 harg7 arg8 harg8 v3 v4 X2 X3 G5 G6 G7 G8 n).2.2.1)
          = fold5 v3 v4 (arg2.view.read (Elt F) X2) (arg3.view.read (Elt F) X3) (arg7.view.read (Elt F) G7) n
      ∧ arg8.view.read (Elt F) (arg8.view.writes (Elt F) G8 (pb_k0_t1 (F := F) 𝒱 c bd i arg2 harg2 arg3 harg3 arg4 harg4 arg5 harg5 arg6 harg6 arg7 harg7 arg8 harg8 v3 v4 X2 X3 G5 G6 G7 G8 n).2.2.2)
          = fold6 v3 (arg2.view.read (Elt F) X2) (arg3.view.read (Elt F) X3) (arg8.view.read (Elt F) G8) n
  | 0, _ => ⟨rfl, rfl, rfl, rfl⟩
  | n + 1, hn => by
    have h : n < k0_t1_loop.trips := hn
    obtain ⟨i5, i6, i7, i8⟩ := pb_read G5 G6 G7 G8 n (Nat.le_of_lt h)
    have e := pb_k0_t1_succ (F := F) 𝒱 c bd i arg2 harg2 arg3 harg3 arg4 harg4 arg5 harg5 arg6 harg6 arg7 harg7 arg8 harg8 v3 v4 X2 X3 G5 G6 G7 G8 ⟨n, h⟩
    rw [show n + 1 = (⟨n, h⟩ : Fin k0_t1_loop.trips).val + 1 from rfl, e, tripL_eq]
    simp only [View.writes_append, read_writes_whole3, read_writes_whole8, View.readAt_eq_ld,
      View.ld_unit_zero (S := S1x1x1024) hz3, View.ld_unit_zero (S := S1x1x128) hz3]
    rw [i5, i6, i7, i8]
    refine ⟨?_, ?_, ?_, ?_⟩
    · rw [fold3, dif_pos h]
    · rw [fold4, dif_pos h]
    · rw [fold5, dif_pos h]
    · rw [fold6, dif_pos h]

end Trip

/-- The metric vector as the body loads it (a whole-buffer load), and the row-index matrix it compares labels with. -/
abbrev v3At (arg4 : Memref sig .tc .vmem S128 .f32) (harg4 : arg4.IsWhole) (x2 : Vec F S128 .f32) : Vec F S128 .f32 :=
  View.readAt (Elt F) arg4.view (Rect.unit (s := S128) ![0] S128.size inb_S128_S128_0).toLoadRect (harg4.unread x2)
abbrev iotaV : IVec S1024x1024 32 := iota .tc S1024x1024 32 [0] iota_S1024x1024_d0_w32

theorem hz1 : (![0] : Fin 1 → Nat) = fun _ => 0 := funext fun a => by fin_cases a; rfl

theorem v3At_eq (arg4 : Memref sig .tc .vmem S128 .f32) (harg4 : arg4.IsWhole) (x2 : Vec F S128 .f32) :
    v3At arg4 harg4 x2 = x2 := by
  unfold v3At
  rw [View.readAt_eq_ld, harg4.read_unread, View.ld_unit_zero (S := S128) hz1]

/-- CASE B, block 3: the eight chunk steps applied to what the point before left. -/
theorem out_B_3 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S128 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x128 .f32) (harg8 : arg8.IsWhole) (hc0 : ¬cond0_0 i)
    (x0 : Vec F S8192x128 .f32) (x1 : Vec F S8192 .i32) (x2 : Vec F S128 .f32) (xo3 : Vec F S1x1x1024 .f32) (xo4 : Vec F S1x1x1024 .f32) (xo5 : Vec F S1x1x1024 .f32) (xo6 : Vec F S1x1x128 .f32) :
    out0_B_3 c i arg2 harg2 arg3 harg3 arg4 harg4 arg5 harg5 arg6 harg6 arg7 harg7 arg8 harg8 hc0 x0 x1 x2 xo3 xo4 xo5 xo6 = fold3 x2 iotaV x0 x1 xo3 k0_t1_loop.trips := by
  have hcov := cover0_B_3 c i arg2 harg2 arg3 harg3 arg4 harg4 arg5 harg5 arg6 harg6 arg7 harg7 arg8 harg8 hc0 x0 x1 x2 xo3 xo4 xo5 xo6
  unfold out0_B_3
  rw [View.read_writes_eq_canon _ _ _ hcov, ← View.read_writes_eq_canon arg5.view (harg5.unread xo3) _ hcov]
  unfold kernelRun0_B
  dsimp only
  sl_unfold_words
  have h := pb_read (F := F) Variants.none c none i arg2 harg2 arg3 harg3 arg4 harg4 arg5 harg5 arg6 harg6 arg7 harg7 arg8 harg8 (v3At arg4 harg4 x2) iotaV
    (harg2.unread x0) (harg3.unread x1) (harg5.unread xo3) (harg6.unread xo4) (harg7.unread xo5) (harg8.unread xo6)
    k0_t1_loop.trips le_rfl
  rw [harg2.read_unread, harg3.read_unread, harg5.read_unread, harg6.read_unread, harg7.read_unread, harg8.read_unread] at h
  exact h.1.trans (by rw [v3At_eq])

/-- CASE A, block 3: the eight chunk steps applied to the zero block. -/
theorem out_A_3 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S128 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x128 .f32) (harg8 : arg8.IsWhole) (hc0 : cond0_0 i)
    (x0 : Vec F S8192x128 .f32) (x1 : Vec F S8192 .i32) (x2 : Vec F S128 .f32) :
    out0_A_3 c i arg2 harg2 arg3 harg3 arg4 harg4 arg5 harg5 arg6 harg6 arg7 harg7 arg8 harg8 hc0 x0 x1 x2 = fold3 x2 iotaV x0 x1 k0_pay1 k0_t1_loop.trips := by
  unfold out0_A_3
  rw [View.read_writes_junk_eq_canon, ← View.read_writes_junk_eq_canon arg5.view]
  unfold kernelRun0_A
  dsimp only
  sl_unfold_words
  rw [View.writes_append]
  have h := pb_read (F := F) Variants.none c none i arg2 harg2 arg3 harg3 arg4 harg4 arg5 harg5 arg6 harg6 arg7 harg7 arg8 harg8 (v3At arg4 harg4 x2) iotaV
    (harg2.unread x0) (harg3.unread x1)
    (arg5.view.writes (Elt F) arg5.view.junk [(⟨R3, k0_pay1⟩ : View.Piece (Elt F) S1x1x1024 .f32)])
    (arg6.view.writes (Elt F) arg6.view.junk [(⟨R3, k0_pay2⟩ : View.Piece (Elt F) S1x1x1024 .f32)])
    (arg7.view.writes (Elt F) arg7.view.junk [(⟨R3, k0_pay3⟩ : View.Piece (Elt F) S1x1x1024 .f32)])
    (arg8.view.writes (Elt F) arg8.view.junk [(⟨R8, k0_pay4⟩ : View.Piece (Elt F) S1x1x128 .f32)])
    k0_t1_loop.trips le_rfl
  rw [harg2.read_unread, harg3.read_unread, read_writes_whole3, read_writes_whole3, read_writes_whole3, read_writes_whole8] at h
  exact h.1.trans (by rw [v3At_eq])

/-- CASE B, block 4: the eight chunk steps applied to what the point before left. -/
theorem out_B_4 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S128 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x128 .f32) (harg8 : arg8.IsWhole) (hc0 : ¬cond0_0 i)
    (x0 : Vec F S8192x128 .f32) (x1 : Vec F S8192 .i32) (x2 : Vec F S128 .f32) (xo3 : Vec F S1x1x1024 .f32) (xo4 : Vec F S1x1x1024 .f32) (xo5 : Vec F S1x1x1024 .f32) (xo6 : Vec F S1x1x128 .f32) :
    out0_B_4 c i arg2 harg2 arg3 harg3 arg4 harg4 arg5 harg5 arg6 harg6 arg7 harg7 arg8 harg8 hc0 x0 x1 x2 xo3 xo4 xo5 xo6 = fold4 x2 iotaV x0 x1 xo4 k0_t1_loop.trips := by
  have hcov := cover0_B_4 c i arg2 harg2 arg3 harg3 arg4 harg4 arg5 harg5 arg6 harg6 arg7 harg7 arg8 harg8 hc0 x0 x1 x2 xo3 xo4 xo5 xo6
  unfold out0_B_4
  rw [View.read_writes_eq_canon _ _ _ hcov, ← View.read_writes_eq_canon arg6.view (harg6.unread xo4) _ hcov]
  unfold kernelRun0_B
  dsimp only
  sl_unfold_words
  have h := pb_read (F := F) Variants.none c none i arg2 harg2 arg3 harg3 arg4 harg4 arg5 harg5 arg6 harg6 arg7 harg7 arg8 harg8 (v3At arg4 harg4 x2) iotaV
    (harg2.unread x0) (harg3.unread x1) (harg5.unread xo3) (harg6.unread xo4) (harg7.unread xo5) (harg8.unread xo6)
    k0_t1_loop.trips le_rfl
  rw [harg2.read_unread, harg3.read_unread, harg5.read_unread, harg6.read_unread, harg7.read_unread, harg8.read_unread] at h
  exact h.2.1.trans (by rw [v3At_eq])

/-- CASE A, block 4: the eight chunk steps applied to the zero block. -/
theorem out_A_4 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S128 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x128 .f32) (harg8 : arg8.IsWhole) (hc0 : cond0_0 i)
    (x0 : Vec F S8192x128 .f32) (x1 : Vec F S8192 .i32) (x2 : Vec F S128 .f32) :
    out0_A_4 c i arg2 harg2 arg3 harg3 arg4 harg4 arg5 harg5 arg6 harg6 arg7 harg7 arg8 harg8 hc0 x0 x1 x2 = fold4 x2 iotaV x0 x1 k0_pay2 k0_t1_loop.trips := by
  unfold out0_A_4
  rw [View.read_writes_junk_eq_canon, ← View.read_writes_junk_eq_canon arg6.view]
  unfold kernelRun0_A
  dsimp only
  sl_unfold_words
  rw [View.writes_append]
  have h := pb_read (F := F) Variants.none c none i arg2 harg2 arg3 harg3 arg4 harg4 arg5 harg5 arg6 harg6 arg7 harg7 arg8 harg8 (v3At arg4 harg4 x2) iotaV
    (harg2.unread x0) (harg3.unread x1)
    (arg5.view.writes (Elt F) arg5.view.junk [(⟨R3, k0_pay1⟩ : View.Piece (Elt F) S1x1x1024 .f32)])
    (arg6.view.writes (Elt F) arg6.view.junk [(⟨R3, k0_pay2⟩ : View.Piece (Elt F) S1x1x1024 .f32)])
    (arg7.view.writes (Elt F) arg7.view.junk [(⟨R3, k0_pay3⟩ : View.Piece (Elt F) S1x1x1024 .f32)])
    (arg8.view.writes (Elt F) arg8.view.junk [(⟨R8, k0_pay4⟩ : View.Piece (Elt F) S1x1x128 .f32)])
    k0_t1_loop.trips le_rfl
  rw [harg2.read_unread, harg3.read_unread, read_writes_whole3, read_writes_whole3, read_writes_whole3, read_writes_whole8] at h
  exact h.2.1.trans (by rw [v3At_eq])

/-- CASE B, block 5: the eight chunk steps applied to what the point before left. -/
theorem out_B_5 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S128 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x128 .f32) (harg8 : arg8.IsWhole) (hc0 : ¬cond0_0 i)
    (x0 : Vec F S8192x128 .f32) (x1 : Vec F S8192 .i32) (x2 : Vec F S128 .f32) (xo3 : Vec F S1x1x1024 .f32) (xo4 : Vec F S1x1x1024 .f32) (xo5 : Vec F S1x1x1024 .f32) (xo6 : Vec F S1x1x128 .f32) :
    out0_B_5 c i arg2 harg2 arg3 harg3 arg4 harg4 arg5 harg5 arg6 harg6 arg7 harg7 arg8 harg8 hc0 x0 x1 x2 xo3 xo4 xo5 xo6 = fold5 x2 iotaV x0 x1 xo5 k0_t1_loop.trips := by
  have hcov := cover0_B_5 c i arg2 harg2 arg3 harg3 arg4 harg4 arg5 harg5 arg6 harg6 arg7 harg7 arg8 harg8 hc0 x0 x1 x2 xo3 xo4 xo5 xo6
  unfold out0_B_5
  rw [View.read_writes_eq_canon _ _ _ hcov, ← View.read_writes_eq_canon arg7.view (harg7.unread xo5) _ hcov]
  unfold kernelRun0_B
  dsimp only
  sl_unfold_words
  have h := pb_read (F := F) Variants.none c none i arg2 harg2 arg3 harg3 arg4 harg4 arg5 harg5 arg6 harg6 arg7 harg7 arg8 harg8 (v3At arg4 harg4 x2) iotaV
    (harg2.unread x0) (harg3.unread x1) (harg5.unread xo3) (harg6.unread xo4) (harg7.unread xo5) (harg8.unread xo6)
    k0_t1_loop.trips le_rfl
  rw [harg2.read_unread, harg3.read_unread, harg5.read_unread, harg6.read_unread, harg7.read_unread, harg8.read_unread] at h
  exact h.2.2.1.trans (by rw [v3At_eq])

/-- CASE A, block 5: the eight chunk steps applied to the zero block. -/
theorem out_A_5 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S128 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x128 .f32) (harg8 : arg8.IsWhole) (hc0 : cond0_0 i)
    (x0 : Vec F S8192x128 .f32) (x1 : Vec F S8192 .i32) (x2 : Vec F S128 .f32) :
    out0_A_5 c i arg2 harg2 arg3 harg3 arg4 harg4 arg5 harg5 arg6 harg6 arg7 harg7 arg8 harg8 hc0 x0 x1 x2 = fold5 x2 iotaV x0 x1 k0_pay3 k0_t1_loop.trips := by
  unfold out0_A_5
  rw [View.read_writes_junk_eq_canon, ← View.read_writes_junk_eq_canon arg7.view]
  unfold kernelRun0_A
  dsimp only
  sl_unfold_words
  rw [View.writes_append]
  have h := pb_read (F := F) Variants.none c none i arg2 harg2 arg3 harg3 arg4 harg4 arg5 harg5 arg6 harg6 arg7 harg7 arg8 harg8 (v3At arg4 harg4 x2) iotaV
    (harg2.unread x0) (harg3.unread x1)
    (arg5.view.writes (Elt F) arg5.view.junk [(⟨R3, k0_pay1⟩ : View.Piece (Elt F) S1x1x1024 .f32)])
    (arg6.view.writes (Elt F) arg6.view.junk [(⟨R3, k0_pay2⟩ : View.Piece (Elt F) S1x1x1024 .f32)])
    (arg7.view.writes (Elt F) arg7.view.junk [(⟨R3, k0_pay3⟩ : View.Piece (Elt F) S1x1x1024 .f32)])
    (arg8.view.writes (Elt F) arg8.view.junk [(⟨R8, k0_pay4⟩ : View.Piece (Elt F) S1x1x128 .f32)])
    k0_t1_loop.trips le_rfl
  rw [harg2.read_unread, harg3.read_unread, read_writes_whole3, read_writes_whole3, read_writes_whole3, read_writes_whole8] at h
  exact h.2.2.1.trans (by rw [v3At_eq])

/-- CASE B, block 6: the eight chunk steps applied to what the point before left. -/
theorem out_B_6 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S128 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x128 .f32) (harg8 : arg8.IsWhole) (hc0 : ¬cond0_0 i)
    (x0 : Vec F S8192x128 .f32) (x1 : Vec F S8192 .i32) (x2 : Vec F S128 .f32) (xo3 : Vec F S1x1x1024 .f32) (xo4 : Vec F S1x1x1024 .f32) (xo5 : Vec F S1x1x1024 .f32) (xo6 : Vec F S1x1x128 .f32) :
    out0_B_6 c i arg2 harg2 arg3 harg3 arg4 harg4 arg5 harg5 arg6 harg6 arg7 harg7 arg8 harg8 hc0 x0 x1 x2 xo3 xo4 xo5 xo6 = fold6 x2 x0 x1 xo6 k0_t1_loop.trips := by
  have hcov := cover0_B_6 c i arg2 harg2 arg3 harg3 arg4 harg4 arg5 harg5 arg6 harg6 arg7 harg7 arg8 harg8 hc0 x0 x1 x2 xo3 xo4 xo5 xo6
  unfold out0_B_6
  rw [View.read_writes_eq_canon _ _ _ hcov, ← View.read_writes_eq_canon arg8.view (harg8.unread xo6) _ hcov]
  unfold kernelRun0_B
  dsimp only
  sl_unfold_words
  have h := pb_read (F := F) Variants.none c none i arg2 harg2 arg3 harg3 arg4 harg4 arg5 harg5 arg6 harg6 arg7 harg7 arg8 harg8 (v3At arg4 harg4 x2) iotaV
    (harg2.unread x0) (harg3.unread x1) (harg5.unread xo3) (harg6.unread xo4) (harg7.unread xo5) (harg8.unread xo6)
    k0_t1_loop.trips le_rfl
  rw [harg2.read_unread, harg3.read_unread, harg5.read_unread, harg6.read_unread, harg7.read_unread, harg8.read_unread] at h
  exact h.2.2.2.trans (by rw [v3At_eq])

/-- CASE A, block 6: the eight chunk steps applied to the zero block. -/
theorem out_A_6 (c : Dev nD) (i : grid0.Coords) (arg2 : Memref sig .tc .vmem S8192x128 .f32) (harg2 : arg2.IsWhole) (arg3 : Memref sig .tc .vmem S8192 .i32) (harg3 : arg3.IsWhole) (arg4 : Memref sig .tc .vmem S128 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x128 .f32) (harg8 : arg8.IsWhole) (hc0 : cond0_0 i)
    (x0 : Vec F S8192x128 .f32) (x1 : Vec F S8192 .i32) (x2 : Vec F S128 .f32) :
    out0_A_6 c i arg2 harg2 arg3 harg3 arg4 harg4 arg5 harg5 arg6 harg6 arg7 harg7 arg8 harg8 hc0 x0 x1 x2 = fold6 x2 x0 x1 k0_pay4 k0_t1_loop.trips := by
  unfold out0_A_6
  rw [View.read_writes_junk_eq_canon, ← View.read_writes_junk_eq_canon arg8.view]
  unfold kernelRun0_A
  dsimp only
  sl_unfold_words
  rw [View.writes_append]
  have h := pb_read (F := F) Variants.none c none i arg2 harg2 arg3 harg3 arg4 harg4 arg5 harg5 arg6 harg6 arg7 harg7 arg8 harg8 (v3At arg4 harg4 x2) iotaV
    (harg2.unread x0) (harg3.unread x1)
    (arg5.view.writes (Elt F) arg5.view.junk [(⟨R3, k0_pay1⟩ : View.Piece (Elt F) S1x1x1024 .f32)])
    (arg6.view.writes (Elt F) arg6.view.junk [(⟨R3, k0_pay2⟩ : View.Piece (Elt F) S1x1x1024 .f32)])
    (arg7.view.writes (Elt F) arg7.view.junk [(⟨R3, k0_pay3⟩ : View.Piece (Elt F) S1x1x1024 .f32)])
    (arg8.view.writes (Elt F) arg8.view.junk [(⟨R8, k0_pay4⟩ : View.Piece (Elt F) S1x1x128 .f32)])
    k0_t1_loop.trips le_rfl
  rw [harg2.read_unread, harg3.read_unread, read_writes_whole3, read_writes_whole3, read_writes_whole3, read_writes_whole8] at h
  exact h.2.2.2.trans (by rw [v3At_eq])

end Cert.KernelIdeal.KTrip

end
-- ==== Proof.Spec.lean ====
/-
  The mathematics both programs are read against, over the extended reals.

  Inputs: `z` (1,000,000 rows of 128 entries), a label word per row, and the metric vector `J` (128 entries).
  Per row `i` the quadratic form `q i = ∑ d, z i d · z i d · J d`.  From it:
    * the hinge `max (ε − |q i|) 0` summed over the rows (the light-cone term, divided by the row count);
    * per class `c < 1024`: the number of rows labelled `c`, the sum of `q` and the sum of `q²` over them;
    * the mean over the classes of the within-class variance, and the square of the mean of `q`.
  The kernel forms the variance as `E[q²] − (E q)²` from one pass, splits `q` and `q²` into a rounded part
  and a remainder `x − x` (zero on finite values), masks its hinge by `label ≥ 0`, and takes the overall sum
  of `q` as the sum of the class sums; the reference forms the variance as the class mean of `(q − mean)²`.
  `kres` and `rres` are the two results exactly as the two programs compute them; `Bridge.lean` proves them
  equal when every entry of `z` and `J` is finite and every label lies in `[0, 1024)`.
-/
import Idealize.ShloMosaic.PureOps.Ideal

noncomputable section

namespace Cert.Spec

open Idealize.ShloMosaic
open scoped BigOperators

/-- The literal `0.1` as binary32 (the hinge's threshold): the same word in both programs, never evaluated. -/
def eps : EReal := Ideal.ofBits .f32 0x3DCCCCCD#32
/-- The literal `1.0e6`, the number of rows. -/
def nRows : EReal := Ideal.ofBits .f32 0x49742400#32
/-- The literal `1024.0`, the number of classes. -/
def nCls : EReal := Ideal.ofBits .f32 0x44800000#32
/-- The literal `1.0` (the three weights, and the floor of a class count). -/
def one : EReal := Ideal.ofBits .f32 0x3F800000#32

section
variable (z : Fin 1000000 → Fin 128 → EReal) (lab : Fin 1000000 → BitVec 32) (J : Fin 128 → EReal)

/-- The quadratic form of row `i`. -/
def q (i : Fin 1000000) : EReal := ∑ d : Fin 128, z i d * z i d * J d

/-- The hinge `max (ε − |x|) 0`, the absolute value written `max x (−x)`. -/
def hinge (x : EReal) : EReal := max (eps - max x (-x)) 0

/-- The hinge summed over all rows (the reference's). -/
def hingeSum : EReal := ∑ i : Fin 1000000, hinge (q z J i)

/-- The hinge summed over the rows whose label word is non-negative as a signed number (the kernel's mask). -/
def hingeSumK : EReal := ∑ i : Fin 1000000, if 0 ≤ (lab i).toInt then hinge (q z J i) else 0

/-- How many rows carry label `c`. -/
def cnt (c : Fin 1024) : EReal := ∑ i : Fin 1000000, if lab i = BitVec.ofNat 32 c.val then (1 : EReal) else 0

/-- The class count floored at one. -/
def cntC (c : Fin 1024) : EReal := max (cnt lab c) one

/-- The sum of `q` over class `c`. -/
def sm (c : Fin 1024) : EReal := ∑ i : Fin 1000000, if lab i = BitVec.ofNat 32 c.val then q z J i else 0

/-- The kernel's sum of `q` over class `c`: each row adds `q` and the remainder `q − q`. -/
def smK (c : Fin 1024) : EReal :=
  ∑ i : Fin 1000000, if lab i = BitVec.ofNat 32 c.val then q z J i + (q z J i - q z J i) else 0

/-- The kernel's sum of `q²` over class `c`: each row adds `q²` and the remainder `q² − q²`. -/
def sqK (c : Fin 1024) : EReal :=
  ∑ i : Fin 1000000, if lab i = BitVec.ofNat 32 c.val
    then q z J i * q z J i + (q z J i * q z J i - q z J i * q z J i) else 0

/-- The class mean of `q` (count floored at one), as the reference forms it. -/
def mean (c : Fin 1024) : EReal := Ideal.div (sm z lab J c) (cntC lab c)

/-- The kernel's class mean. -/
def meanK (c : Fin 1024) : EReal := Ideal.div (smK z lab J c) (cntC lab c)

/-- The sum over class `c` of the squared deviation of `q` from the class mean. -/
def dev (c : Fin 1024) : EReal :=
  ∑ i : Fin 1000000, if lab i = BitVec.ofNat 32 c.val
    then (q z J i - mean z lab J c) * (q z J i - mean z lab J c) else 0

/-- The sum of `q` over all rows. -/
def total : EReal := ∑ i : Fin 1000000, q z J i

/-- The kernel's result: hinge term, mean over the classes of `E[q²] − (E q)²`, squared overall mean taken
    through the class sums. -/
def kres : EReal :=
  (one * Ideal.div (hingeSumK z lab J) nRows
    + one * Ideal.div (∑ c : Fin 1024, (Ideal.div (sqK z lab J c) (cntC lab c) - meanK z lab J c * meanK z lab J c)) nCls)
  + one * (Ideal.div (∑ c : Fin 1024, smK z lab J c) nRows * Ideal.div (∑ c : Fin 1024, smK z lab J c) nRows)

/-- The reference's result: hinge term, mean over the classes of the mean squared deviation, squared overall mean. -/
def rres : EReal :=
  (one * Ideal.div (hingeSum z J) nRows
    + one * Ideal.div (∑ c : Fin 1024, Ideal.div (dev z lab J c) (cntC lab c)) nCls)
  + one * (Ideal.div (total z J) nRows * Ideal.div (total z J) nRows)

end

end Cert.Spec

end
-- ==== Proof.KPayload.lean ====
/-
  The kernel body's arithmetic, read at an index, over the extended reals.

  Per chunk of 1024 rows (`zc` the chunk's rows of `z`, `lc` its label words, `Jv` the metric vector):
    * the lane sum of `z · z · J` over a row is the row's quadratic form `qc`;
    * the one-hot matrix `onehot[c, j] = (c == label j)` times the five columns `[1, q, q − q, q², q² − q²]`
      is, at `(c, m)`, the sum of column `m` over the rows labelled `c`; column 0 is added to the count
      accumulator, columns 1 and 2 to the sum accumulator, columns 3 and 4 to the sum-of-squares accumulator;
    * the hinge `max (ε − |q|) 0`, summed over the rows whose label word is non-negative, is added to every
      lane of the hinge accumulator.
  No finiteness is assumed: `1 · x = x` and `0 · x = 0` hold for every extended real.
-/
import proofs.«421990_j76184129896577_3_alg».proof.Proof.Spec
import proofs.«421990_j76184129896577_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KPayload

open Cert.KernelIdeal Cert.KernelIdeal.Gen Idealize.ShloMosaic
open Idealize.ShloMosaic.ValueIdx
open scoped BigOperators

/-! ## The row quadratic form -/

/-- The quadratic form of row `j` of a chunk: `∑ d, z j d · z j d · J d`. -/
def qc (zc : Vec Ideal S1024x128 .f32) (Jv : Vec Ideal S128 .f32) (j : Fin 1024) : EReal :=
  ∑ d : Fin 128, zc (ix2 j d) * zc (ix2 j d) * Jv (ix1 d)

/-- The row coordinate along axis 0 of a `1024 × 1024` matrix. -/
abbrev iotaRows : IVec S1024x1024 32 := iota .tc S1024x1024 32 [0] iota_S1024x1024_d0_w32

/-! ## The four zero splats -/

theorem pay1_zero (y : S1x1x1024.Idx) : k0_pay1 (F := Ideal) y = 0 := by
  show Ideal.ofBits .f32 0x00000000#32 = 0
  exact Ideal.ofBits_zero_f32

theorem pay2_zero (y : S1x1x1024.Idx) : k0_pay2 (F := Ideal) y = 0 := by
  show Ideal.ofBits .f32 0x00000000#32 = 0
  exact Ideal.ofBits_zero_f32

theorem pay3_zero (y : S1x1x1024.Idx) : k0_pay3 (F := Ideal) y = 0 := by
  show Ideal.ofBits .f32 0x00000000#32 = 0
  exact Ideal.ofBits_zero_f32

theorem pay4_zero (y : S1x1x128.Idx) : k0_pay4 (F := Ideal) y = 0 := by
  show Ideal.ofBits .f32 0x00000000#32 = 0
  exact Ideal.ofBits_zero_f32

/-! ## Layout operations at an index: a vector as a column and back, a scalar out of a `1 × 1` matrix -/

/-- A vector viewed as a column, `[a] → [a, 1]`, reads at `(i, u)` the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column viewed as a vector, `[a, 1] → [a]`, reads at `i` the column at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The one element of a `1 × 1` matrix, extracted at position `(0, 0)`. -/
theorem extractAt_00 {α : Type} (x : S1x1.Idx → α) (h : ∀ a, (![0, 0] : Fin 2 → Nat) a < S1x1.size a) :
    extractAt ![0, 0] x h = x (ix2 (0 : Fin 1) (0 : Fin 1)) := by
  unfold extractAt
  exact congrArg x (funext fun a => by
    match a with
    | ⟨0, _⟩ => rfl
    | ⟨1, _⟩ => rfl)

/-- Column `k` of a five-column matrix, cut out as a `1024 × 1` slice at offset `o = k` and viewed as a vector. -/
theorem col_apply (M : FVec Ideal S1024x5 .f32) (o : Nat) (h : S1024x5.Slices ![0, o] S1024x1)
    (h' : S1024x1.ShapeCasts S1024) (c : Fin 1024) (k : Fin 5) (hk : k.val = o) :
    shapeCast S1024 (extractStridedSlice S1024x1 ![0, o] M h) h' (ix1 c) = M (ix2 c k) := by
  rw [shapeCast_a1_a_apply]
  exact slice2_axis1_apply o M h c 0 k (hk.trans (Nat.add_zero o).symm)

/-! ## The lane sum of a row -/

/-- The source index over row `j` with lane `d` inserted is `(j, d)`. -/
theorem lift_row (j : Fin 1024) (d : Fin 128) :
    reduces_S1024x128_S1024.lift (ix1 j) d = ix2 j d := by
  funext a
  match a with
  | ⟨0, _⟩ => rfl
  | ⟨1, _⟩ => rfl

/-- The lane sum of `z · z · J` over row `j` is the row's quadratic form. -/
theorem pay7_apply (zc : Vec Ideal S1024x128 .f32) (Jv : Vec Ideal S128 .f32) (j : Fin 1024) :
    k0_pay7 Jv zc (ix1 j) = qc zc Jv j := by
  unfold k0_pay7 qc
  refine (Ideal.multiReduction_add_single _ 0x00000000#32 reduces_S1024x128_S1024 (.inl rfl) rfl (ix1 j)).trans ?_
  refine Finset.sum_congr rfl fun (d : Fin 128) _ => ?_
  rw [lift_row j d, mulf_apply, mulf_apply, shapeCast_self, broadcastTo_1b_ab_apply, shapeCast_a_1a_apply]

/-- The label words pass through a same-shape cast unchanged. -/
theorem pay6_eq (lc : Vec Ideal S1024 .i32) : k0_pay6 (F := Ideal) lc = lc := shapeCast_self lc _

/-! ## The product with the one-hot matrix, read at an index -/

/-- On the left operand's free axis the operand index is the result's row. -/
theorem lhs_axis_0 (i : S1024x5.Idx) (q : dot_S1024x1024_S1024x5_S1024x5_1_0_0_1_n_n.contr.Idx) :
    (dot_S1024x1024_S1024x5_S1024x5_1_0_0_1_n_n.lhsIdx i q 0).val = (i 0).val := by
  unfold DotDims.lhsIdx
  rw [dif_neg (show ¬(0 : Fin S1024x1024.rank) ∈ dot_S1024x1024_S1024x5_S1024x5_1_0_0_1_n_n.lhsBatch by decide),
    dif_pos (show (0 : Fin S1024x1024.rank) ∈ dot_S1024x1024_S1024x5_S1024x5_1_0_0_1_n_n.lhsNonContracting by decide)]
  rfl

/-- On the left operand's contracted axis it is the contraction coordinate. -/
theorem lhs_axis_1 (i : S1024x5.Idx) (q : dot_S1024x1024_S1024x5_S1024x5_1_0_0_1_n_n.contr.Idx) :
    (dot_S1024x1024_S1024x5_S1024x5_1_0_0_1_n_n.lhsIdx i q 1).val = (q ⟨0, by decide⟩).val :=
  dot_S1024x1024_S1024x5_S1024x5_1_0_0_1_n_n.lhsIdx_val_of_single rfl i q

/-- On the right operand's contracted axis it is the contraction coordinate. -/
theorem rhs_axis_0 (i : S1024x5.Idx) (q : dot_S1024x1024_S1024x5_S1024x5_1_0_0_1_n_n.contr.Idx) :
    (dot_S1024x1024_S1024x5_S1024x5_1_0_0_1_n_n.rhsIdx i q 0).val = (q ⟨0, by decide⟩).val :=
  dot_S1024x1024_S1024x5_S1024x5_1_0_0_1_n_n.rhsIdx_val_of_single rfl i q

/-- On the right operand's free axis the operand index is the result's column. -/
theorem rhs_axis_1 (i : S1024x5.Idx) (q : dot_S1024x1024_S1024x5_S1024x5_1_0_0_1_n_n.contr.Idx) :
    (dot_S1024x1024_S1024x5_S1024x5_1_0_0_1_n_n.rhsIdx i q 1).val = (i 1).val := by
  unfold DotDims.rhsIdx
  rw [dif_neg (show ¬(1 : Fin S1024x5.rank) ∈ dot_S1024x1024_S1024x5_S1024x5_1_0_0_1_n_n.rhsBatch by decide),
    dif_pos (show (1 : Fin S1024x5.rank) ∈ dot_S1024x1024_S1024x5_S1024x5_1_0_0_1_n_n.rhsNonContracting by decide)]
  rfl

/-- The `[1024, 1024] × [1024, 5]` product into the zero accumulator, at `(c, m)`: `∑ j, A c j · B j m`. -/
theorem matmul_at (A : FVec Ideal S1024x1024 .bf16) (B : FVec Ideal S1024x5 .bf16) (c : Fin 1024) (m : Fin 5) :
    matmul dot_S1024x1024_S1024x5_S1024x5_1_0_0_1_n_n none A B (constant (F := Ideal) S1024x5 .f32 0x00000000#32) (ix2 c m)
      = ∑ j : Fin 1024, A (ix2 c j) * B (ix2 j m) := by
  refine (Ideal.matmul_constant_zero_apply dot_S1024x1024_S1024x5_S1024x5_1_0_0_1_n_n none A B (ix2 c m)).trans ?_
  rw [← Equiv.sum_comp (contrEquiv1 dot_S1024x1024_S1024x5_S1024x5_1_0_0_1_n_n 1024 rfl rfl).symm]
  refine Finset.sum_congr rfl fun k _ => ?_
  have hk := contrEquiv1_symm_val dot_S1024x1024_S1024x5_S1024x5_1_0_0_1_n_n 1024 rfl rfl k
  have el : dot_S1024x1024_S1024x5_S1024x5_1_0_0_1_n_n.lhsIdx (ix2 c m)
      ((contrEquiv1 dot_S1024x1024_S1024x5_S1024x5_1_0_0_1_n_n 1024 rfl rfl).symm k) = ix2 c k :=
    funext fun a => Fin.ext (by
      match a with
      | ⟨0, _⟩ => exact lhs_axis_0 _ _
      | ⟨1, _⟩ => exact (lhs_axis_1 _ _).trans hk)
  have er : dot_S1024x1024_S1024x5_S1024x5_1_0_0_1_n_n.rhsIdx (ix2 c m)
      ((contrEquiv1 dot_S1024x1024_S1024x5_S1024x5_1_0_0_1_n_n 1024 rfl rfl).symm k) = ix2 k m :=
    funext fun a => Fin.ext (by
      match a with
      | ⟨0, _⟩ => exact (rhs_axis_0 _ _).trans hk
      | ⟨1, _⟩ => exact rhs_axis_1 _ _)
  rw [el, er]

/-! ## The one-hot matrix -/

/-- `onehot[c, j] = (c == label j)` as a float: the row coordinate compared with the labels laid along the columns. -/
def onehot (lc : Vec Ideal S1024 .i32) : FVec Ideal S1024x1024 .bf16 :=
  truncf .bf16
    (sitofp .f32
      (extui 32
        (cmpi .eq iotaRows
          (broadcastTo S1024x1024 (shapeCast S1x1024 (k0_pay6 (F := Ideal) lc) shapeCasts_S1024_S1x1024) broadcasts_S1x1024_S1024x1024))
        natLt_1_32))
    bitsLt_bf16_f32

/-- A set bit, widened to 32 bits and converted, is `1`. -/
theorem sitofp_one : (FloatOps.sitofp .f32 ((1#1 : BitVec 1).setWidth 32) : Ideal .f32) = 1 := by
  show (((((1#1 : BitVec 1).setWidth 32).toInt : ℤ) : ℝ) : EReal) = 1
  rw [show ((1#1 : BitVec 1).setWidth 32).toInt = 1 from by decide]
  simp

/-- A clear bit, widened to 32 bits and converted, is `0`. -/
theorem sitofp_zero : (FloatOps.sitofp .f32 ((0#1 : BitVec 1).setWidth 32) : Ideal .f32) = 0 := by
  show (((((0#1 : BitVec 1).setWidth 32).toInt : ℤ) : ℝ) : EReal) = 0
  rw [show ((0#1 : BitVec 1).setWidth 32).toInt = 0 from by decide]
  simp

theorem onehot_apply (lc : Vec Ideal S1024 .i32) (c j : Fin 1024) :
    onehot lc (ix2 c j) = if lc (ix1 j) = BitVec.ofNat 32 c.val then (1 : EReal) else 0 := by
  unfold onehot
  rw [truncf_apply, sitofp_apply, extui_apply]
  show FloatOps.sitofp .f32 ((IntOp.cmpi .eq (iota .tc S1024x1024 32 [0] iota_S1024x1024_d0_w32 (ix2 c j))
    (broadcastTo S1024x1024 (shapeCast S1x1024 (k0_pay6 (F := Ideal) lc) shapeCasts_S1024_S1x1024) broadcasts_S1x1024_S1024x1024 (ix2 c j))).setWidth 32) = _
  rw [iota_single_apply, broadcastTo_1b_ab_apply, shapeCast_a_1a_apply, pay6_eq]
  show FloatOps.sitofp .f32 ((IntOp.cmpi .eq (BitVec.ofNat 32 c.val) (lc (ix1 j))).setWidth 32) = _
  by_cases h : lc (ix1 j) = BitVec.ofNat 32 c.val
  · rw [if_pos h, IntOp.cmpi_eq.mpr h.symm]
    exact sitofp_one
  · rw [if_neg h, eq_zero_of_ne_one (fun h1 => h (IntOp.cmpi_eq.mp h1).symm)]
    exact sitofp_zero

/-! ## The five columns `[1, q, q − q, q², q² − q²]` -/

/-- The five columns, each a `1024 × 1` piece. -/
def colsList (zc : Vec Ideal S1024x128 .f32) (Jv : Vec Ideal S128 .f32) : List ((s : Shape) × (s.Idx → Ideal .bf16)) :=
  [⟨S1024x1, shapeCast S1024x1 (broadcast S1024 (Scalar.ofBits (F := Ideal) .bf16 0x3F80#16)) shapeCasts_S1024_S1024x1⟩,
   ⟨S1024x1, shapeCast S1024x1 (k0_pay10 Jv zc) shapeCasts_S1024_S1024x1⟩,
   ⟨S1024x1, shapeCast S1024x1 (k0_pay11 Jv zc) shapeCasts_S1024_S1024x1⟩,
   ⟨S1024x1, shapeCast S1024x1 (k0_pay12 Jv zc) shapeCasts_S1024_S1024x1⟩,
   ⟨S1024x1, shapeCast S1024x1 (truncf .bf16 (subf (k0_pay9 Jv zc) (k0_pay13 Jv zc)) bitsLt_bf16_f32) shapeCasts_S1024_S1024x1⟩]

/-- The right operand: the five columns laid side by side. -/
def cols (zc : Vec Ideal S1024x128 .f32) (Jv : Vec Ideal S128 .f32) : FVec Ideal S1024x5 .bf16 :=
  concatenate S1024x5 1 (colsList zc Jv) concatenates_S1024x1_S1024x1_S1024x1_S1024x1_S1024x1_S1024x5_d1

/-- The product payload is the one-hot matrix times the five columns, into the zero accumulator. -/
theorem pay14_eq (lc : Vec Ideal S1024 .i32) (zc : Vec Ideal S1024x128 .f32) (Jv : Vec Ideal S128 .f32) :
    k0_pay14 iotaRows (k0_pay6 (F := Ideal) lc) (k0_pay9 Jv zc) (k0_pay10 Jv zc) (k0_pay11 Jv zc) (k0_pay12 Jv zc) (k0_pay13 Jv zc)
      = matmul dot_S1024x1024_S1024x5_S1024x5_1_0_0_1_n_n none (onehot lc) (cols zc Jv)
          (constant (F := Ideal) S1024x5 .f32 0x00000000#32) := rfl

/-- Five columns of width one side by side: column `k` at row `j` reads piece `k` at `(j, 0)`. -/
theorem concat5_apply {α : Type} (xs : List ((s : Shape) × (s.Idx → α)))
    (h : Shape.Concatenates (xs.map (·.1)) S1024x5 1) (j : Fin 1024) (k : Fin 5) (hk : k.val < xs.length)
    (x : S1024x1.Idx → α) (hx : xs[k.val] = ⟨S1024x1, x⟩)
    (hpre : (((xs.take k.val).map (·.1)).map fun s => if h : s.rank = S1024x5.rank then s.size ((1 : Fin S1024x5.rank).cast h.symm) else 0).sum = k.val) :
    concatenate S1024x5 1 xs h (ix2 j k) = x (ix2 j (0 : Fin 1)) :=
  concatenate_apply_piece 1 xs h (ix2 j k) k.val hk S1024x1 x hx rfl k.val hpre (ix2 j (0 : Fin 1))
    (fun b hb => by
      match b with
      | ⟨0, _⟩ => rfl
      | ⟨1, _⟩ => exact absurd rfl hb)
    (Nat.add_zero _)

theorem cols_0 (zc : Vec Ideal S1024x128 .f32) (Jv : Vec Ideal S128 .f32) (j : Fin 1024) :
    cols zc Jv (ix2 j (0 : Fin 5)) = 1 := by
  unfold cols
  refine (concat5_apply (colsList zc Jv) _ j 0 (Fin.isLt _) _ rfl rfl).trans ?_
  rw [shapeCast_a_a1_apply, broadcast_apply]
  exact IdealRules.sign_bit.ideal_onePat .bf16

theorem cols_1 (zc : Vec Ideal S1024x128 .f32) (Jv : Vec Ideal S128 .f32) (j : Fin 1024) :
    cols zc Jv (ix2 j (1 : Fin 5)) = qc zc Jv j := by
  unfold cols
  refine (concat5_apply (colsList zc Jv) _ j 1 (Fin.isLt _) _ rfl rfl).trans ?_
  rw [shapeCast_a_a1_apply]
  unfold k0_pay10
  rw [truncf_apply, pay7_apply]

theorem cols_2 (zc : Vec Ideal S1024x128 .f32) (Jv : Vec Ideal S128 .f32) (j : Fin 1024) :
    cols zc Jv (ix2 j (2 : Fin 5)) = qc zc Jv j - qc zc Jv j := by
  unfold cols
  refine (concat5_apply (colsList zc Jv) _ j 2 (Fin.isLt _) _ rfl rfl).trans ?_
  rw [shapeCast_a_a1_apply]
  unfold k0_pay11
  rw [truncf_apply, subf_apply, pay7_apply]

theorem cols_3 (zc : Vec Ideal S1024x128 .f32) (Jv : Vec Ideal S128 .f32) (j : Fin 1024) :
    cols zc Jv (ix2 j (3 : Fin 5)) = qc zc Jv j * qc zc Jv j := by
  unfold cols
  refine (concat5_apply (colsList zc Jv) _ j 3 (Fin.isLt _) _ rfl rfl).trans ?_
  rw [shapeCast_a_a1_apply]
  unfold k0_pay12 k0_pay9
  rw [truncf_apply, mulf_apply, pay7_apply]

theorem cols_4 (zc : Vec Ideal S1024x128 .f32) (Jv : Vec Ideal S128 .f32) (j : Fin 1024) :
    cols zc Jv (ix2 j (4 : Fin 5)) = qc zc Jv j * qc zc Jv j - qc zc Jv j * qc zc Jv j := by
  unfold cols
  refine (concat5_apply (colsList zc Jv) _ j 4 (Fin.isLt _) _ rfl rfl).trans ?_
  rw [shapeCast_a_a1_apply]
  unfold k0_pay13 k0_pay9
  rw [truncf_apply, subf_apply, mulf_apply, pay7_apply]

/-- Column `m` of the product at class `c`: the sum of the column's entries over the rows labelled `c`. -/
theorem pay14_col (lc : Vec Ideal S1024 .i32) (zc : Vec Ideal S1024x128 .f32) (Jv : Vec Ideal S128 .f32)
    (c : Fin 1024) (m : Fin 5) (f : Fin 1024 → EReal) (hf : ∀ j, cols zc Jv (ix2 j m) = f j) :
    k0_pay14 iotaRows (k0_pay6 (F := Ideal) lc) (k0_pay9 Jv zc) (k0_pay10 Jv zc) (k0_pay11 Jv zc) (k0_pay12 Jv zc) (k0_pay13 Jv zc) (ix2 c m)
      = ∑ j : Fin 1024, if lc (ix1 j) = BitVec.ofNat 32 c.val then f j else 0 := by
  rw [pay14_eq, matmul_at]
  refine Finset.sum_congr rfl fun j _ => ?_
  rw [onehot_apply, hf j, ite_mul, one_mul, zero_mul]

/-- Two masked terms under one mask add under the mask. -/
theorem ite_add_ite_zero (p : Prop) [Decidable p] (a b : EReal) :
    (if p then a else 0) + (if p then b else 0) = if p then a + b else 0 := by
  split_ifs
  · rfl
  · exact add_zero 0

/-! ## The three accumulator updates -/

theorem cnt_step (zc : Vec Ideal S1024x128 .f32) (lc : Vec Ideal S1024 .i32) (Jv : Vec Ideal S128 .f32)
    (acc : Vec Ideal S1x1x1024 .f32) (c : Fin 1024) :
    k0_pay15 iotaRows (k0_pay6 (F := Ideal) lc) (k0_pay9 Jv zc) (k0_pay10 Jv zc) (k0_pay11 Jv zc) (k0_pay12 Jv zc) (k0_pay13 Jv zc) acc (ix3 0 0 c)
      = acc (ix3 0 0 c) + ∑ j : Fin 1024, if lc (ix1 j) = BitVec.ofNat 32 c.val then (1 : EReal) else 0 := by
  unfold k0_pay15
  rw [shapeCast_ab_1ab_apply, addf_apply, shapeCast_1ab_ab_apply, shapeCast_a_1a_apply,
    col_apply _ 0 _ _ c 0 rfl, pay14_col lc zc Jv c 0 (fun _ => 1) (cols_0 zc Jv)]

theorem sum_step (zc : Vec Ideal S1024x128 .f32) (lc : Vec Ideal S1024 .i32) (Jv : Vec Ideal S128 .f32)
    (acc : Vec Ideal S1x1x1024 .f32) (c : Fin 1024) :
    k0_pay16 iotaRows (k0_pay6 (F := Ideal) lc) (k0_pay9 Jv zc) (k0_pay10 Jv zc) (k0_pay11 Jv zc) (k0_pay12 Jv zc) (k0_pay13 Jv zc) acc (ix3 0 0 c)
      = acc (ix3 0 0 c) + ∑ j : Fin 1024, if lc (ix1 j) = BitVec.ofNat 32 c.val
          then qc zc Jv j + (qc zc Jv j - qc zc Jv j) else 0 := by
  unfold k0_pay16
  rw [shapeCast_ab_1ab_apply, addf_apply, shapeCast_1ab_ab_apply, shapeCast_a_1a_apply, addf_apply,
    col_apply _ 1 _ _ c 1 rfl, col_apply _ 2 _ _ c 2 rfl,
    pay14_col lc zc Jv c 1 _ (cols_1 zc Jv), pay14_col lc zc Jv c 2 _ (cols_2 zc Jv), ← Finset.sum_add_distrib]
  refine congrArg (acc (ix3 0 0 c) + ·) (Finset.sum_congr rfl fun j _ => ?_)
  exact ite_add_ite_zero _ _ _

theorem sq_step (zc : Vec Ideal S1024x128 .f32) (lc : Vec Ideal S1024 .i32) (Jv : Vec Ideal S128 .f32)
    (acc : Vec Ideal S1x1x1024 .f32) (c : Fin 1024) :
    k0_pay5 (k0_pay14 iotaRows (k0_pay6 (F := Ideal) lc) (k0_pay9 Jv zc) (k0_pay10 Jv zc) (k0_pay11 Jv zc) (k0_pay12 Jv zc) (k0_pay13 Jv zc))
        (k0_pay17 acc)
        (k0_pay18 iotaRows (k0_pay6 (F := Ideal) lc) (k0_pay9 Jv zc) (k0_pay10 Jv zc) (k0_pay11 Jv zc) (k0_pay12 Jv zc) (k0_pay13 Jv zc)) (ix3 0 0 c)
      = acc (ix3 0 0 c) + ∑ j : Fin 1024, if lc (ix1 j) = BitVec.ofNat 32 c.val
          then qc zc Jv j * qc zc Jv j + (qc zc Jv j * qc zc Jv j - qc zc Jv j * qc zc Jv j) else 0 := by
  unfold k0_pay5 k0_pay17 k0_pay18
  rw [shapeCast_ab_1ab_apply, addf_apply, shapeCast_1ab_ab_apply, shapeCast_a_1a_apply, addf_apply,
    col_apply _ 3 _ _ c 3 rfl, col_apply _ 4 _ _ c 4 rfl,
    pay14_col lc zc Jv c 3 _ (cols_3 zc Jv), pay14_col lc zc Jv c 4 _ (cols_4 zc Jv), ← Finset.sum_add_distrib]
  refine congrArg (acc (ix3 0 0 c) + ·) (Finset.sum_congr rfl fun j _ => ?_)
  exact ite_add_ite_zero _ _ _

/-! ## The masked hinge sum -/

/-- The hinge of each row, kept where the row's label word is non-negative as a signed number. -/
def hingeRow (zc : Vec Ideal S1024x128 .f32) (Jv : Vec Ideal S128 .f32) (lc : Vec Ideal S1024 .i32) : FVec Ideal S1024 .f32 :=
  select (cmpi .sge (k0_pay6 (F := Ideal) lc) (broadcast S1024 0#32))
    (maximumf
      (subf (broadcast S1024 (Scalar.ofBits (F := Ideal) .f32 0x3DCCCCCD#32)) (absf (k0_pay7 Jv zc)))
      (broadcast S1024 (Scalar.ofBits (F := Ideal) .f32 0x00000000#32)))
    (broadcast S1024 (Scalar.ofBits (F := Ideal) .f32 0x00000000#32))

theorem hingeRow_apply (zc : Vec Ideal S1024x128 .f32) (Jv : Vec Ideal S128 .f32) (lc : Vec Ideal S1024 .i32) (j : Fin 1024) :
    hingeRow zc Jv lc (ix1 j) = if 0 ≤ (lc (ix1 j)).toInt then Cert.Spec.hinge (qc zc Jv j) else 0 := by
  unfold hingeRow
  show Scalar.select (IntOp.cmpi .sge (k0_pay6 (F := Ideal) lc (ix1 j)) 0#32)
    (max (Ideal.ofBits .f32 0x3DCCCCCD#32 - max (k0_pay7 Jv zc (ix1 j)) (-(k0_pay7 Jv zc (ix1 j)))) (Ideal.ofBits .f32 0x00000000#32))
    (Ideal.ofBits .f32 0x00000000#32) = _
  rw [pay7_apply, Ideal.ofBits_zero_f32, pay6_eq]
  unfold Scalar.select
  refine if_congr ?_ rfl rfl
  have h0 : (0#32 : BitVec 32).toInt = 0 := by decide
  exact IntOp.cmpi_sge.trans (by rw [h0])

/-- The source index over the one row with lane `k` inserted is `(0, k)`. -/
theorem lift_one (k : Fin 1024) : reduces_S1x1024_S1.lift (ix1 (0 : Fin 1)) k = ix2 (0 : Fin 1) k := by
  funext a
  match a with
  | ⟨0, _⟩ => rfl
  | ⟨1, _⟩ => rfl

/-- The hinge payload is the accumulator plus the chunk's masked hinge sum, on every lane. -/
theorem pay8_eq (zc : Vec Ideal S1024x128 .f32) (Jv : Vec Ideal S128 .f32) (lc : Vec Ideal S1024 .i32) (acc8 : Vec Ideal S1x1x128 .f32) :
    k0_pay8 Jv zc lc acc8
      = shapeCast S1x1x128
          (addf (shapeCast S1x128 acc8 shapeCasts_S1x1x128_S1x128)
            (broadcast S1x128
              (extractAt ![0, 0]
                (shapeCast S1x1
                  (multiReduction (F := Ideal) .add [1] S1 (shapeCast S1x1024 (hingeRow zc Jv lc) shapeCasts_S1024_S1x1024)
                    0x00000000#32 reduces_S1x1024_S1 (.inl rfl) rfl)
                  shapeCasts_S1_S1x1)
                inpos_S1x1_p0_0)))
          shapeCasts_S1x128_S1x1x128 := rfl

theorem aux_step (zc : Vec Ideal S1024x128 .f32) (lc : Vec Ideal S1024 .i32) (Jv : Vec Ideal S128 .f32)
    (acc8 : Vec Ideal S1x1x128 .f32) (l : Fin 128) :
    k0_pay8 Jv zc lc acc8 (ix3 0 0 l)
      = acc8 (ix3 0 0 l) + ∑ j : Fin 1024, if 0 ≤ (lc (ix1 j)).toInt then Cert.Spec.hinge (qc zc Jv j) else 0 := by
  rw [pay8_eq, shapeCast_ab_1ab_apply, addf_apply, shapeCast_1ab_ab_apply, broadcast_apply, extractAt_00, shapeCast_a_1a_apply]
  refine congrArg (acc8 (ix3 0 0 l) + ·) ?_
  refine (Ideal.multiReduction_add_single _ 0x00000000#32 reduces_S1x1024_S1 (.inl rfl) rfl (ix1 (0 : Fin 1))).trans ?_
  refine Finset.sum_congr rfl fun (j : Fin 1024) _ => ?_
  rw [lift_one j, shapeCast_a_1a_apply, hingeRow_apply]

end Cert.KPayload

end
-- ==== Proof.KDefs.lean ====
/-
  The kernel's padded inputs as functions of a row number.

  The program pads `z` with 15,808 zero rows and the labels with as many words `-1` (to 1,015,808 = 124 · 8192 rows)
  before its pallas call; grid point `t` (of 124) stages rows `8192·t … 8192·t + 8191`.  Here the padded arrays are
  functions of a natural row number, the arguments' launch contents on the first 1,000,000 rows and the pad value after.
-/
import proofs.«421990_j76184129896577_3_alg».proof.Proof.Gen.KernelIdeal.Frame
import Idealize.ShloMosaic.Lib.ValueIdx

noncomputable section

namespace Cert.KernelIdeal.KDefs

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ)

/-- `z` as launched on core `c`, by row and column. -/
def zArg (c : Dev nD) (i : Fin 1000000) (d : Fin 128) : EReal := m ((c.tc : Thread nD τ).loc main_arg0) (ix2 i d)
/-- The label words as launched. -/
def labArg (c : Dev nD) (i : Fin 1000000) : BitVec 32 := m ((c.tc : Thread nD τ).loc main_arg1) (ix1 i)
/-- The metric vector as launched. -/
def jArg (c : Dev nD) (d : Fin 128) : EReal := m ((c.tc : Thread nD τ).loc main_arg2) (ix1 d)

/-- Padded `z`: zero past row 1,000,000. -/
def zpad (c : Dev nD) (r : ℕ) (d : Fin 128) : EReal := if h : r < 1000000 then zArg m c ⟨r, h⟩ d else 0
/-- Padded labels: the word `-1` past row 1,000,000. -/
def lpad (c : Dev nD) (r : ℕ) : BitVec 32 := if h : r < 1000000 then labArg m c ⟨r, h⟩ else 4294967295#32

/-- Grid point `t`'s block of padded `z`, of the padded labels, and the metric vector, at their literal types. -/
abbrev zblk (c : Dev nD) (t : Fin cfg0.N) : Vec Ideal S8192x128 .f32 := iblk m c 0 t
abbrev lblk (c : Dev nD) (t : Fin cfg0.N) : Vec Ideal S8192 .i32 := iblk m c 1 t
abbrev jblk (c : Dev nD) (t : Fin cfg0.N) : Vec Ideal S128 .f32 := iblk m c 2 t

end Cert.KernelIdeal.KDefs

end
-- ==== Proof.KInput.lean ====
/-
  What the kernel's three input windows hold at each grid point.

  Before its pallas call the program pads `z` with 15,808 zero rows and the label words with as many words `-1`,
  to 1,015,808 = 124 · 8192 rows.  Grid point `t` (its coordinates `(t / 62, t % 62)`, sent by the index maps to
  block `62 · (t / 62) + t % 62 = t`) stages rows `8192·t … 8192·t + 8191` of the padded arrays, and the whole
  metric vector.  Read at a row `r` and column `d` of the block:

    zblk_apply : the `z` block is padded `z` at row `8192·t + r`: the launched entry below row 1,000,000, zero after;
    lblk_apply : the label block is the padded labels there: the launched word below row 1,000,000, `-1` after;
    jblk_apply : the metric block is the launched metric vector.

  Each is three steps: what the padded array holds when the region is entered (the padding applied to the launched
  array, `V_main_v0` / `V_main_v1`; the metric vector untouched); a padding with nothing in front and nothing
  between the entries read at an index (`pad2_inside` … `pad1_outside`: the operand inside, the padding value past
  its last row); and where an element of block `t` sits in the array (block index × block size + its own coordinate,
  the block indices decided once over the 124 points).
-/
import proofs.«421990_j76184129896577_3_alg».proof.Proof.KDefs
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.KInput

open Cert.KernelIdeal Cert.KernelIdeal.Gen Cert.KernelIdeal.KDefs
open Idealize.ShloMosaic Idealize.ShloMosaic.TcCoe Idealize.SL.Sem
open Idealize.ShloMosaic.ValueIdx

variable (m : (ℓ : Loc nD τ sig) → Buf (Elt Ideal) ℓ)

/-! ## The block indices over the grid -/

/-- Window 0's block index at point `t` is `(t, 0)`. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 1's block index at point `t` is `t`. -/
theorem idx1 : ∀ t : Fin cfg0.N, win0_1.index t (0 : Fin 1) = t.val :=
  (by decide +kernel : ∀ t : Fin grid0.N, win0_1.index t (0 : Fin 1) = t.val)

/-- Window 2's block index is `0` at every point. -/
theorem idx2 : ∀ t : Fin cfg0.N, win0_2.index t (0 : Fin 1) = 0 :=
  (by decide +kernel : ∀ t : Fin grid0.N, win0_2.index t (0 : Fin 1) = 0)

/-- Every row of every block is a row of the padded arrays: `8192 · 123 + 8191 < 1,015,808`. -/
theorem row_lt (t : Fin cfg0.N) (r : Fin 8192) : 8192 * t.val + r.val < 1015808 := by
  have hN : cfg0.N = 124 := N_0
  have := t.isLt
  have := r.isLt
  omega

/-! ## The padded arrays when the region is entered -/

/-- Padded `z` is the launched `z` with 15,808 rows of the converted integer zero after it. -/
theorem V_main_v0 (c : Dev nD) : (V m c main_v0 : S1015808x128.Idx → EReal)
    = pad S1015808x128 ![0, 0] ![15808, 0] ![0, 0] (m ((c.tc : Thread nD τ).loc main_arg0) : S1000000x128.Idx → EReal)
        (sitofp .f32 (constantI S_ 32 0#32) : FVec Ideal S_ .f32) pads_S1000000x128_S1015808x128_0158080_000 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The padded labels are the launched words with 15,808 words `-1` after them. -/
theorem V_main_v1 (c : Dev nD) : (V m c main_v1 : S1015808.Idx → BitVec 32)
    = pad S1015808 ![0] ![15808] ![0] (m ((c.tc : Thread nD τ).loc main_arg1) : S1000000.Idx → BitVec 32)
        (id (constantI S_ 32 4294967295#32) : IVec S_ 32) pads_S1000000_S1015808_0158080 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-! ## A padding after the last row, read at an index -/

/-- A matrix padded with `hi` further rows after its last, read at a row of the matrix, is the matrix there. -/
theorem pad2_inside {α : Type} {n n' k : Nat} (x : (⟨2, ![n, k]⟩ : Shape).Idx → α) {u : Shape} (v : u.Idx → α)
    (hi : Nat) (h : (⟨2, ![n, k]⟩ : Shape).Pads ![0, 0] ![hi, 0] ![0, 0] ⟨2, ![n', k]⟩) (hu : 0 < u.numel)
    (r : Fin n') (d : Fin k) (hr : r.val < n) :
    pad ⟨2, ![n', k]⟩ ![0, 0] ![hi, 0] ![0, 0] x v h hu (ix2 r d) = x (ix2 ⟨r.val, hr⟩ d) := by
  unfold pad
  have hin : ∀ a : Fin 2, (![0, 0] : Fin 2 → Nat) a ≤ ((ix2 r d : (⟨2, ![n', k]⟩ : Shape).Idx) (a.cast h.1)).val
      ∧ (((ix2 r d : (⟨2, ![n', k]⟩ : Shape).Idx) (a.cast h.1)).val - (![0, 0] : Fin 2 → Nat) a)
          % ((![0, 0] : Fin 2 → Nat) a + 1) = 0
      ∧ (((ix2 r d : (⟨2, ![n', k]⟩ : Shape).Idx) (a.cast h.1)).val - (![0, 0] : Fin 2 → Nat) a)
          / ((![0, 0] : Fin 2 → Nat) a + 1) < (⟨2, ![n, k]⟩ : Shape).size a := fun a => by
    match a with
    | ⟨0, _⟩ => exact ⟨Nat.zero_le _, Nat.mod_one _, by show (r.val - 0) / (0 + 1) < n; simpa using hr⟩
    | ⟨1, _⟩ => exact ⟨Nat.zero_le _, Nat.mod_one _, by show (d.val - 0) / (0 + 1) < k; simpa using d.isLt⟩
  rw [dif_pos hin]
  refine congrArg x (funext fun a => Fin.ext ?_)
  match a with
  | ⟨0, _⟩ => show (r.val - 0) / (0 + 1) = r.val; simp
  | ⟨1, _⟩ => show (d.val - 0) / (0 + 1) = d.val; simp

/-- …and at a row past the matrix's last it is the padding value. -/
theorem pad2_outside {α : Type} {n n' k : Nat} (x : (⟨2, ![n, k]⟩ : Shape).Idx → α) {u : Shape} (v : u.Idx → α)
    (hi : Nat) (h : (⟨2, ![n, k]⟩ : Shape).Pads ![0, 0] ![hi, 0] ![0, 0] ⟨2, ![n', k]⟩) (hu : 0 < u.numel)
    (r : Fin n') (d : Fin k) (hr : ¬ r.val < n) :
    pad ⟨2, ![n', k]⟩ ![0, 0] ![hi, 0] ![0, 0] x v h hu (ix2 r d) = v (Shape.Idx.first hu) := by
  unfold pad
  rw [dif_neg]
  intro hin
  have h' : (r.val - 0) / (0 + 1) < n := (hin (0 : Fin 2)).2.2
  exact hr (by simpa using h')

/-- A vector padded with `hi` further entries after its last, read at an entry of the vector, is the vector there. -/
theorem pad1_inside {α : Type} {n n' : Nat} (x : (⟨1, ![n]⟩ : Shape).Idx → α) {u : Shape} (v : u.Idx → α)
    (hi : Nat) (h : (⟨1, ![n]⟩ : Shape).Pads ![0] ![hi] ![0] ⟨1, ![n']⟩) (hu : 0 < u.numel)
    (r : Fin n') (hr : r.val < n) :
    pad ⟨1, ![n']⟩ ![0] ![hi] ![0] x v h hu (ix1 r) = x (ix1 ⟨r.val, hr⟩) := by
  unfold pad
  have hin : ∀ a : Fin 1, (![0] : Fin 1 → Nat) a ≤ ((ix1 r : (⟨1, ![n']⟩ : Shape).Idx) (a.cast h.1)).val
      ∧ (((ix1 r : (⟨1, ![n']⟩ : Shape).Idx) (a.cast h.1)).val - (![0] : Fin 1 → Nat) a)
          % ((![0] : Fin 1 → Nat) a + 1) = 0
      ∧ (((ix1 r : (⟨1, ![n']⟩ : Shape).Idx) (a.cast h.1)).val - (![0] : Fin 1 → Nat) a)
          / ((![0] : Fin 1 → Nat) a + 1) < (⟨1, ![n]⟩ : Shape).size a := fun a => by
    match a with
    | ⟨0, _⟩ => exact ⟨Nat.zero_le _, Nat.mod_one _, by show (r.val - 0) / (0 + 1) < n; simpa using hr⟩
  rw [dif_pos hin]
  refine congrArg x (funext fun a => Fin.ext ?_)
  match a with
  | ⟨0, _⟩ => show (r.val - 0) / (0 + 1) = r.val; simp

/-- …and past the vector's last entry it is the padding value. -/
theorem pad1_outside {α : Type} {n n' : Nat} (x : (⟨1, ![n]⟩ : Shape).Idx → α) {u : Shape} (v : u.Idx → α)
    (hi : Nat) (h : (⟨1, ![n]⟩ : Shape).Pads ![0] ![hi] ![0] ⟨1, ![n']⟩) (hu : 0 < u.numel)
    (r : Fin n') (hr : ¬ r.val < n) :
    pad ⟨1, ![n']⟩ ![0] ![hi] ![0] x v h hu (ix1 r) = v (Shape.Idx.first hu) := by
  unfold pad
  rw [dif_neg]
  intro hin
  have h' : (r.val - 0) / (0 + 1) < n := (hin (0 : Fin 1)).2.2
  exact hr (by simpa using h')

/-! ## Where a block's element sits in its array -/

/-- Row `r`, column `d` of block `t` of padded `z` is its row `8192·t + r`, column `d`. -/
theorem zblk_idx (c : Dev nD) (t : Fin cfg0.N) (r : Fin 8192) (d : Fin 128) :
    zblk m c t (ix2 r d)
      = (V m c main_v0 : S1015808x128.Idx → EReal) (ix2 ⟨8192 * t.val + r.val, row_lt t r⟩ d) := by
  unfold zblk iblk
  rw [View.read_apply]
  show (V m c main_v0 : S1015808x128.Idx → EReal) _ = V m c main_v0 _
  congr 1
  funext a
  apply Fin.ext
  match a with
  | ⟨0, _⟩ => show win0_0.index t 0 * 8192 + 1 * r.val = 8192 * t.val + r.val; rw [(idx0 t).1]; omega
  | ⟨1, _⟩ => show win0_0.index t 1 * 128 + 1 * d.val = d.val; rw [(idx0 t).2]; omega

/-- Entry `r` of block `t` of the padded labels is their entry `8192·t + r`. -/
theorem lblk_idx (c : Dev nD) (t : Fin cfg0.N) (r : Fin 8192) :
    lblk m c t (ix1 r)
      = (V m c main_v1 : S1015808.Idx → BitVec 32) (ix1 ⟨8192 * t.val + r.val, row_lt t r⟩) := by
  unfold lblk iblk
  rw [View.read_apply]
  show (V m c main_v1 : S1015808.Idx → BitVec 32) _ = V m c main_v1 _
  congr 1
  funext a
  apply Fin.ext
  match a with
  | ⟨0, _⟩ => show win0_1.index t 0 * 8192 + 1 * r.val = 8192 * t.val + r.val; rw [idx1 t]; omega

/-- The metric window's one block is the whole vector. -/
theorem jblk_idx (c : Dev nD) (t : Fin cfg0.N) (d : Fin 128) :
    jblk m c t (ix1 d) = (V m c main_arg2 : S128.Idx → EReal) (ix1 d) := by
  unfold jblk iblk
  rw [View.read_apply]
  show (V m c main_arg2 : S128.Idx → EReal) _ = V m c main_arg2 _
  congr 1
  funext a
  apply Fin.ext
  match a with
  | ⟨0, _⟩ => show win0_2.index t 0 * 128 + 1 * d.val = d.val; rw [idx2 t]; omega

/-! ## The three blocks -/

/-- Grid point `t`'s block of `z`: padded `z` at row `8192·t + r` (the integer zero converted is the real zero). -/
theorem zblk_apply (c : Dev nD) (t : Fin cfg0.N) (r : Fin 8192) (d : Fin 128) :
    zblk m c t (ix2 r d) = zpad m c (8192 * t.val + r.val) d := by
  rw [zblk_idx, V_main_v0]
  unfold zpad zArg
  by_cases h : 8192 * t.val + r.val < 1000000
  · rw [dif_pos h]
    exact pad2_inside _ _ _ _ _ _ _ h
  · rw [dif_neg h]
    refine (pad2_outside _ _ _ _ _ _ _ h).trans ?_
    show (((0#32 : BitVec 32).toInt : ℝ) : EReal) = 0
    simp

/-- Grid point `t`'s block of the labels: the padded labels at entry `8192·t + r`. -/
theorem lblk_apply (c : Dev nD) (t : Fin cfg0.N) (r : Fin 8192) :
    lblk m c t (ix1 r) = lpad m c (8192 * t.val + r.val) := by
  rw [lblk_idx, V_main_v1]
  unfold lpad labArg
  by_cases h : 8192 * t.val + r.val < 1000000
  · rw [dif_pos h]
    exact pad1_inside _ _ _ _ _ _ h
  · rw [dif_neg h]
    exact pad1_outside _ _ _ _ _ _ h

/-- Every grid point's metric block is the launched metric vector (nothing before the region writes it). -/
theorem jblk_apply (c : Dev nD) (t : Fin cfg0.N) (d : Fin 128) :
    jblk m c t (ix1 d) = jArg m c d := by
  rw [jblk_idx, V_main_arg2]
  rfl

end Cert.KernelIdeal.KInput

end
-- ==== Proof.KPoint.lean ====
/-
  One grid point's contribution to each accumulator block, over the extended reals.

  Grid point `t` stages padded rows `8192·t … 8192·t + 8191`; its eight chunks add, to lane `c` of the class-sum block,
  the sum over those rows with label `c` of `q + (q − q)`; to the count block, the number of such rows; to the
  sum-of-squares block, the sum of `q² + (q² − q²)`; and to every lane of the hinge block the masked hinge sum over the
  rows.  Eight chunk steps in order are the prior contents plus the eight chunk sums: addition of extended reals is
  associative and commutative, so no finiteness is needed.
-/
import proofs.«421990_j76184129896577_3_alg».proof.Proof.KTrip
import proofs.«421990_j76184129896577_3_alg».proof.Proof.KPayload
import proofs.«421990_j76184129896577_3_alg».proof.Proof.KDefs
import proofs.«421990_j76184129896577_3_alg».proof.Proof.KInput

noncomputable section

namespace Cert.KernelIdeal.KPoint

open Cert.KernelIdeal Cert.KernelIdeal.Gen Cert.KernelIdeal.KTrip Cert.KernelIdeal.KDefs Cert.KernelIdeal.KInput Cert.KPayload
open Idealize.ShloMosaic Idealize.ShloMosaic.TcCoe Idealize.SL.Sem
open Idealize.ShloMosaic.ValueIdx
open scoped BigOperators

/-- The loop has eight trips. -/
theorem trips_eq : k0_t1_loop.trips = 8 := by decide

/-! ## A chunk of a staged block, read at a row -/

section Chunk
variable (x0 : Vec Ideal S8192x128 .f32) (x1 : Vec Ideal S8192 .i32) (x2 : Vec Ideal S128 .f32)

theorem chunk_row_lt (k : Fin k0_t1_loop.trips) (j : Fin 1024) : 1024 * k.val + j.val < 8192 := by
  have hk : k.val < 8 := Nat.lt_of_lt_of_le k.isLt k0_t1_abs.2.1
  have hj := j.isLt
  omega

/-- Row `j` of chunk `k` is row `1024·k + j` of the block. -/
theorem zch_apply (k : Fin k0_t1_loop.trips) (j : Fin 1024) (d : Fin 128) :
    zch x0 k (ix2 j d) = x0 (ix2 ⟨1024 * k.val + j.val, chunk_row_lt k j⟩ d) := by
  show x0 ((Rect.unit (s := S8192x128) (k0_off1 k) S1024x128.size (k0_off1_inb k)).idx (ix2 j d)) = _
  congr 1
  funext a
  match a with
  | ⟨0, _⟩ => exact Fin.ext (by show k0_off1 k 0 + 1 * j.val = 1024 * k.val + j.val; rw [k0_off1_eq]; simp)
  | ⟨1, _⟩ => exact Fin.ext (by show k0_off1 k 1 + 1 * d.val = d.val; rw [k0_off1_eq]; simp)

theorem lch_apply (k : Fin k0_t1_loop.trips) (j : Fin 1024) :
    lch x1 k (ix1 j) = x1 (ix1 ⟨1024 * k.val + j.val, chunk_row_lt k j⟩) := by
  show x1 ((Rect.unit (s := S8192) (k0_off2 k) S1024.size (k0_off2_inb k)).idx (ix1 j)) = _
  congr 1
  funext a
  match a with
  | ⟨0, _⟩ => exact Fin.ext (by show k0_off2 k 0 + 1 * j.val = 1024 * k.val + j.val; rw [k0_off2_eq]; simp)

/-! ## The eight chunk steps as the prior contents plus chunk sums -/

/-- Chunk `k`'s addend to lane `cc` of the class-sum, count and sum-of-squares blocks, and to the hinge block. -/
def c3 (cc : Fin 1024) (k : Fin k0_t1_loop.trips) : EReal :=
  ∑ j : Fin 1024, if lch x1 k (ix1 j) = BitVec.ofNat 32 cc.val
    then qc (zch x0 k) x2 j + (qc (zch x0 k) x2 j - qc (zch x0 k) x2 j) else 0
def c4 (cc : Fin 1024) (k : Fin k0_t1_loop.trips) : EReal :=
  ∑ j : Fin 1024, if lch x1 k (ix1 j) = BitVec.ofNat 32 cc.val then (1 : EReal) else 0
def c5 (cc : Fin 1024) (k : Fin k0_t1_loop.trips) : EReal :=
  ∑ j : Fin 1024, if lch x1 k (ix1 j) = BitVec.ofNat 32 cc.val
    then qc (zch x0 k) x2 j * qc (zch x0 k) x2 j + (qc (zch x0 k) x2 j * qc (zch x0 k) x2 j - qc (zch x0 k) x2 j * qc (zch x0 k) x2 j) else 0
def c6 (k : Fin k0_t1_loop.trips) : EReal :=
  ∑ j : Fin 1024, if 0 ≤ (lch x1 k (ix1 j)).toInt then Cert.Spec.hinge (qc (zch x0 k) x2 j) else 0

theorem fold3_apply (a : Vec Ideal S1x1x1024 .f32) (cc : Fin 1024) : ∀ n : ℕ, n ≤ k0_t1_loop.trips →
    fold3 x2 iotaV x0 x1 a n (ix3 0 0 cc)
      = a (ix3 0 0 cc) + ∑ k ∈ Finset.range n, if h : k < k0_t1_loop.trips then c3 x0 x1 x2 cc ⟨k, h⟩ else 0
  | 0, _ => by rw [fold3, Finset.sum_range_zero, add_zero]
  | n + 1, hn => by
    have h : n < k0_t1_loop.trips := hn
    rw [fold3, dif_pos h, step3, sum_step, fold3_apply a cc n (Nat.le_of_lt h), Finset.sum_range_succ, dif_pos h, add_assoc]
    rfl

theorem fold4_apply (a : Vec Ideal S1x1x1024 .f32) (cc : Fin 1024) : ∀ n : ℕ, n ≤ k0_t1_loop.trips →
    fold4 x2 iotaV x0 x1 a n (ix3 0 0 cc)
      = a (ix3 0 0 cc) + ∑ k ∈ Finset.range n, if h : k < k0_t1_loop.trips then c4 x1 cc ⟨k, h⟩ else 0
  | 0, _ => by rw [fold4, Finset.sum_range_zero, add_zero]
  | n + 1, hn => by
    have h : n < k0_t1_loop.trips := hn
    rw [fold4, dif_pos h, step4, cnt_step, fold4_apply a cc n (Nat.le_of_lt h), Finset.sum_range_succ, dif_pos h, add_assoc]
    rfl

theorem fold5_apply (a : Vec Ideal S1x1x1024 .f32) (cc : Fin 1024) : ∀ n : ℕ, n ≤ k0_t1_loop.trips →
    fold5 x2 iotaV x0 x1 a n (ix3 0 0 cc)
      = a (ix3 0 0 cc) + ∑ k ∈ Finset.range n, if h : k < k0_t1_loop.trips then c5 x0 x1 x2 cc ⟨k, h⟩ else 0
  | 0, _ => by rw [fold5, Finset.sum_range_zero, add_zero]
  | n + 1, hn => by
    have h : n < k0_t1_loop.trips := hn
    rw [fold5, dif_pos h, step5, sq_step, fold5_apply a cc n (Nat.le_of_lt h), Finset.sum_range_succ, dif_pos h, add_assoc]
    rfl

theorem fold6_apply (a : Vec Ideal S1x1x128 .f32) (l : Fin 128) : ∀ n : ℕ, n ≤ k0_t1_loop.trips →
    fold6 x2 x0 x1 a n (ix3 0 0 l)
      = a (ix3 0 0 l) + ∑ k ∈ Finset.range n, if h : k < k0_t1_loop.trips then c6 x0 x1 x2 ⟨k, h⟩ else 0
  | 0, _ => by rw [fold6, Finset.sum_range_zero, add_zero]
  | n + 1, hn => by
    have h : n < k0_t1_loop.trips := hn
    rw [fold6, dif_pos h, step6, aux_step, fold6_apply a l n (Nat.le_of_lt h), Finset.sum_range_succ, dif_pos h, add_assoc]
    rfl

end Chunk

/-! ## The padded rows -/

variable (m : (ℓ : Loc nD τ sig) → Buf (Elt Ideal) ℓ)

/-- The quadratic form of padded row `r`. -/
def qpad (c : Dev nD) (r : ℕ) : EReal := ∑ d : Fin 128, zpad m c r d * zpad m c r d * jArg m c d

/-- Row `r`'s addend to lane `cc` of each class block, and to the hinge block. -/
def g3 (c : Dev nD) (cc : Fin 1024) (r : ℕ) : EReal :=
  if lpad m c r = BitVec.ofNat 32 cc.val then qpad m c r + (qpad m c r - qpad m c r) else 0
def g4 (c : Dev nD) (cc : Fin 1024) (r : ℕ) : EReal :=
  if lpad m c r = BitVec.ofNat 32 cc.val then (1 : EReal) else 0
def g5 (c : Dev nD) (cc : Fin 1024) (r : ℕ) : EReal :=
  if lpad m c r = BitVec.ofNat 32 cc.val
    then qpad m c r * qpad m c r + (qpad m c r * qpad m c r - qpad m c r * qpad m c r) else 0
def g6 (c : Dev nD) (r : ℕ) : EReal :=
  if 0 ≤ (lpad m c r).toInt then Cert.Spec.hinge (qpad m c r) else 0

/-- Grid point `n`'s addend: the row addends over its 8 · 1024 rows. -/
def P3 (c : Dev nD) (cc : Fin 1024) (n : ℕ) : EReal := ∑ k : Fin 8, ∑ j : Fin 1024, g3 m c cc (8192 * n + 1024 * k.val + j.val)
def P4 (c : Dev nD) (cc : Fin 1024) (n : ℕ) : EReal := ∑ k : Fin 8, ∑ j : Fin 1024, g4 m c cc (8192 * n + 1024 * k.val + j.val)
def P5 (c : Dev nD) (cc : Fin 1024) (n : ℕ) : EReal := ∑ k : Fin 8, ∑ j : Fin 1024, g5 m c cc (8192 * n + 1024 * k.val + j.val)
def P6 (c : Dev nD) (n : ℕ) : EReal := ∑ k : Fin 8, ∑ j : Fin 1024, g6 m c (8192 * n + 1024 * k.val + j.val)

/-- Row `j` of chunk `k` of grid point `t`'s blocks is padded row `8192·t + 1024·k + j`. -/
theorem qc_blk (c : Dev nD) (t : Fin cfg0.N) (k : Fin k0_t1_loop.trips) (j : Fin 1024) :
    qc (zch (zblk m c t) k) (jblk m c t) j = qpad m c (8192 * t.val + 1024 * k.val + j.val) := by
  unfold qc qpad
  refine Finset.sum_congr rfl fun d _ => ?_
  rw [zch_apply, zblk_apply, jblk_apply, Nat.add_assoc]

theorem lch_blk (c : Dev nD) (t : Fin cfg0.N) (k : Fin k0_t1_loop.trips) (j : Fin 1024) :
    lch (lblk m c t) k (ix1 j) = lpad m c (8192 * t.val + 1024 * k.val + j.val) := by
  rw [lch_apply, lblk_apply, Nat.add_assoc]

/-- A sum over the eight trips, re-indexed over `Fin 8`. -/
theorem sum_trips (f : (k : ℕ) → k < k0_t1_loop.trips → EReal) :
    (∑ k ∈ Finset.range k0_t1_loop.trips, if h : k < k0_t1_loop.trips then f k h else 0)
      = ∑ k : Fin 8, f k.val (Nat.lt_of_lt_of_eq k.isLt trips_eq.symm) := by
  rw [Finset.sum_range fun k => if h : k < k0_t1_loop.trips then f k h else 0]
  refine (Fintype.sum_equiv (finCongr trips_eq) _ _ fun k => ?_)
  rw [dif_pos k.isLt]
  rfl

/-! ## A grid point's fold, at a lane -/

theorem pt3 (c : Dev nD) (t : Fin cfg0.N) (a : Vec Ideal S1x1x1024 .f32) (cc : Fin 1024) :
    fold3 (jblk m c t) iotaV (zblk m c t) (lblk m c t) a k0_t1_loop.trips (ix3 0 0 cc) = a (ix3 0 0 cc) + P3 m c cc t.val := by
  rw [fold3_apply _ _ _ a cc _ le_rfl, sum_trips]
  refine congrArg (a (ix3 0 0 cc) + ·) (Finset.sum_congr rfl fun k _ => Finset.sum_congr rfl fun j _ => ?_)
  rw [lch_blk, qc_blk]; rfl

theorem pt4 (c : Dev nD) (t : Fin cfg0.N) (a : Vec Ideal S1x1x1024 .f32) (cc : Fin 1024) :
    fold4 (jblk m c t) iotaV (zblk m c t) (lblk m c t) a k0_t1_loop.trips (ix3 0 0 cc) = a (ix3 0 0 cc) + P4 m c cc t.val := by
  rw [fold4_apply _ _ _ a cc _ le_rfl, sum_trips]
  refine congrArg (a (ix3 0 0 cc) + ·) (Finset.sum_congr rfl fun k _ => Finset.sum_congr rfl fun j _ => ?_)
  rw [lch_blk]; rfl

theorem pt5 (c : Dev nD) (t : Fin cfg0.N) (a : Vec Ideal S1x1x1024 .f32) (cc : Fin 1024) :
    fold5 (jblk m c t) iotaV (zblk m c t) (lblk m c t) a k0_t1_loop.trips (ix3 0 0 cc) = a (ix3 0 0 cc) + P5 m c cc t.val := by
  rw [fold5_apply _ _ _ a cc _ le_rfl, sum_trips]
  refine congrArg (a (ix3 0 0 cc) + ·) (Finset.sum_congr rfl fun k _ => Finset.sum_congr rfl fun j _ => ?_)
  rw [lch_blk, qc_blk]; rfl

theorem pt6 (c : Dev nD) (t : Fin cfg0.N) (a : Vec Ideal S1x1x128 .f32) (l : Fin 128) :
    fold6 (jblk m c t) (zblk m c t) (lblk m c t) a k0_t1_loop.trips (ix3 0 0 l) = a (ix3 0 0 l) + P6 m c t.val := by
  rw [fold6_apply _ _ _ a l _ le_rfl, sum_trips]
  refine congrArg (a (ix3 0 0 l) + ·) (Finset.sum_congr rfl fun k _ => Finset.sum_congr rfl fun j _ => ?_)
  rw [lch_blk, qc_blk]; rfl

end Cert.KernelIdeal.KPoint

end
-- ==== Proof.KGrid.lean ====
/-
  The four result arrays of the pallas call, after the run.

  Each accumulator block is reset at the first of a core's 62 grid points, gains that point's addend at every point, and is
  written back to row `p` of its [2, 1, ·] array after the core's last point.  So row `p` ends holding, lane by lane, the
  sum of the addends of points `62·p … 62·p + 61` (over the zero the reset stores).
-/
import proofs.«421990_j76184129896577_3_alg».proof.Proof.KPoint
import Idealize.ShloMosaic.Lib.Pipeline.Value

set_option maxRecDepth 16384

noncomputable section

namespace Cert.KernelIdeal.KGrid

open Cert.KernelIdeal Cert.KernelIdeal.Gen Cert.KernelIdeal.KTrip Cert.KernelIdeal.KDefs Cert.KernelIdeal.KPoint Cert.KPayload
open Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ)

/-! ## Block 3 -/

/-- The first point of a core's run leaves the point's own addend over zero; -/
theorem ptA3 (c : Dev nD) (t : Fin cfg0.N) (h0 : t.val % 62 = 0) (cc : Fin 1024) :
    (outsAt0 m c t.val t.isLt).1 (ix3 0 0 cc) = 0 + P3 m c cc t.val := by
  rw [outsAt0_A m c t h0]
  dsimp only
  refine (congrFun (out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)) (ix3 0 0 cc)).trans ?_
  refine (pt3 m c t (k0_pay1 (F := Ideal)) cc).trans ?_
  rw [pay1_zero]

/-- every later point adds its own addend to what the point before left. -/
theorem ptB3 (c : Dev nD) (t : Fin cfg0.N) (h0 : ¬t.val % 62 = 0) (cc : Fin 1024) :
    (outsAt0 m c t.val t.isLt).1 (ix3 0 0 cc)
      = (outsAt0 m c (t.val - 1) (Nat.lt_of_le_of_lt (Nat.sub_le _ _) t.isLt)).1 (ix3 0 0 cc) + P3 m c cc t.val := by
  rw [outsAt0_B m c t h0]
  dsimp only
  refine (congrFun (out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 0 0 cc)).trans ?_
  exact pt3 m c t _ cc

/-- So after point `t` a lane holds the addends of the points of its core's run so far. -/
theorem outs3 (c : Dev nD) (cc : Fin 1024) (t : ℕ) (ht : t < cfg0.N) :
    (outsAt0 m c t ht).1 (ix3 0 0 cc) = 0 + ∑ s ∈ Finset.range (t % 62 + 1), P3 m c cc (62 * (t / 62) + s) := by
  have h' : 62 * (t / 62) + t % 62 < cfg0.N := by rw [Nat.div_add_mod]; exact ht
  have key := Pipeline.eq_accAt_of_mod (N := cfg0.N) (α := Fin 1024 → EReal)
    (fun n h cc => (outsAt0 m c n h).1 (ix3 0 0 cc)) 62
    (fun n _ cc => 0 + P3 m c cc n) (fun n _ acc cc => acc cc + P3 m c cc n)
    (fun n h hmod => funext fun cc => ptA3 m c ⟨n, h⟩ hmod cc)
    (fun n h hne => funext fun cc => ptB3 m c ⟨n + 1, h⟩ hne cc)
    (by norm_num) t ht h'
  refine (congrFun key cc).trans ?_
  exact Pipeline.accAt_add_apply _ _ (fun _ => 0) (fun n cc => P3 m c cc n) (62 * (t / 62)) 61 (fun _ _ => rfl)
    (fun _ _ _ _ _ _ => rfl) (t % 62) (by omega) h' cc

/-- The array the block is written back to, after the run: row `p` holds the addends of core `p`'s 62 points. -/
def G3 (c : Dev nD) : Buf (Elt Ideal) ((c.tc : Thread nD τ).loc main_v2_0) :=
  fun (i : S2x1x1024.Idx) => 0 + ∑ s ∈ Finset.range 62, P3 m c ⟨(i 2).val, (i 2).isLt⟩ (62 * (i 0).val + s)

/-- The block's index map over the grid: core `t / 62`, nothing else moves. -/
theorem idx3 : ∀ t : Fin cfg0.N, win0_3.index t (0 : Fin 3) = t.val / 62 ∧ win0_3.index t (1 : Fin 3) = 0 ∧ win0_3.index t (2 : Fin 3) = 0 :=
  (by decide +kernel : ∀ t : Fin grid0.N, win0_3.index t (0 : Fin 3) = t.val / 62 ∧ win0_3.index t (1 : Fin 3) = 0 ∧ win0_3.index t (2 : Fin 3) = 0)

/-- What the last point of a core's run writes back is that core's row of `G3`. -/
theorem flushed3_eq (c : Dev nD) (t : Fin cfg0.N) (hf : (cfg0.win 3).flush t = true) :
    (dats m 0 c).flushed 3 t = ((cfg0.win 3).blk t).view.read (Elt Ideal) (G3 m c) := by
  have h61 : t.val % 62 = 61 := (flush0_3 t).mp hf
  obtain ⟨e0, e1, e2⟩ := idx3 t
  show (cfg0.win 3).cut (grid0.coords t) ((dats m 0 c).after 3 t) = _
  rw [after0_3]
  funext y
  rw [View.read_apply]
  have hy0 : (y 0).val = 0 := by
    have h1 : (cfg0.win 3).xsize (grid0.coords t) (0 : Fin 3) ≤ 1 := (cfg0.win 3).xsize_le _ 0
    have h2 : (y 0).val < (cfg0.win 3).xsize (grid0.coords t) (0 : Fin 3) := (y 0).isLt
    omega
  have hy1 : (y 1).val = 0 := by
    have h1 : (cfg0.win 3).xsize (grid0.coords t) (1 : Fin 3) ≤ 1 := (cfg0.win 3).xsize_le _ 1
    have h2 : (y 1).val < (cfg0.win 3).xsize (grid0.coords t) (1 : Fin 3) := (y 1).isLt
    omega
  have hy2 : (y 2).val < 1024 := by
    have h1 : (cfg0.win 3).xsize (grid0.coords t) (2 : Fin 3) ≤ 1024 := (cfg0.win 3).xsize_le _ 2
    have h2 : (y 2).val < (cfg0.win 3).xsize (grid0.coords t) (2 : Fin 3) := (y 2).isLt
    omega
  have hx : (cfg0.win 3).xinj (grid0.coords t) y = ix3 (0 : Fin 1) (0 : Fin 1) (⟨(y 2).val, hy2⟩ : Fin 1024) := by
    funext a
    apply Fin.ext
    match a with
    | ⟨0, _⟩ => exact hy0
    | ⟨1, _⟩ => exact hy1
    | ⟨2, _⟩ => rfl
  show (outsAt0 m c t.val t.isLt).1 ((cfg0.win 3).xinj (grid0.coords t) y) = G3 m c (((cfg0.win 3).blk t).view.emb y)
  rw [hx, outs3 m c _ t.val t.isLt, h61]
  have r0 : ((((cfg0.win 3).blk t).view.emb y) 0).val = t.val / 62 := by
    show win0_3.index t (0 : Fin 3) * 1 + 1 * (y 0).val = t.val / 62
    rw [e0, hy0]; omega
  have r2 : ((((cfg0.win 3).blk t).view.emb y) 2).val = (y 2).val := by
    show win0_3.index t (2 : Fin 3) * 1024 + 1 * (y 2).val = (y 2).val
    rw [e2]; omega
  unfold G3
  dsimp only
  rw [r0, show (⟨((((cfg0.win 3).blk t).view.emb y) 2).val, ((((cfg0.win 3).blk t).view.emb y) 2).isLt⟩ : Fin 1024) = ⟨(y 2).val, hy2⟩ from Fin.ext r2]

/-- An index of the array is in point `t`'s block iff each coordinate is in the block's range on its axis. -/
theorem mem_blk3 (t : Fin cfg0.N) (i : S2x1x1024.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v2_0).slice (win0_3.rect t)).set ↔ _
  rw [View.set_slice_whole, Rect.mem_set_unit]
  exact Iff.rfl

/-- Every index of the array is in the block some core's last point writes back. -/
theorem cover3 (i : S2x1x1024.Idx) : ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 1024 := (i 2).isLt
  have hN : cfg0.N = 124 := N_0
  have hlt : 62 * (i 0).val + 61 < cfg0.N := by rw [hN]; omega
  obtain ⟨e0, e1, e2⟩ := idx3 ⟨62 * (i 0).val + 61, hlt⟩
  refine ⟨⟨62 * (i 0).val + 61, hlt⟩, (flush0_3 _).mpr (by show (62 * (i 0).val + 61) % 62 = 61; omega), ?_⟩
  rw [mem_blk3]
  intro a
  match a with
  | ⟨0, _⟩ =>
    show win0_3.index ⟨62 * (i 0).val + 61, hlt⟩ (0 : Fin 3) * 1 ≤ (i 0).val ∧ (i 0).val < win0_3.index ⟨62 * (i 0).val + 61, hlt⟩ (0 : Fin 3) * 1 + 1
    rw [e0]; dsimp only; omega
  | ⟨1, _⟩ =>
    show win0_3.index ⟨62 * (i 0).val + 61, hlt⟩ (1 : Fin 3) * 1 ≤ (i 1).val ∧ (i 1).val < win0_3.index ⟨62 * (i 0).val + 61, hlt⟩ (1 : Fin 3) * 1 + 1
    rw [e1]; omega
  | ⟨2, _⟩ =>
    show win0_3.index ⟨62 * (i 0).val + 61, hlt⟩ (2 : Fin 3) * 1024 ≤ (i 2).val ∧ (i 2).val < win0_3.index ⟨62 * (i 0).val + 61, hlt⟩ (2 : Fin 3) * 1024 + 1024
    rw [e2]; omega

/-- THE ARRAY after the run. -/
theorem final3 (c : Dev nD) : (dats m 0 c).arrAt 3 cfg0.N = G3 m c :=
  (dats m 0 c).arrAt_eq_of_cover 3 (G3 m c) (flushed3_eq m c) (cover3)

/-! ## Block 4 -/

/-- The first point of a core's run leaves the point's own addend over zero; -/
theorem ptA4 (c : Dev nD) (t : Fin cfg0.N) (h0 : t.val % 62 = 0) (cc : Fin 1024) :
    (outsAt0 m c t.val t.isLt).2.1 (ix3 0 0 cc) = 0 + P4 m c cc t.val := by
  rw [outsAt0_A m c t h0]
  dsimp only
  refine (congrFun (out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)) (ix3 0 0 cc)).trans ?_
  refine (pt4 m c t (k0_pay2 (F := Ideal)) cc).trans ?_
  rw [pay2_zero]

/-- every later point adds its own addend to what the point before left. -/
theorem ptB4 (c : Dev nD) (t : Fin cfg0.N) (h0 : ¬t.val % 62 = 0) (cc : Fin 1024) :
    (outsAt0 m c t.val t.isLt).2.1 (ix3 0 0 cc)
      = (outsAt0 m c (t.val - 1) (Nat.lt_of_le_of_lt (Nat.sub_le _ _) t.isLt)).2.1 (ix3 0 0 cc) + P4 m c cc t.val := by
  rw [outsAt0_B m c t h0]
  dsimp only
  refine (congrFun (out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 0 0 cc)).trans ?_
  exact pt4 m c t _ cc

/-- So after point `t` a lane holds the addends of the points of its core's run so far. -/
theorem outs4 (c : Dev nD) (cc : Fin 1024) (t : ℕ) (ht : t < cfg0.N) :
    (outsAt0 m c t ht).2.1 (ix3 0 0 cc) = 0 + ∑ s ∈ Finset.range (t % 62 + 1), P4 m c cc (62 * (t / 62) + s) := by
  have h' : 62 * (t / 62) + t % 62 < cfg0.N := by rw [Nat.div_add_mod]; exact ht
  have key := Pipeline.eq_accAt_of_mod (N := cfg0.N) (α := Fin 1024 → EReal)
    (fun n h cc => (outsAt0 m c n h).2.1 (ix3 0 0 cc)) 62
    (fun n _ cc => 0 + P4 m c cc n) (fun n _ acc cc => acc cc + P4 m c cc n)
    (fun n h hmod => funext fun cc => ptA4 m c ⟨n, h⟩ hmod cc)
    (fun n h hne => funext fun cc => ptB4 m c ⟨n + 1, h⟩ hne cc)
    (by norm_num) t ht h'
  refine (congrFun key cc).trans ?_
  exact Pipeline.accAt_add_apply _ _ (fun _ => 0) (fun n cc => P4 m c cc n) (62 * (t / 62)) 61 (fun _ _ => rfl)
    (fun _ _ _ _ _ _ => rfl) (t % 62) (by omega) h' cc

/-- The array the block is written back to, after the run: row `p` holds the addends of core `p`'s 62 points. -/
def G4 (c : Dev nD) : Buf (Elt Ideal) ((c.tc : Thread nD τ).loc main_v2_1) :=
  fun (i : S2x1x1024.Idx) => 0 + ∑ s ∈ Finset.range 62, P4 m c ⟨(i 2).val, (i 2).isLt⟩ (62 * (i 0).val + s)

/-- The block's index map over the grid: core `t / 62`, nothing else moves. -/
theorem idx4 : ∀ t : Fin cfg0.N, win0_4.index t (0 : Fin 3) = t.val / 62 ∧ win0_4.index t (1 : Fin 3) = 0 ∧ win0_4.index t (2 : Fin 3) = 0 :=
  (by decide +kernel : ∀ t : Fin grid0.N, win0_4.index t (0 : Fin 3) = t.val / 62 ∧ win0_4.index t (1 : Fin 3) = 0 ∧ win0_4.index t (2 : Fin 3) = 0)

/-- What the last point of a core's run writes back is that core's row of `G4`. -/
theorem flushed4_eq (c : Dev nD) (t : Fin cfg0.N) (hf : (cfg0.win 4).flush t = true) :
    (dats m 0 c).flushed 4 t = ((cfg0.win 4).blk t).view.read (Elt Ideal) (G4 m c) := by
  have h61 : t.val % 62 = 61 := (flush0_4 t).mp hf
  obtain ⟨e0, e1, e2⟩ := idx4 t
  show (cfg0.win 4).cut (grid0.coords t) ((dats m 0 c).after 4 t) = _
  rw [after0_4]
  funext y
  rw [View.read_apply]
  have hy0 : (y 0).val = 0 := by
    have h1 : (cfg0.win 4).xsize (grid0.coords t) (0 : Fin 3) ≤ 1 := (cfg0.win 4).xsize_le _ 0
    have h2 : (y 0).val < (cfg0.win 4).xsize (grid0.coords t) (0 : Fin 3) := (y 0).isLt
    omega
  have hy1 : (y 1).val = 0 := by
    have h1 : (cfg0.win 4).xsize (grid0.coords t) (1 : Fin 3) ≤ 1 := (cfg0.win 4).xsize_le _ 1
    have h2 : (y 1).val < (cfg0.win 4).xsize (grid0.coords t) (1 : Fin 3) := (y 1).isLt
    omega
  have hy2 : (y 2).val < 1024 := by
    have h1 : (cfg0.win 4).xsize (grid0.coords t) (2 : Fin 3) ≤ 1024 := (cfg0.win 4).xsize_le _ 2
    have h2 : (y 2).val < (cfg0.win 4).xsize (grid0.coords t) (2 : Fin 3) := (y 2).isLt
    omega
  have hx : (cfg0.win 4).xinj (grid0.coords t) y = ix3 (0 : Fin 1) (0 : Fin 1) (⟨(y 2).val, hy2⟩ : Fin 1024) := by
    funext a
    apply Fin.ext
    match a with
    | ⟨0, _⟩ => exact hy0
    | ⟨1, _⟩ => exact hy1
    | ⟨2, _⟩ => rfl
  show (outsAt0 m c t.val t.isLt).2.1 ((cfg0.win 4).xinj (grid0.coords t) y) = G4 m c (((cfg0.win 4).blk t).view.emb y)
  rw [hx, outs4 m c _ t.val t.isLt, h61]
  have r0 : ((((cfg0.win 4).blk t).view.emb y) 0).val = t.val / 62 := by
    show win0_4.index t (0 : Fin 3) * 1 + 1 * (y 0).val = t.val / 62
    rw [e0, hy0]; omega
  have r2 : ((((cfg0.win 4).blk t).view.emb y) 2).val = (y 2).val := by
    show win0_4.index t (2 : Fin 3) * 1024 + 1 * (y 2).val = (y 2).val
    rw [e2]; omega
  unfold G4
  dsimp only
  rw [r0, show (⟨((((cfg0.win 4).blk t).view.emb y) 2).val, ((((cfg0.win 4).blk t).view.emb y) 2).isLt⟩ : Fin 1024) = ⟨(y 2).val, hy2⟩ from Fin.ext r2]

/-- An index of the array is in point `t`'s block iff each coordinate is in the block's range on its axis. -/
theorem mem_blk4 (t : Fin cfg0.N) (i : S2x1x1024.Idx) :
    i ∈ ((cfg0.win 4).blk t).view.set ↔ ∀ a : Fin 3, win0_4.index t a * S1x1x1024.size a ≤ (i a).val ∧ (i a).val < win0_4.index t a * S1x1x1024.size a + S1x1x1024.size a := by
  show i ∈ ((View.whole main_v2_1).slice (win0_4.rect t)).set ↔ _
  rw [View.set_slice_whole, Rect.mem_set_unit]
  exact Iff.rfl

/-- Every index of the array is in the block some core's last point writes back. -/
theorem cover4 (i : S2x1x1024.Idx) : ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 1024 := (i 2).isLt
  have hN : cfg0.N = 124 := N_0
  have hlt : 62 * (i 0).val + 61 < cfg0.N := by rw [hN]; omega
  obtain ⟨e0, e1, e2⟩ := idx4 ⟨62 * (i 0).val + 61, hlt⟩
  refine ⟨⟨62 * (i 0).val + 61, hlt⟩, (flush0_4 _).mpr (by show (62 * (i 0).val + 61) % 62 = 61; omega), ?_⟩
  rw [mem_blk4]
  intro a
  match a with
  | ⟨0, _⟩ =>
    show win0_4.index ⟨62 * (i 0).val + 61, hlt⟩ (0 : Fin 3) * 1 ≤ (i 0).val ∧ (i 0).val < win0_4.index ⟨62 * (i 0).val + 61, hlt⟩ (0 : Fin 3) * 1 + 1
    rw [e0]; dsimp only; omega
  | ⟨1, _⟩ =>
    show win0_4.index ⟨62 * (i 0).val + 61, hlt⟩ (1 : Fin 3) * 1 ≤ (i 1).val ∧ (i 1).val < win0_4.index ⟨62 * (i 0).val + 61, hlt⟩ (1 : Fin 3) * 1 + 1
    rw [e1]; omega
  | ⟨2, _⟩ =>
    show win0_4.index ⟨62 * (i 0).val + 61, hlt⟩ (2 : Fin 3) * 1024 ≤ (i 2).val ∧ (i 2).val < win0_4.index ⟨62 * (i 0).val + 61, hlt⟩ (2 : Fin 3) * 1024 + 1024
    rw [e2]; omega

/-- THE ARRAY after the run. -/
theorem final4 (c : Dev nD) : (dats m 0 c).arrAt 4 cfg0.N = G4 m c :=
  (dats m 0 c).arrAt_eq_of_cover 4 (G4 m c) (flushed4_eq m c) (cover4)

/-! ## Block 5 -/

/-- The first point of a core's run leaves the point's own addend over zero; -/
theorem ptA5 (c : Dev nD) (t : Fin cfg0.N) (h0 : t.val % 62 = 0) (cc : Fin 1024) :
    (outsAt0 m c t.val t.isLt).2.2.1 (ix3 0 0 cc) = 0 + P5 m c cc t.val := by
  rw [outsAt0_A m c t h0]
  dsimp only
  refine (congrFun (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)) (ix3 0 0 cc)).trans ?_
  refine (pt5 m c t (k0_pay3 (F := Ideal)) cc).trans ?_
  rw [pay3_zero]

/-- every later point adds its own addend to what the point before left. -/
theorem ptB5 (c : Dev nD) (t : Fin cfg0.N) (h0 : ¬t.val % 62 = 0) (cc : Fin 1024) :
    (outsAt0 m c t.val t.isLt).2.2.1 (ix3 0 0 cc)
      = (outsAt0 m c (t.val - 1) (Nat.lt_of_le_of_lt (Nat.sub_le _ _) t.isLt)).2.2.1 (ix3 0 0 cc) + P5 m c cc t.val := by
  rw [outsAt0_B m c t h0]
  dsimp only
  refine (congrFun (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 0 0 cc)).trans ?_
  exact pt5 m c t _ cc

/-- So after point `t` a lane holds the addends of the points of its core's run so far. -/
theorem outs5 (c : Dev nD) (cc : Fin 1024) (t : ℕ) (ht : t < cfg0.N) :
    (outsAt0 m c t ht).2.2.1 (ix3 0 0 cc) = 0 + ∑ s ∈ Finset.range (t % 62 + 1), P5 m c cc (62 * (t / 62) + s) := by
  have h' : 62 * (t / 62) + t % 62 < cfg0.N := by rw [Nat.div_add_mod]; exact ht
  have key := Pipeline.eq_accAt_of_mod (N := cfg0.N) (α := Fin 1024 → EReal)
    (fun n h cc => (outsAt0 m c n h).2.2.1 (ix3 0 0 cc)) 62
    (fun n _ cc => 0 + P5 m c cc n) (fun n _ acc cc => acc cc + P5 m c cc n)
    (fun n h hmod => funext fun cc => ptA5 m c ⟨n, h⟩ hmod cc)
    (fun n h hne => funext fun cc => ptB5 m c ⟨n + 1, h⟩ hne cc)
    (by norm_num) t ht h'
  refine (congrFun key cc).trans ?_
  exact Pipeline.accAt_add_apply _ _ (fun _ => 0) (fun n cc => P5 m c cc n) (62 * (t / 62)) 61 (fun _ _ => rfl)
    (fun _ _ _ _ _ _ => rfl) (t % 62) (by omega) h' cc

/-- The array the block is written back to, after the run: row `p` holds the addends of core `p`'s 62 points. -/
def G5 (c : Dev nD) : Buf (Elt Ideal) ((c.tc : Thread nD τ).loc main_v2_2) :=
  fun (i : S2x1x1024.Idx) => 0 + ∑ s ∈ Finset.range 62, P5 m c ⟨(i 2).val, (i 2).isLt⟩ (62 * (i 0).val + s)

/-- The block's index map over the grid: core `t / 62`, nothing else moves. -/
theorem idx5 : ∀ t : Fin cfg0.N, win0_5.index t (0 : Fin 3) = t.val / 62 ∧ win0_5.index t (1 : Fin 3) = 0 ∧ win0_5.index t (2 : Fin 3) = 0 :=
  (by decide +kernel : ∀ t : Fin grid0.N, win0_5.index t (0 : Fin 3) = t.val / 62 ∧ win0_5.index t (1 : Fin 3) = 0 ∧ win0_5.index t (2 : Fin 3) = 0)

/-- What the last point of a core's run writes back is that core's row of `G5`. -/
theorem flushed5_eq (c : Dev nD) (t : Fin cfg0.N) (hf : (cfg0.win 5).flush t = true) :
    (dats m 0 c).flushed 5 t = ((cfg0.win 5).blk t).view.read (Elt Ideal) (G5 m c) := by
  have h61 : t.val % 62 = 61 := (flush0_5 t).mp hf
  obtain ⟨e0, e1, e2⟩ := idx5 t
  show (cfg0.win 5).cut (grid0.coords t) ((dats m 0 c).after 5 t) = _
  rw [after0_5]
  funext y
  rw [View.read_apply]
  have hy0 : (y 0).val = 0 := by
    have h1 : (cfg0.win 5).xsize (grid0.coords t) (0 : Fin 3) ≤ 1 := (cfg0.win 5).xsize_le _ 0
    have h2 : (y 0).val < (cfg0.win 5).xsize (grid0.coords t) (0 : Fin 3) := (y 0).isLt
    omega
  have hy1 : (y 1).val = 0 := by
    have h1 : (cfg0.win 5).xsize (grid0.coords t) (1 : Fin 3) ≤ 1 := (cfg0.win 5).xsize_le _ 1
    have h2 : (y 1).val < (cfg0.win 5).xsize (grid0.coords t) (1 : Fin 3) := (y 1).isLt
    omega
  have hy2 : (y 2).val < 1024 := by
    have h1 : (cfg0.win 5).xsize (grid0.coords t) (2 : Fin 3) ≤ 1024 := (cfg0.win 5).xsize_le _ 2
    have h2 : (y 2).val < (cfg0.win 5).xsize (grid0.coords t) (2 : Fin 3) := (y 2).isLt
    omega
  have hx : (cfg0.win 5).xinj (grid0.coords t) y = ix3 (0 : Fin 1) (0 : Fin 1) (⟨(y 2).val, hy2⟩ : Fin 1024) := by
    funext a
    apply Fin.ext
    match a with
    | ⟨0, _⟩ => exact hy0
    | ⟨1, _⟩ => exact hy1
    | ⟨2, _⟩ => rfl
  show (outsAt0 m c t.val t.isLt).2.2.1 ((cfg0.win 5).xinj (grid0.coords t) y) = G5 m c (((cfg0.win 5).blk t).view.emb y)
  rw [hx, outs5 m c _ t.val t.isLt, h61]
  have r0 : ((((cfg0.win 5).blk t).view.emb y) 0).val = t.val / 62 := by
    show win0_5.index t (0 : Fin 3) * 1 + 1 * (y 0).val = t.val / 62
    rw [e0, hy0]; omega
  have r2 : ((((cfg0.win 5).blk t).view.emb y) 2).val = (y 2).val := by
    show win0_5.index t (2 : Fin 3) * 1024 + 1 * (y 2).val = (y 2).val
    rw [e2]; omega
  unfold G5
  dsimp only
  rw [r0, show (⟨((((cfg0.win 5).blk t).view.emb y) 2).val, ((((cfg0.win 5).blk t).view.emb y) 2).isLt⟩ : Fin 1024) = ⟨(y 2).val, hy2⟩ from Fin.ext r2]

/-- An index of the array is in point `t`'s block iff each coordinate is in the block's range on its axis. -/
theorem mem_blk5 (t : Fin cfg0.N) (i : S2x1x1024.Idx) :
    i ∈ ((cfg0.win 5).blk t).view.set ↔ ∀ a : Fin 3, win0_5.index t a * S1x1x1024.size a ≤ (i a).val ∧ (i a).val < win0_5.index t a * S1x1x1024.size a + S1x1x1024.size a := by
  show i ∈ ((View.whole main_v2_2).slice (win0_5.rect t)).set ↔ _
  rw [View.set_slice_whole, Rect.mem_set_unit]
  exact Iff.rfl

/-- Every index of the array is in the block some core's last point writes back. -/
theorem cover5 (i : S2x1x1024.Idx) : ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 1024 := (i 2).isLt
  have hN : cfg0.N = 124 := N_0
  have hlt : 62 * (i 0).val + 61 < cfg0.N := by rw [hN]; omega
  obtain ⟨e0, e1, e2⟩ := idx5 ⟨62 * (i 0).val + 61, hlt⟩
  refine ⟨⟨62 * (i 0).val + 61, hlt⟩, (flush0_5 _).mpr (by show (62 * (i 0).val + 61) % 62 = 61; omega), ?_⟩
  rw [mem_blk5]
  intro a
  match a with
  | ⟨0, _⟩ =>
    show win0_5.index ⟨62 * (i 0).val + 61, hlt⟩ (0 : Fin 3) * 1 ≤ (i 0).val ∧ (i 0).val < win0_5.index ⟨62 * (i 0).val + 61, hlt⟩ (0 : Fin 3) * 1 + 1
    rw [e0]; dsimp only; omega
  | ⟨1, _⟩ =>
    show win0_5.index ⟨62 * (i 0).val + 61, hlt⟩ (1 : Fin 3) * 1 ≤ (i 1).val ∧ (i 1).val < win0_5.index ⟨62 * (i 0).val + 61, hlt⟩ (1 : Fin 3) * 1 + 1
    rw [e1]; omega
  | ⟨2, _⟩ =>
    show win0_5.index ⟨62 * (i 0).val + 61, hlt⟩ (2 : Fin 3) * 1024 ≤ (i 2).val ∧ (i 2).val < win0_5.index ⟨62 * (i 0).val + 61, hlt⟩ (2 : Fin 3) * 1024 + 1024
    rw [e2]; omega

/-- THE ARRAY after the run. -/
theorem final5 (c : Dev nD) : (dats m 0 c).arrAt 5 cfg0.N = G5 m c :=
  (dats m 0 c).arrAt_eq_of_cover 5 (G5 m c) (flushed5_eq m c) (cover5)

/-! ## Block 6 -/

/-- The first point of a core's run leaves the point's own addend over zero; -/
theorem ptA6 (c : Dev nD) (t : Fin cfg0.N) (h0 : t.val % 62 = 0) (l : Fin 128) :
    (outsAt0 m c t.val t.isLt).2.2.2 (ix3 0 0 l) = 0 + P6 m c t.val := by
  rw [outsAt0_A m c t h0]
  dsimp only
  refine (congrFun (out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t)) (ix3 0 0 l)).trans ?_
  refine (pt6 m c t (k0_pay4 (F := Ideal)) l).trans ?_
  rw [pay4_zero]

/-- every later point adds its own addend to what the point before left. -/
theorem ptB6 (c : Dev nD) (t : Fin cfg0.N) (h0 : ¬t.val % 62 = 0) (l : Fin 128) :
    (outsAt0 m c t.val t.isLt).2.2.2 (ix3 0 0 l)
      = (outsAt0 m c (t.val - 1) (Nat.lt_of_le_of_lt (Nat.sub_le _ _) t.isLt)).2.2.2 (ix3 0 0 l) + P6 m c t.val := by
  rw [outsAt0_B m c t h0]
  dsimp only
  refine (congrFun (out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix3 0 0 l)).trans ?_
  exact pt6 m c t _ l

/-- So after point `t` a lane holds the addends of the points of its core's run so far. -/
theorem outs6 (c : Dev nD) (l : Fin 128) (t : ℕ) (ht : t < cfg0.N) :
    (outsAt0 m c t ht).2.2.2 (ix3 0 0 l) = 0 + ∑ s ∈ Finset.range (t % 62 + 1), P6 m c (62 * (t / 62) + s) := by
  have h' : 62 * (t / 62) + t % 62 < cfg0.N := by rw [Nat.div_add_mod]; exact ht
  have key := Pipeline.eq_accAt_of_mod (N := cfg0.N) (α := Fin 128 → EReal)
    (fun n h l => (outsAt0 m c n h).2.2.2 (ix3 0 0 l)) 62
    (fun n _ l => 0 + P6 m c n) (fun n _ acc l => acc l + P6 m c n)
    (fun n h hmod => funext fun l => ptA6 m c ⟨n, h⟩ hmod l)
    (fun n h hne => funext fun l => ptB6 m c ⟨n + 1, h⟩ hne l)
    (by norm_num) t ht h'
  refine (congrFun key l).trans ?_
  exact Pipeline.accAt_add_apply _ _ (fun _ => 0) (fun n l => P6 m c n) (62 * (t / 62)) 61 (fun _ _ => rfl)
    (fun _ _ _ _ _ _ => rfl) (t % 62) (by omega) h' l

/-- The array the block is written back to, after the run: row `p` holds the addends of core `p`'s 62 points. -/
def G6 (c : Dev nD) : Buf (Elt Ideal) ((c.tc : Thread nD τ).loc main_v2_3) :=
  fun (i : S2x1x128.Idx) => 0 + ∑ s ∈ Finset.range 62, P6 m c (62 * (i 0).val + s)

/-- The block's index map over the grid: core `t / 62`, nothing else moves. -/
theorem idx6 : ∀ t : Fin cfg0.N, win0_6.index t (0 : Fin 3) = t.val / 62 ∧ win0_6.index t (1 : Fin 3) = 0 ∧ win0_6.index t (2 : Fin 3) = 0 :=
  (by decide +kernel : ∀ t : Fin grid0.N, win0_6.index t (0 : Fin 3) = t.val / 62 ∧ win0_6.index t (1 : Fin 3) = 0 ∧ win0_6.index t (2 : Fin 3) = 0)

/-- What the last point of a core's run writes back is that core's row of `G6`. -/
theorem flushed6_eq (c : Dev nD) (t : Fin cfg0.N) (hf : (cfg0.win 6).flush t = true) :
    (dats m 0 c).flushed 6 t = ((cfg0.win 6).blk t).view.read (Elt Ideal) (G6 m c) := by
  have h61 : t.val % 62 = 61 := (flush0_6 t).mp hf
  obtain ⟨e0, e1, e2⟩ := idx6 t
  show (cfg0.win 6).cut (grid0.coords t) ((dats m 0 c).after 6 t) = _
  rw [after0_6]
  funext y
  rw [View.read_apply]
  have hy0 : (y 0).val = 0 := by
    have h1 : (cfg0.win 6).xsize (grid0.coords t) (0 : Fin 3) ≤ 1 := (cfg0.win 6).xsize_le _ 0
    have h2 : (y 0).val < (cfg0.win 6).xsize (grid0.coords t) (0 : Fin 3) := (y 0).isLt
    omega
  have hy1 : (y 1).val = 0 := by
    have h1 : (cfg0.win 6).xsize (grid0.coords t) (1 : Fin 3) ≤ 1 := (cfg0.win 6).xsize_le _ 1
    have h2 : (y 1).val < (cfg0.win 6).xsize (grid0.coords t) (1 : Fin 3) := (y 1).isLt
    omega
  have hy2 : (y 2).val < 128 := by
    have h1 : (cfg0.win 6).xsize (grid0.coords t) (2 : Fin 3) ≤ 128 := (cfg0.win 6).xsize_le _ 2
    have h2 : (y 2).val < (cfg0.win 6).xsize (grid0.coords t) (2 : Fin 3) := (y 2).isLt
    omega
  have hx : (cfg0.win 6).xinj (grid0.coords t) y = ix3 (0 : Fin 1) (0 : Fin 1) (⟨(y 2).val, hy2⟩ : Fin 128) := by
    funext a
    apply Fin.ext
    match a with
    | ⟨0, _⟩ => exact hy0
    | ⟨1, _⟩ => exact hy1
    | ⟨2, _⟩ => rfl
  show (outsAt0 m c t.val t.isLt).2.2.2 ((cfg0.win 6).xinj (grid0.coords t) y) = G6 m c (((cfg0.win 6).blk t).view.emb y)
  rw [hx, outs6 m c _ t.val t.isLt, h61]
  have r0 : ((((cfg0.win 6).blk t).view.emb y) 0).val = t.val / 62 := by
    show win0_6.index t (0 : Fin 3) * 1 + 1 * (y 0).val = t.val / 62
    rw [e0, hy0]; omega
  have r2 : ((((cfg0.win 6).blk t).view.emb y) 2).val = (y 2).val := by
    show win0_6.index t (2 : Fin 3) * 128 + 1 * (y 2).val = (y 2).val
    rw [e2]; omega
  unfold G6
  dsimp only
  rw [r0]

/-- An index of the array is in point `t`'s block iff each coordinate is in the block's range on its axis. -/
theorem mem_blk6 (t : Fin cfg0.N) (i : S2x1x128.Idx) :
    i ∈ ((cfg0.win 6).blk t).view.set ↔ ∀ a : Fin 3, win0_6.index t a * S1x1x128.size a ≤ (i a).val ∧ (i a).val < win0_6.index t a * S1x1x128.size a + S1x1x128.size a := by
  show i ∈ ((View.whole main_v2_3).slice (win0_6.rect t)).set ↔ _
  rw [View.set_slice_whole, Rect.mem_set_unit]
  exact Iff.rfl

/-- Every index of the array is in the block some core's last point writes back. -/
theorem cover6 (i : S2x1x128.Idx) : ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 128 := (i 2).isLt
  have hN : cfg0.N = 124 := N_0
  have hlt : 62 * (i 0).val + 61 < cfg0.N := by rw [hN]; omega
  obtain ⟨e0, e1, e2⟩ := idx6 ⟨62 * (i 0).val + 61, hlt⟩
  refine ⟨⟨62 * (i 0).val + 61, hlt⟩, (flush0_6 _).mpr (by show (62 * (i 0).val + 61) % 62 = 61; omega), ?_⟩
  rw [mem_blk6]
  intro a
  match a with
  | ⟨0, _⟩ =>
    show win0_6.index ⟨62 * (i 0).val + 61, hlt⟩ (0 : Fin 3) * 1 ≤ (i 0).val ∧ (i 0).val < win0_6.index ⟨62 * (i 0).val + 61, hlt⟩ (0 : Fin 3) * 1 + 1
    rw [e0]; dsimp only; omega
  | ⟨1, _⟩ =>
    show win0_6.index ⟨62 * (i 0).val + 61, hlt⟩ (1 : Fin 3) * 1 ≤ (i 1).val ∧ (i 1).val < win0_6.index ⟨62 * (i 0).val + 61, hlt⟩ (1 : Fin 3) * 1 + 1
    rw [e1]; omega
  | ⟨2, _⟩ =>
    show win0_6.index ⟨62 * (i 0).val + 61, hlt⟩ (2 : Fin 3) * 128 ≤ (i 2).val ∧ (i 2).val < win0_6.index ⟨62 * (i 0).val + 61, hlt⟩ (2 : Fin 3) * 128 + 128
    rw [e2]; omega

/-- THE ARRAY after the run. -/
theorem final6 (c : Dev nD) : (dats m 0 c).arrAt 6 cfg0.N = G6 m c :=
  (dats m 0 c).arrAt_eq_of_cover 6 (G6 m c) (flushed6_eq m c) (cover6)

end Cert.KernelIdeal.KGrid

end
-- ==== Proof.KSpec.lean ====
/-
  The kernel's host-side epilogue as one formula of the four per-core accumulator arrays.

  The pallas call leaves, for each of the two cores `p`, a row of 1024 class sums of `q` (`a3 p c`), a row of 1024
  class counts (`a4 p c`), a row of 1024 class sums of `q²` (`a5 p c`) and the hinge sum (`a6 p`: lane 0 of a 128-lane
  row).  The epilogue adds the two cores' rows, floors the counts at one, forms `E[q²] − (E q)²` per class, averages it
  over the 1024 classes, and adds the hinge mean and the squared overall mean, each weighted by `1.0`.
-/
import proofs.«421990_j76184129896577_3_alg».proof.Proof.Spec

noncomputable section

namespace Cert.KSpec

open Idealize.ShloMosaic Cert.Spec
open scoped BigOperators

/-- The epilogue's result from the per-core arrays. -/
def ktail (a3 a4 a5 : Fin 2 → Fin 1024 → EReal) (a6 : Fin 2 → EReal) : EReal :=
  (one * Ideal.div (a6 0 + a6 1) nRows
    + one * Ideal.div (∑ c : Fin 1024,
        (Ideal.div (a5 0 c + a5 1 c) (max (a4 0 c + a4 1 c) one)
          - Ideal.div (a3 0 c + a3 1 c) (max (a4 0 c + a4 1 c) one)
            * Ideal.div (a3 0 c + a3 1 c) (max (a4 0 c + a4 1 c) one))) nCls)
  + one * (Ideal.div (∑ c : Fin 1024, (a3 0 c + a3 1 c)) nRows * Ideal.div (∑ c : Fin 1024, (a3 0 c + a3 1 c)) nRows)

end Cert.KSpec

end
-- ==== Proof.KTail.lean ====
/-
  The kernel's host-side epilogue read as one formula of the four per-core accumulator arrays.

  After the kernel region the program runs forty host operations.  Each of the four arrays is summed over its leading
  (core) axis of extent 2 from the initial value 0, and the unit axis left behind is dropped; of the hinge row only
  lane 0 is kept, as a scalar.  The class counts are floored at one; per class the program forms
  `E[q²] − (E q)²` from the three rows; that is summed over the 1024 classes (a sum into a rank-0 result) and divided
  by the class count; the overall sum of `q` is the sum of the class sums.  The three terms are weighted by `1.0` and
  added.  Every stage that is not pointwise is read at an index by a lemma of its own, over variables of the literal
  shapes; the pointwise stages read through definitionally.  Assembled, the result is `Cert.KSpec.ktail` of the four
  arrays read at `(p, 0, c)`.
-/
import proofs.«421990_j76184129896577_3_alg».proof.Proof.KSpec
import proofs.«421990_j76184129896577_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KTail

open Cert.KernelIdeal Cert.KernelIdeal.Gen Idealize.ShloMosaic
open Idealize.ShloMosaic.ValueIdx
open scoped BigOperators

/-! ## The stages that are not pointwise, each read at an index -/

/-- The sum over the core axis: a `[2, 1, n]` array summed over its leading axis from the initial value `0` is, at
    `(0, c)`, the sum of the two cores' entries at `c`. -/
theorem coreSum_apply {n : Nat} (h' : (⟨3, ![2, 1, n]⟩ : Shape).ReducesTo [0] ⟨2, ![1, n]⟩)
    (h : (⟨3, ![2, 1, n]⟩ : Shape).Reduces [0] ⟨2, ![1, n]⟩)
    (x : FVec Ideal ⟨3, ![2, 1, n]⟩ .f32) (c : Fin n) :
    Host.reduceAdd x (constant S_ .f32 0x00000000#32) h' h_S_ (ix2 (0 : Fin 1) c)
      = x (ix3 (0 : Fin 2) (0 : Fin 1) c) + x (ix3 (1 : Fin 2) (0 : Fin 1) c) := by
  simp only [Host.reduceAdd, Ideal.hostReduceAdd_def]
  rw [Ideal.hostReduceAdd_single h' h]
  show Ideal.ofBits .f32 0x00000000#32 + ∑ k : Fin 2, x (h.lift (ix2 (0 : Fin 1) c) k) = _
  rw [Ideal.ofBits_zero_f32, zero_add, Fin.sum_univ_two]
  congr 1 <;>
    exact congrArg x (funext fun a => Fin.ext (by match a with | ⟨0, _⟩ => rfl | ⟨1, _⟩ => rfl | ⟨2, _⟩ => rfl))

/-- Lane 0 of a 128-lane row taken as a scalar: the slice `[0:1]` viewed at rank 0 reads the row at `0`. -/
theorem lane0_apply (y : FVec Ideal S128 .f32) (i : S_.Idx) :
    shapeCast S_ (extractStridedSlice S1 ![0] y slices_S128_S1_0) shapeCasts_S1_S_ i = y (ix1 (0 : Fin 128)) := by
  rw [shapeCast_apply _ shapeCasts_S1_S_ i (ix1 (0 : Fin 1)) (by
    rw [Shape.rowMajor_val_one]
    exact (Shape.rowMajorPi_zero _ _).symm)]
  exact extractStridedSlice_apply _ y slices_S128_S1_0 _ (ix1 (0 : Fin 128))
    (fun a => by match a with | ⟨0, _⟩ => rfl)

/-- A rank-1 index set is the range of its one coordinate. -/
def idxEquiv1 (n : Nat) : (⟨1, ![n]⟩ : Shape).Idx ≃ Fin n where
  toFun i := i 0
  invFun := ix1
  left_inv i := (eq_ix1 i).symm
  right_inv _ := rfl

/-- The sum over the classes into a rank-0 result, from the initial value `0`: the sum over the 1024 coordinates. -/
theorem classSum_apply (y : FVec Ideal S1024 .f32) (i : S_.Idx) :
    Host.reduceAdd y (constant S_ .f32 0x00000000#32) reducesTo_S1024_S_d0 h_S_ i = ∑ c : Fin 1024, y (ix1 c) := by
  simp only [Host.reduceAdd, Ideal.hostReduceAdd_def]
  rw [Ideal.hostReduceAdd_total reducesTo_S1024_S_d0 (fun b => b.elim0)]
  show Ideal.ofBits .f32 0x00000000#32 + _ = _
  rw [Ideal.ofBits_zero_f32, zero_add]
  exact (Equiv.sum_comp (idxEquiv1 1024).symm y).symm

/-- A scalar broadcast over the classes reads the scalar everywhere. -/
theorem splat_apply (v : FVec Ideal S_ .f32) (j : S1024.Idx) :
    broadcastInDim S1024 ![] bcast_S_S1024 v j = v ix0 :=
  broadcastInDim_apply _ bcast_S_S1024 v j ix0 (fun a => a.elim0)

/-- The host's quotient at an index is the ideal division of the elements. -/
theorem hostDivf_apply {s : Shape} (a b : FVec Ideal s .f32) (i : s.Idx) :
    Host.divf a b i = Ideal.div (a i) (b i) := rfl

/-! ## The epilogue's intermediate values -/

/-- A `[2, 1, 1024]` accumulator with the two cores' rows added and the unit axis dropped. -/
def coreRow (x : FVec Ideal S2x1x1024 .f32) : FVec Ideal S1024 .f32 :=
  shapeCast S1024 (Host.reduceAdd x (constant S_ .f32 0x00000000#32) reducesTo_S2x1x1024_S1x1024_d0 h_S_)
    shapeCasts_S1x1024_S1024

theorem coreRow_apply (x : FVec Ideal S2x1x1024 .f32) (c : Fin 1024) :
    coreRow x (ix1 c) = x (ix3 (0 : Fin 2) (0 : Fin 1) c) + x (ix3 (1 : Fin 2) (0 : Fin 1) c) := by
  unfold coreRow
  rw [shapeCast_1a_a_apply]
  exact coreSum_apply reducesTo_S2x1x1024_S1x1024_d0 (by decide) x c

/-- The hinge accumulator with the two cores' rows added, lane 0 of the row, as a scalar. -/
def hingeLane (x : FVec Ideal S2x1x128 .f32) : FVec Ideal S_ .f32 :=
  shapeCast S_
    (extractStridedSlice S1 ![0]
      (shapeCast S128 (Host.reduceAdd x (constant S_ .f32 0x00000000#32) reducesTo_S2x1x128_S1x128_d0 h_S_)
        shapeCasts_S1x128_S128)
      slices_S128_S1_0)
    shapeCasts_S1_S_

theorem hingeLane_apply (x : FVec Ideal S2x1x128 .f32) (i : S_.Idx) :
    hingeLane x i = x (ix3 (0 : Fin 2) (0 : Fin 1) (0 : Fin 128)) + x (ix3 (1 : Fin 2) (0 : Fin 1) (0 : Fin 128)) := by
  unfold hingeLane
  rw [lane0_apply, shapeCast_1a_a_apply]
  exact coreSum_apply reducesTo_S2x1x128_S1x128_d0 (by decide) x 0

/-- The sum of a row over the classes. -/
def classTotal (y : FVec Ideal S1024 .f32) : FVec Ideal S_ .f32 :=
  Host.reduceAdd y (constant S_ .f32 0x00000000#32) reducesTo_S1024_S_d0 h_S_

theorem classTotal_apply (y : FVec Ideal S1024 .f32) (i : S_.Idx) : classTotal y i = ∑ c : Fin 1024, y (ix1 c) :=
  classSum_apply y i

/-- The literal `1.0` over the classes: the floor of the counts. -/
def onesRow : FVec Ideal S1024 .f32 :=
  broadcastInDim S1024 ![] bcast_S_S1024 (constant S_ .f32 0x3F800000#32)

theorem onesRow_apply (j : S1024.Idx) : onesRow j = Ideal.ofBits .f32 0x3F800000#32 :=
  splat_apply _ j

/-- The forty operations' composed term over the four arrays. -/
def epilogue (x0 x1 x2 : FVec Ideal S2x1x1024 .f32) (x3 : FVec Ideal S2x1x128 .f32) : FVec Ideal S_ .f32 :=
  addf
    (addf
      (mulf (constant S_ .f32 0x3F800000#32) (Host.divf (hingeLane x3) (constant S_ .f32 0x49742400#32)))
      (mulf (constant S_ .f32 0x3F800000#32)
        (Host.divf
          (classTotal
            (subf (Host.divf (coreRow x2) (maximumf (coreRow x1) onesRow))
              (mulf (Host.divf (coreRow x0) (maximumf (coreRow x1) onesRow))
                (Host.divf (coreRow x0) (maximumf (coreRow x1) onesRow)))))
          (constant S_ .f32 0x44800000#32))))
    (mulf (constant S_ .f32 0x3F800000#32)
      (mulf (Host.divf (classTotal (coreRow x0)) (constant S_ .f32 0x49742400#32))
        (Host.divf (classTotal (coreRow x0)) (constant S_ .f32 0x49742400#32))))

/-- The composed term is the epilogue's formula at its one index. -/
theorem epilogue_eq (x0 x1 x2 : FVec Ideal S2x1x1024 .f32) (x3 : FVec Ideal S2x1x128 .f32) :
    epilogue x0 x1 x2 x3
      = fun _ => Cert.KSpec.ktail
          (fun p c => x0 (ix3 p (0 : Fin 1) c))
          (fun p c => x1 (ix3 p (0 : Fin 1) c))
          (fun p c => x2 (ix3 p (0 : Fin 1) c))
          (fun p => x3 (ix3 p (0 : Fin 1) (0 : Fin 128))) := by
  funext i
  simp only [epilogue, addf_apply, mulf_apply, subf_apply, maximumf_apply, hostDivf_apply, constant_apply,
    classTotal_apply, coreRow_apply, hingeLane_apply, onesRow_apply]
  rfl

/-! ## The statement -/

set_option maxHeartbeats 4000000 in
/-- After the forty host operations the result buffer holds the epilogue's formula of the four arrays. -/
theorem tail_eq (W : Valuation τ sig (Elt Ideal)) :
    StableHlo.after (hostOps1 (F := Ideal)) W (Proc.devRef .tc main_v29)
      = fun _ => Cert.KSpec.ktail
          (fun p c => W (Proc.devRef .tc main_v2_0) (ix3 p (0 : Fin 1) c))
          (fun p c => W (Proc.devRef .tc main_v2_1) (ix3 p (0 : Fin 1) c))
          (fun p c => W (Proc.devRef .tc main_v2_2) (ix3 p (0 : Fin 1) c))
          (fun p => W (Proc.devRef .tc main_v2_3) (ix3 p (0 : Fin 1) (0 : Fin 128))) := by
  show StableHlo.after hostOps1 _ (Proc.devRef .tc main_v29) = _
  after_results_simp
  exact epilogue_eq (W (Proc.devRef .tc main_v2_0)) (W (Proc.devRef .tc main_v2_1)) (W (Proc.devRef .tc main_v2_2))
    (W (Proc.devRef .tc main_v2_3))

end Cert.KTail

end
-- ==== Proof.KReindex.lean ====
/-
  Re-indexing of finite sums for a walk over padded rows.

  The rows are walked as four nested counters: core `p < 2`, step `s < 62`, chunk `k < 8` and row
  `j < 1024` of the chunk, the row number being `8192 · (62 · p + s) + 1024 · k + j`.  Every number below
  `2 · 62 · 8 · 1024 = 1,015,808` is written so in exactly one way (mixed-radix digits), hence a sum over
  the four counters is a sum over all the row numbers.  A summand that vanishes on the rows from 1,000,000
  on lets the sum stop there.  Two smaller facts: a sum over the 62 consecutive numbers from `62 · p` is a
  sum over an offset `s < 62`, and a left fold that adds `g k` for `k = 0, …, n − 1` is the starting
  value plus the sum.
-/
import Mathlib.Algebra.BigOperators.Fin
import Mathlib.Algebra.BigOperators.Intervals
import Mathlib.Data.Fintype.BigOperators

namespace Cert.KReindex

open scoped BigOperators

variable {M : Type*} [AddCommMonoid M]

/-- Two digits, over ranges: the numbers `n · i + j` with `i < m`, `j < n` are the numbers below `m · n`,
each once.  Induction on `m`: the block `i = m` is the stretch of length `n` that follows `m · n`. -/
theorem sum_range_mul (f : ℕ → M) (m n : ℕ) :
    ∑ i ∈ Finset.range m, ∑ j ∈ Finset.range n, f (n * i + j) = ∑ r ∈ Finset.range (m * n), f r := by
  induction m with
  | zero => simp
  | succ m ih =>
    rw [Finset.sum_range_succ, ih, Nat.succ_mul, Finset.sum_range_add, Nat.mul_comm n m]

/-- Two digits, over `Fin`: the same statement, the product `m · n` given as a number `N`. -/
theorem sum_fin_mul (m n N : ℕ) (hN : m * n = N) (f : ℕ → M) :
    ∑ i : Fin m, ∑ j : Fin n, f (n * i.val + j.val) = ∑ r : Fin N, f r.val := by
  subst hN
  have h1 : ∀ i : ℕ, ∑ j : Fin n, f (n * i + j.val) = ∑ j ∈ Finset.range n, f (n * i + j) :=
    fun i => Fin.sum_univ_eq_sum_range (fun j => f (n * i + j)) n
  rw [Fin.sum_univ_eq_sum_range (fun i => ∑ j : Fin n, f (n * i + j.val)) m,
    Fin.sum_univ_eq_sum_range f (m * n)]
  simp only [h1]
  exact sum_range_mul f m n

/-- The four counters enumerate the 1,015,808 padded rows: chunk and row first (`8 · 1024 = 8192`), then
the step (`62 · 8192 = 507,904`), then the core (`2 · 507,904 = 1,015,808`). -/
theorem sum_rows (f : ℕ → M) :
    ∑ p : Fin 2, ∑ s : Fin 62, ∑ k : Fin 8, ∑ j : Fin 1024,
        f (8192 * (62 * p.val + s.val) + 1024 * k.val + j.val)
      = ∑ r : Fin 1015808, f r.val := by
  have h1 : ∀ a : ℕ, ∑ k : Fin 8, ∑ j : Fin 1024, f (a + 1024 * k.val + j.val)
      = ∑ r : Fin 8192, f (a + r.val) := by
    intro a
    have h := sum_fin_mul 8 1024 8192 (by omega) (fun x => f (a + x))
    simp only [Nat.add_assoc]
    exact h
  have h2 : ∀ b : ℕ, ∑ s : Fin 62, ∑ r : Fin 8192, f (8192 * (b + s.val) + r.val)
      = ∑ t : Fin 507904, f (8192 * b + t.val) := by
    intro b
    have h := sum_fin_mul 62 8192 507904 (by omega) (fun x => f (8192 * b + x))
    simp only [Nat.mul_add, Nat.add_assoc]
    exact h
  have h3 : ∀ p : ℕ, 8192 * (62 * p) = 507904 * p := by
    intro p
    omega
  simp only [h1, h2, h3]
  exact sum_fin_mul 2 507904 1015808 (by omega) f

/-- A summand that is zero on the rows `1,000,000 ≤ r < 1,015,808` may be summed over the first 1,000,000
rows only: split the range at 1,000,000; the tail is a sum of zeros. -/
theorem sum_pad (f : ℕ → M) (h : ∀ r, 1000000 ≤ r → r < 1015808 → f r = 0) :
    ∑ r : Fin 1015808, f r.val = ∑ i : Fin 1000000, f i.val := by
  rw [Fin.sum_univ_eq_sum_range f 1015808, Fin.sum_univ_eq_sum_range f 1000000,
    ← Finset.sum_range_add_sum_Ico f (show 1000000 ≤ 1015808 by omega)]
  have hz : ∑ r ∈ Finset.Ico 1000000 1015808, f r = 0 := by
    apply Finset.sum_eq_zero
    intro r hr
    rw [Finset.mem_Ico] at hr
    exact h r hr.1 hr.2
  rw [hz, add_zero]

/-- The 62 consecutive numbers from `62 · p` are `62 · p + s` for `s < 62`. -/
theorem sum_Icc_steps (g : ℕ → M) (p : ℕ) :
    ∑ s ∈ Finset.Icc (62 * p) (62 * p + 61), g s = ∑ s : Fin 62, g (62 * p + s.val) := by
  have hI : Finset.Icc (62 * p) (62 * p + 61) = Finset.Ico (62 * p) (62 * p + 62) := by
    ext x
    simp only [Finset.mem_Icc, Finset.mem_Ico]
    omega
  have hlen : 62 * p + 62 - 62 * p = 62 := by omega
  rw [Fin.sum_univ_eq_sum_range (fun s => g (62 * p + s)) 62, hI, Finset.sum_Ico_eq_sum_range, hlen]

/-- A left fold over `0, …, n − 1` that adds `g k` at step `k` is the start plus the sum. -/
theorem foldl_add_eq_sum (g : ℕ → M) (a : M) (n : ℕ) :
    (List.range n).foldl (fun acc k => acc + g k) a = a + ∑ k ∈ Finset.range n, g k := by
  induction n with
  | zero => simp
  | succ n ih =>
    rw [List.range_succ, List.foldl_append, ih, Finset.sum_range_succ, List.foldl_cons,
      List.foldl_nil, add_assoc]

end Cert.KReindex
-- ==== Proof.KFinal.lean ====
/-
  The idealized kernel's result is `Spec.kres` of its arguments.

  Row `p` of each result array holds the addends of core `p`'s 62 grid points; the epilogue adds the two rows, so each
  lane holds the sum of the row addends over all 2 · 62 · 8 · 1024 = 1,015,808 padded rows.  The 15,808 pad rows carry the
  label word `-1`: it equals no class word below 1024 and is negative as a signed number, so a pad row adds nothing to
  any class lane nor to the hinge sum.  What remains is the sum over the 1,000,000 real rows: the specification's
  kernel-side sums.
-/
import proofs.«421990_j76184129896577_3_alg».proof.Proof.KGrid
import proofs.«421990_j76184129896577_3_alg».proof.Proof.KTail
import proofs.«421990_j76184129896577_3_alg».proof.Proof.KReindex

set_option maxRecDepth 16384

noncomputable section

namespace Cert.KernelIdeal.KFinal

open Cert.KernelIdeal Cert.KernelIdeal.Gen Cert.KernelIdeal.KDefs Cert.KernelIdeal.KPoint Cert.KernelIdeal.KGrid
open Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-! ## Pad rows add nothing; real rows add the specification's terms -/

theorem pad_word_ne (cc : Fin 1024) : (4294967295#32 : BitVec 32) ≠ BitVec.ofNat 32 cc.val := by
  intro h
  have h' := congrArg BitVec.toNat h
  have hc := cc.isLt
  simp only [BitVec.toNat_ofNat, BitVec.toNat_ofNat] at h'
  omega

theorem lpad_pad (c : Dev nD) (r : ℕ) (h : 1000000 ≤ r) : lpad m c r = 4294967295#32 := by
  unfold lpad; rw [dif_neg (Nat.not_lt.mpr h)]
theorem lpad_real (c : Dev nD) (i : Fin 1000000) : lpad m c i.val = labArg m c i := by
  unfold lpad; rw [dif_pos i.isLt]
theorem qpad_real (c : Dev nD) (i : Fin 1000000) : qpad m c i.val = Cert.Spec.q (zArg m c) (jArg m c) i := by
  unfold qpad Cert.Spec.q zpad
  refine Finset.sum_congr rfl fun d _ => ?_
  rw [dif_pos i.isLt]

/-- The sum over a core pair's grid points, chunks and rows is the sum over the real rows. -/
theorem rows_eq (f : ℕ → EReal) (hpad : ∀ r, 1000000 ≤ r → r < 1015808 → f r = 0) :
    (∑ p : Fin 2, ∑ s ∈ Finset.range 62, ∑ k : Fin 8, ∑ j : Fin 1024, f (8192 * (62 * p.val + s) + 1024 * k.val + j.val))
      = ∑ i : Fin 1000000, f i.val := by
  have e : ∀ p : Fin 2, (∑ s ∈ Finset.range 62, ∑ k : Fin 8, ∑ j : Fin 1024, f (8192 * (62 * p.val + s) + 1024 * k.val + j.val))
      = ∑ s : Fin 62, ∑ k : Fin 8, ∑ j : Fin 1024, f (8192 * (62 * p.val + s.val) + 1024 * k.val + j.val) :=
    fun p => Finset.sum_range fun s => ∑ k : Fin 8, ∑ j : Fin 1024, f (8192 * (62 * p.val + s) + 1024 * k.val + j.val)
  rw [Finset.sum_congr rfl fun p _ => e p, Cert.KReindex.sum_rows f, Cert.KReindex.sum_pad f hpad]

theorem rows3 (c : Dev nD) (cc : Fin 1024) :
    (∑ p : Fin 2, ∑ s ∈ Finset.range 62, P3 m c cc (62 * p.val + s)) = Cert.Spec.smK (zArg m c) (labArg m c) (jArg m c) cc := by
  unfold P3
  rw [rows_eq (g3 m c cc) fun r h _ => by unfold g3; rw [lpad_pad m c r h, if_neg (pad_word_ne cc)]]
  unfold Cert.Spec.smK
  refine Finset.sum_congr rfl fun i _ => ?_
  unfold g3; rw [lpad_real, qpad_real]

theorem rows4 (c : Dev nD) (cc : Fin 1024) :
    (∑ p : Fin 2, ∑ s ∈ Finset.range 62, P4 m c cc (62 * p.val + s)) = Cert.Spec.cnt (labArg m c) cc := by
  unfold P4
  rw [rows_eq (g4 m c cc) fun r h _ => by unfold g4; rw [lpad_pad m c r h, if_neg (pad_word_ne cc)]]
  unfold Cert.Spec.cnt
  refine Finset.sum_congr rfl fun i _ => ?_
  unfold g4; rw [lpad_real]

theorem rows5 (c : Dev nD) (cc : Fin 1024) :
    (∑ p : Fin 2, ∑ s ∈ Finset.range 62, P5 m c cc (62 * p.val + s)) = Cert.Spec.sqK (zArg m c) (labArg m c) (jArg m c) cc := by
  unfold P5
  rw [rows_eq (g5 m c cc) fun r h _ => by unfold g5; rw [lpad_pad m c r h, if_neg (pad_word_ne cc)]]
  unfold Cert.Spec.sqK
  refine Finset.sum_congr rfl fun i _ => ?_
  unfold g5; rw [lpad_real, qpad_real]

theorem rows6 (c : Dev nD) :
    (∑ p : Fin 2, ∑ s ∈ Finset.range 62, P6 m c (62 * p.val + s)) = Cert.Spec.hingeSumK (zArg m c) (labArg m c) (jArg m c) := by
  unfold P6
  rw [rows_eq (g6 m c) fun r h _ => by unfold g6; rw [lpad_pad m c r h, if_neg (by decide)]]
  unfold Cert.Spec.hingeSumK
  refine Finset.sum_congr rfl fun i _ => ?_
  unfold g6; rw [lpad_real, qpad_real]

/-! ## The two rows of each array, added -/

theorem add_rows (A : ℕ → EReal) : (0 + ∑ s ∈ Finset.range 62, A (62 * (0 : Fin 2).val + s)) + (0 + ∑ s ∈ Finset.range 62, A (62 * (1 : Fin 2).val + s))
    = ∑ p : Fin 2, ∑ s ∈ Finset.range 62, A (62 * p.val + s) := by
  rw [zero_add, zero_add, Fin.sum_univ_two]

/-- The four arrays read at core `p` and lane `cc`, as extended reals. -/
def a3 (c : Dev nD) (p : Fin 2) (cc : Fin 1024) : EReal := G3 m c (ix3 p (0 : Fin 1) cc)
def a4 (c : Dev nD) (p : Fin 2) (cc : Fin 1024) : EReal := G4 m c (ix3 p (0 : Fin 1) cc)
def a5 (c : Dev nD) (p : Fin 2) (cc : Fin 1024) : EReal := G5 m c (ix3 p (0 : Fin 1) cc)
def a6 (c : Dev nD) (p : Fin 2) : EReal := G6 m c (ix3 p (0 : Fin 1) (0 : Fin 128))

theorem sum3 (c : Dev nD) (cc : Fin 1024) :
    a3 m c 0 cc + a3 m c 1 cc = Cert.Spec.smK (zArg m c) (labArg m c) (jArg m c) cc :=
  (add_rows (P3 m c cc)).trans (rows3 m c cc)
theorem sum4 (c : Dev nD) (cc : Fin 1024) :
    a4 m c 0 cc + a4 m c 1 cc = Cert.Spec.cnt (labArg m c) cc :=
  (add_rows (P4 m c cc)).trans (rows4 m c cc)
theorem sum5 (c : Dev nD) (cc : Fin 1024) :
    a5 m c 0 cc + a5 m c 1 cc = Cert.Spec.sqK (zArg m c) (labArg m c) (jArg m c) cc :=
  (add_rows (P5 m c cc)).trans (rows5 m c cc)
theorem sum6 (c : Dev nD) :
    a6 m c 0 + a6 m c 1 = Cert.Spec.hingeSumK (zArg m c) (labArg m c) (jArg m c) :=
  (add_rows (P6 m c)).trans (rows6 m c)

/-- The epilogue of the four arrays is the specification's kernel result. -/
theorem ktail_eq_kres (c : Dev nD) :
    Cert.KSpec.ktail (a3 m c) (a4 m c) (a5 m c) (a6 m c) = Cert.Spec.kres (zArg m c) (labArg m c) (jArg m c) := by
  unfold Cert.KSpec.ktail Cert.Spec.kres Cert.Spec.meanK Cert.Spec.cntC
  simp only [sum3, sum4, sum5, sum6]

/-! ## The run -/

/-- What the lines after the pallas call leave in the result buffer. -/
theorem tail_val (c : Dev nD) :
    Pipeline.afterTail₀ cfgs (dats m) 0 (V0 m) [hostOps1] c main_v29
      = fun _ => Cert.Spec.kres (zArg m c) (labArg m c) (jArg m c) := by
  unfold Pipeline.afterTail₀
  simp only [List.flatten_cons, List.flatten_nil, List.append_nil]
  rw [Cert.KTail.tail_eq]
  have e3 : Pipeline.withArrays (cfgs 0).spec c (V0 m c) (fun w => (dats m 0 c).arrAt w (cfgs 0).N) (Proc.devRef .tc main_v2_0) = G3 m c :=
    (Pipeline.withArrays_arr spec0 launch0.win.arr_inj c _ _ 3).trans (final3 m c)
  have e4 : Pipeline.withArrays (cfgs 0).spec c (V0 m c) (fun w => (dats m 0 c).arrAt w (cfgs 0).N) (Proc.devRef .tc main_v2_1) = G4 m c :=
    (Pipeline.withArrays_arr spec0 launch0.win.arr_inj c _ _ 4).trans (final4 m c)
  have e5 : Pipeline.withArrays (cfgs 0).spec c (V0 m c) (fun w => (dats m 0 c).arrAt w (cfgs 0).N) (Proc.devRef .tc main_v2_2) = G5 m c :=
    (Pipeline.withArrays_arr spec0 launch0.win.arr_inj c _ _ 5).trans (final5 m c)
  have e6 : Pipeline.withArrays (cfgs 0).spec c (V0 m c) (fun w => (dats m 0 c).arrAt w (cfgs 0).N) (Proc.devRef .tc main_v2_3) = G6 m c :=
    (Pipeline.withArrays_arr spec0 launch0.win.arr_inj c _ _ 6).trans (final6 m c)
  rw [e3, e4, e5, e6]
  exact congrArg (fun (x : EReal) (_ : S_.Idx) => x) (ktail_eq_kres m c)

/-- THE RUN of the idealized kernel: the result buffer ends at the specification's kernel result of the arguments'
    launch contents, the arguments unchanged. -/
theorem run : θ_run defs (onTc (τ := τ) (main (F := Ideal))) ⟨m, fun _ => 0, ρ⟩ (fun r => ∀ c : Dev nD,
      r.2.mem ((c.tc : Thread nD τ).loc main_v29) = (fun _ => Cert.Spec.kres (zArg m c) (labArg m c) (jArg m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v29 (Pipeline.mem_restRefs_of main_v29 (by decide) (by decide))).trans (tail_val m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).1 2).trans (((dats m 0 c).arrAt_in 2 rfl _).trans ((A_eq m c 2).trans (V_main_arg2 m c)))⟩)
    (run_main m ρ)

end Cert.KernelIdeal.KFinal

end
-- ==== Proof.RefVal.lean ====
/-
  The reference program's result is `Spec.rres` of its three arguments.

  The reference is read one operation at a time (the generated `val_main_vN_apply` lemmas).  Four operations read an
  element that depends on the VALUES of an operand and are read here by hand:

    * the three accumulating scatters: update row `j` lands on entry `c` of the 1024 class entries exactly when
      row `j`'s label word, read as a signed number, is `c`; no update row is clamped, one whose label is outside
      `[0, 1024)` lands nowhere.  Over a zero operand, entry `c` is therefore the sum over the rows labelled `c`
      of the update (`1` for the count, `q` for the class sum, the squared deviation for the class deviation);
    * the gather of the class mean at the label: at a row whose label is `c < 1024` it reads entry `c`.  The
      squared deviation is only ever summed over such rows (inside the third scatter), so nothing is needed of the
      gather at any other row.

  Every host sum starts from the literal `0.0`, which is `0`; the update of the count is the literal `1.0`, which is
  `1`.  The other literals (`0.1`, `1.0e6`, `1024.0` and the three weights `1.0`) are the same words as the
  specification's and are never evaluated.
-/
import proofs.«421990_j76184129896577_3_alg».proof.Proof.Spec
import proofs.«421990_j76184129896577_3_alg».proof.Proof.Gen.ReferenceIdeal.Run
import proofs.«421990_j76184129896577_3_alg».proof.Proof.Gen.ReferenceIdeal.Read
import Idealize.ShloMosaic.Lib.ValueIdx
import Idealize.ShloMosaic.PureOps.Ideal.Laws
import Idealize.ShloMosaic.Lib.StableHlo.Predicate
import Idealize.ShloMosaic.Lib.Pipeline.Value

noncomputable section

namespace Cert.RefVal

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.StableHlo.Predicate
open scoped BigOperators

/-! ## Words and literals -/

/-- A word read as a signed number is `c < 2^31` exactly when it is the word `c`. -/
theorem toInt_eq_iff (b : BitVec 32) (c : Nat) (hc : c < 2 ^ 31) :
    b.toInt = (c : Int) ↔ b = BitVec.ofNat 32 c := by
  have h : (BitVec.ofNat 32 c).toInt = (c : Int) := by
    rw [BitVec.toInt_ofNat']
    simp only [Int.bmod_def]
    omega
  rw [← h]
  exact BitVec.toInt_inj

/-- The literal `1.0` denotes `1`. -/
theorem ofBits_one : Ideal.ofBits .f32 0x3F800000#32 = 1 := by
  simp [Ideal.ofBits, Ideal.ieee, -EReal.coe_mul]; norm_num

/-! ## Rank-1 indices and their sums -/

/-- A rank-1 index set is its coordinate range. -/
def idxEquiv (n : Nat) : (⟨1, ![n]⟩ : Shape).Idx ≃ Fin n where
  toFun j := j 0
  invFun i := ix1 i
  left_inv j := (eq_ix1 j).symm
  right_inv _ := rfl

/-- A sum over a rank-1 index set is the sum over its coordinate. -/
theorem sum_idx1 {n : Nat} (f : (⟨1, ![n]⟩ : Shape).Idx → EReal) : ∑ j, f j = ∑ i : Fin n, f (ix1 i) :=
  Fintype.sum_equiv (idxEquiv n) f (fun i => f (ix1 i)) (fun j => congrArg f (eq_ix1 j))

/-- The two spellings of the rank-1 index at a coordinate agree. -/
theorem ofFin_eq_ix1 {n : Nat} (p : Fin n) : (Shape.Idx.ofFin p : (⟨1, ![n]⟩ : Shape).Idx) = ix1 p := by
  funext a
  obtain rfl : a = 0 := Subsingleton.elim _ _
  rfl

/-! ## The accumulating scatter of a column of start indices into a rank-1 operand -/

section Scatter
variable {N n w : Nat} (d : ScatterDims ⟨1, ![N]⟩ ⟨2, ![n, 1]⟩ ⟨1, ![n]⟩)
  (huw : d.updateWindowDims = []) (hiw : d.insertedWindowDims = [0])
  (hsd : d.scatterDimsToOperandDims = [0]) (hivd : d.indexVectorDim = 1)
include huw hiw hsd hivd

/-- The start of update row `j` on the one operand axis is row `j`'s index word read signed. -/
theorem scatter_start (idx : IVec ⟨2, ![n, 1]⟩ w) (j : (⟨1, ![n]⟩ : Shape).Idx) :
    d.start j idx 0 = (idx (ixP (j 0))).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    show List.idxOf (0 : Fin 1) d.scatterDimsToOperandDims = 0
    rw [hsd]; simp

/-- There is no window axis: the window coordinate is zero. -/
theorem scatter_window (j : (⟨1, ![n]⟩ : Shape).Idx) : d.window j 0 = 0 := by
  have hk : (0 : Fin 1) ∉ d.sKept := by
    simp [ScatterDims.sKept, Shape.kept, hiw]
  unfold ScatterDims.window
  rw [dif_neg hk]

/-- Update row `j` lands on entry `c` exactly when its index word, read signed, is `c`. -/
theorem scatter_resultIdx (idx : IVec ⟨2, ![n, 1]⟩ w) (j : (⟨1, ![n]⟩ : Shape).Idx) (c : Fin N) :
    d.resultIdx? j idx = some (ix1 c) ↔ (idx (ixP (j 0))).toInt = (c.val : Int) := by
  have hs := scatter_start d huw hiw hsd hivd idx j
  have hw := scatter_window d huw hiw hsd hivd j
  have hN : (⟨1, ![N]⟩ : Shape).size 0 = N := rfl
  have hc := c.isLt
  unfold ScatterDims.resultIdx?
  split
  · rename_i h
    have h0 := h 0
    rw [hs, hw, hN] at h0
    constructor
    · intro he
      have hv : ((d.start j idx 0 + (d.window j 0 : Int)).toNat) = c.val :=
        congrArg Fin.val (congrFun (Option.some.inj he) 0)
      rw [hs, hw] at hv
      omega
    · intro he
      congr 1
      funext a
      obtain rfl : a = 0 := Subsingleton.elim _ _
      apply Fin.ext
      show (d.start j idx 0 + (d.window j 0 : Int)).toNat = c.val
      rw [hs, hw]; omega
  · rename_i h
    constructor
    · intro he; exact absurd he (by simp)
    · intro he
      exfalso; apply h
      intro a
      obtain rfl : a = 0 := Subsingleton.elim _ _
      rw [hs, hw, hN]
      omega

/-- Entry `c` of the scatter: the operand's entry plus the sum, over the update rows whose index word is `c`,
    of the update. -/
theorem scatterAdd_take (x : FVec Ideal ⟨1, ![N]⟩ .f32) (idx : IVec ⟨2, ![n, 1]⟩ w) (upd : FVec Ideal ⟨1, ![n]⟩ .f32)
    (c : Fin N) :
    Host.scatterAdd d x idx upd (ix1 c)
      = x (ix1 c) + ∑ i : Fin n, if (idx (ixP i)).toInt = (c.val : Int) then upd (ix1 i) else 0 := by
  show Ideal.hostScatterAdd d x idx upd (ix1 c) = _
  unfold Ideal.hostScatterAdd
  rw [Finset.sum_filter, sum_idx1]
  refine congrArg (x (ix1 c) + ·) (Finset.sum_congr rfl fun i _ => ?_)
  simp only [scatter_resultIdx d huw hiw hsd hivd]
  rfl

end Scatter

/-! ## The reference, stage by stage -/

section Stages
variable (x0 : (⟨S1000000x128, .f32⟩ : BufTy).Contents (Elt Ideal)) (x1 : (⟨S1000000, .i32⟩ : BufTy).Contents (Elt Ideal))
  (x2 : (⟨S128, .f32⟩ : BufTy).Contents (Elt Ideal))

/-- The first argument as the specification's rows of entries. -/
abbrev zOf : Fin 1000000 → Fin 128 → EReal := fun i d => x0 (ix2 i d)
/-- The second argument as the specification's label per row. -/
abbrev labOf : Fin 1000000 → BitVec 32 := fun i => x1 (ix1 i)
/-- The third argument as the specification's metric vector. -/
abbrev jOf : Fin 128 → EReal := fun d => x2 (ix1 d)

/-- The labels laid as a column read, at row `i`, row `i`'s label. -/
theorem col_apply (i : Fin 1000000) :
    broadcastInDim S1000000x1 ![0] bcast_S1000000_S1000000x1_0 x1 (ixP i) = x1 (ix1 i) := by
  rw [bcast_col1, ofFin_eq_ix1]

/-- One of the reference's three scatters at entry `c`: the operand's entry plus the sum of the update over the rows
    labelled `c`. -/
theorem scatter_eq (x : (⟨S1024, .f32⟩ : BufTy).Contents (Elt Ideal)) (upd : (⟨S1000000, .f32⟩ : BufTy).Contents (Elt Ideal))
    (c : Fin 1024) :
    Host.scatterAdd (F := Ideal) (φ := .f32) scatter_S1024_S1000000x1_S1000000_n_0_0_1 x
        (broadcastInDim S1000000x1 ![0] bcast_S1000000_S1000000x1_0 x1) upd (ix1 c)
      = x (ix1 c) + ∑ i : Fin 1000000, if x1 (ix1 i) = BitVec.ofNat 32 c.val then upd (ix1 i) else 0 := by
  have key := scatterAdd_take (N := 1024) (n := 1000000) (w := 32) scatter_S1024_S1000000x1_S1000000_n_0_0_1 rfl rfl rfl rfl x
    (broadcastInDim S1000000x1 ![0] bcast_S1000000_S1000000x1_0 x1) upd c
  rw [key]
  refine congrArg (x (ix1 c) + ·) (Finset.sum_congr rfl fun i _ => ?_)
  have hc : c.val < 2 ^ 31 := by have := c.isLt; omega
  rw [col_apply]
  simp only [toInt_eq_iff _ _ hc]

/-- The quadratic form of row `i`. -/
theorem v4_eq (i : Fin 1000000) :
    val_main_v4 (F := Ideal) x0 x2 (ix1 i) = Spec.q (zOf x0) (jOf x2) i := by
  rw [val_main_v4_apply, val_main_cst_apply]
  simp only [Ideal.ofBits_def, Ideal.ofBits_zero_f32, zero_add]
  unfold Spec.q
  refine Finset.sum_congr rfl fun k _ => ?_
  have h1 : idx_main_v4 (ix1 i) k = ix2 i k := by
    funext a; match a with | ⟨0, _⟩ => rfl | ⟨1, _⟩ => rfl
  have h2 : idx_main_v1 (idx_main_v2 (ix2 i k)) = ix1 k := by
    funext a; match a with | ⟨0, _⟩ => rfl
  rw [val_main_v3_apply, val_main_v0_apply, val_main_v2_apply, val_main_v1_apply, h1, h2]
  rfl

/-- The hinge of row `i`. -/
theorem v8_eq (i : Fin 1000000) :
    val_main_v8 (F := Ideal) x0 x2 (ix1 i) = Spec.hinge (Spec.q (zOf x0) (jOf x2) i) := by
  rw [val_main_v8_apply, val_main_v7_apply, val_main_v6_apply, val_main_cst_0_apply, val_main_v5_apply,
    val_main_call0_v0_apply, val_main_call0_cst_apply, v4_eq]
  simp only [Ideal.ofBits_def, Ideal.ofBits_zero_f32, Ideal.maximumf_def, Ideal.subf_def, Ideal.hostAbsf_def,
    Ideal.absf_def]
  rfl

/-- The hinge summed over the rows. -/
theorem v9_eq (i : S_.Idx) :
    val_main_v9 (F := Ideal) x0 x2 i = Spec.hingeSum (zOf x0) (jOf x2) := by
  rw [val_main_v9_apply, val_main_cst_1_apply, sum_idx1]
  simp only [Ideal.ofBits_def, Ideal.ofBits_zero_f32, zero_add, v8_eq]
  rfl

/-- The number of rows labelled `c`. -/
theorem v14_eq (c : Fin 1024) :
    val_main_v14 (F := Ideal) x1 (ix1 c) = Spec.cnt (labOf x1) c := by
  unfold val_main_v14 val_main_v13
  rw [scatter_eq, val_main_v12_apply, val_main_cst_4_apply]
  simp only [val_main_v11_apply, val_main_cst_3_apply, Ideal.ofBits_def, Ideal.ofBits_zero_f32, zero_add, ofBits_one]
  rfl

/-- The class count floored at one. -/
theorem v15_eq (c : Fin 1024) :
    val_main_v15 (F := Ideal) x1 (ix1 c) = Spec.cntC (labOf x1) c := by
  rw [val_main_v15_apply, val_main_call1_v1_apply, val_main_call1_v0_apply, val_main_cst_5_apply, v14_eq]
  simp only [Ideal.ofBits_def, Ideal.maximumf_def]
  rw [max_comm]
  rfl

/-- The sum of `q` over class `c`. -/
theorem v18_eq (c : Fin 1024) :
    val_main_v18 (F := Ideal) x0 x1 x2 (ix1 c) = Spec.sm (zOf x0) (labOf x1) (jOf x2) c := by
  unfold val_main_v18 val_main_v17
  rw [scatter_eq, val_main_v16_apply, val_main_cst_6_apply]
  simp only [Ideal.ofBits_def, Ideal.ofBits_zero_f32, zero_add, v4_eq]
  rfl

/-- The class mean. -/
theorem v19_eq (c : Fin 1024) :
    val_main_v19 (F := Ideal) x0 x1 x2 (ix1 c) = Spec.mean (zOf x0) (labOf x1) (jOf x2) c := by
  rw [val_main_v19_apply, v18_eq, v15_eq]
  rfl

/-- The index the gather reads at a row labelled `c < 1024` is the label itself: it is not negative, so the
    wrap-around of a negative index is not taken. -/
theorem v25_eq (i : Fin 1000000) (c : Fin 1024) (h : x1 (ix1 i) = BitVec.ofNat 32 c.val) :
    val_main_v25 (F := Ideal) x1 (ixP i) = BitVec.ofNat 32 c.val := by
  have h0 : idx_main_v25 (ixP i) = ix1 i := by
    funext a; match a with | ⟨0, _⟩ => rfl
  have hc := c.isLt
  have hlt : (BitVec.ofNat 32 c.val).toNat = c.val := by
    rw [BitVec.toNat_ofNat]; exact Nat.mod_eq_of_lt (by omega)
  have hcmp : IntOp.cmpi .slt (BitVec.ofNat 32 c.val) (0#32) = 0#1 := by
    apply eq_zero_of_ne_one
    rw [slt_iff_toNat (by rw [hlt]; omega) (by decide)]
    simp
  rw [val_main_v25_apply, h0, val_main_v24_apply, val_main_v21_apply, val_main_v20_apply, val_main_c_apply, h, hcmp,
    select_zero]

/-- The gather at a row labelled `c < 1024` reads the class mean of `c`. -/
theorem v26_eq (i : Fin 1000000) (c : Fin 1024) (h : x1 (ix1 i) = BitVec.ofNat 32 c.val) :
    val_main_v26 (F := Ideal) x0 x1 x2 (ix1 i) = Spec.mean (zOf x0) (labOf x1) (jOf x2) c := by
  have hc := c.isLt
  have hc31 : c.val < 2 ^ 31 := by omega
  have hint : (val_main_v25 (F := Ideal) x1 (ixP i)).toInt = (c.val : Int) := by
    rw [v25_eq x1 i c h]; exact (toInt_eq_iff _ _ hc31).2 rfl
  unfold val_main_v26
  rw [← ofFin_eq_ix1, gather_take gather_S1024_S1000000x1_S1000000_n_0_n_n_0_1_1 rfl rfl rfl rfl _ _ i (by omega)]
  refine (congrArg (val_main_v19 (F := Ideal) x0 x1 x2) ?_).trans (v19_eq x0 x1 x2 c)
  rw [ofFin_eq_ix1]
  refine congrArg ix1 (Fin.ext ?_)
  show min (val_main_v25 (F := Ideal) x1 (ixP i)).toInt.toNat (1024 - 1) = c.val
  rw [hint]; omega

/-- The squared deviation of a row labelled `c < 1024` from the mean of `c`. -/
theorem v28_eq (i : Fin 1000000) (c : Fin 1024) (h : x1 (ix1 i) = BitVec.ofNat 32 c.val) :
    val_main_v28 (F := Ideal) x0 x1 x2 (ix1 i)
      = (Spec.q (zOf x0) (jOf x2) i - Spec.mean (zOf x0) (labOf x1) (jOf x2) c)
        * (Spec.q (zOf x0) (jOf x2) i - Spec.mean (zOf x0) (labOf x1) (jOf x2) c) := by
  rw [val_main_v28_apply, val_main_v27_apply, v4_eq, v26_eq x0 x1 x2 i c h]
  rfl

/-- The summed squared deviation of class `c`. -/
theorem v31_eq (c : Fin 1024) :
    val_main_v31 (F := Ideal) x0 x1 x2 (ix1 c) = Spec.dev (zOf x0) (labOf x1) (jOf x2) c := by
  unfold val_main_v31 val_main_v30
  rw [scatter_eq, val_main_v29_apply, val_main_cst_8_apply]
  simp only [Ideal.ofBits_def, Ideal.ofBits_zero_f32, zero_add]
  unfold Spec.dev
  refine Finset.sum_congr rfl fun i _ => ?_
  by_cases h : x1 (ix1 i) = BitVec.ofNat 32 c.val
  · rw [if_pos h, if_pos h, v28_eq x0 x1 x2 i c h]
  · rw [if_neg h, if_neg h]

/-- The mean squared deviation of class `c`. -/
theorem v32_eq (c : Fin 1024) :
    val_main_v32 (F := Ideal) x0 x1 x2 (ix1 c)
      = Ideal.div (Spec.dev (zOf x0) (labOf x1) (jOf x2) c) (Spec.cntC (labOf x1) c) := by
  rw [val_main_v32_apply, v31_eq, v15_eq]
  rfl

/-- The mean squared deviations summed over the classes. -/
theorem v33_eq (i : S_.Idx) :
    val_main_v33 (F := Ideal) x0 x1 x2 i
      = ∑ c : Fin 1024, Ideal.div (Spec.dev (zOf x0) (labOf x1) (jOf x2) c) (Spec.cntC (labOf x1) c) := by
  rw [val_main_v33_apply, val_main_cst_9_apply, sum_idx1]
  simp only [Ideal.ofBits_def, Ideal.ofBits_zero_f32, zero_add, v32_eq]

/-- The sum of `q` over all rows. -/
theorem v35_eq (i : S_.Idx) :
    val_main_v35 (F := Ideal) x0 x2 i = Spec.total (zOf x0) (jOf x2) := by
  rw [val_main_v35_apply, val_main_cst_11_apply, sum_idx1]
  simp only [Ideal.ofBits_def, Ideal.ofBits_zero_f32, zero_add, v4_eq]
  rfl

/-- The reference's result is the specification's. -/
theorem v42_eq (i : S_.Idx) :
    val_main_v42 (F := Ideal) x0 x1 x2 i = Spec.rres (zOf x0) (labOf x1) (jOf x2) := by
  rw [val_main_v42_apply, val_main_v40_apply, val_main_v41_apply, val_main_v38_apply, val_main_v39_apply,
    val_main_v37_apply, val_main_v36_apply, val_main_v34_apply, val_main_v10_apply, val_main_cst_13_apply,
    val_main_cst_14_apply, val_main_cst_15_apply, val_main_cst_2_apply, val_main_cst_10_apply, val_main_cst_12_apply,
    v9_eq, v33_eq, v35_eq]
  rfl

end Stages

/-- The reference's result buffer holds `Spec.rres` of the three arguments' launch contents. -/
theorem res_eq (m : (ℓ : Loc nD τ sig) → Buf (Elt Ideal) ℓ) (c : Dev nD) :
    Cert.ReferenceIdeal.Value.res_out0 (F := Ideal) m c
      = fun _ => Cert.Spec.rres
          (fun i d => m ((c.tc : Thread nD τ).loc main_arg0) (ValueIdx.ix2 i d))
          (fun i => m ((c.tc : Thread nD τ).loc main_arg1) (ValueIdx.ix1 i))
          (fun d => m ((c.tc : Thread nD τ).loc main_arg2) (ValueIdx.ix1 d)) := by
  show Cert.ReferenceIdeal.Value.res_main_v42 m c = _
  rw [val_main_v42_eq]
  funext i
  exact v42_eq _ _ _ i

end Cert.RefVal

end
-- ==== Proof.Bridge.lean ====
/-
  The kernel's result and the reference's result of Spec.lean are equal when every entry of z and J is finite
  and every label lies in [0, 1024).

  Every row's quadratic form is then the coercion of a real, so the remainders x - x vanish, every label word is
  non-negative as a signed number, and every row lies in exactly one class, so the class sums add up to the
  overall sum.  What is left is the real identity, per class with n rows (n floored at one), sum S, sum of
  squares Q and mean m = S / n:   (sum of (q - m)^2) / n = Q / n - m * m,   both sides zero for an empty class.
-/
import proofs.«421990_j76184129896577_3_alg».proof.Proof.Spec
import Mathlib.Data.EReal.Inv
import Mathlib.Algebra.BigOperators.Group.Finset.Basic
import Mathlib.Algebra.BigOperators.Ring.Finset
import Mathlib.Tactic.Ring
import Mathlib.Tactic.FieldSimp
import Mathlib.Tactic.Linarith
import Mathlib.Tactic.NormNum

noncomputable section

namespace Cert.Bridge

open Cert.Spec Idealize.ShloMosaic
open scoped BigOperators

/-! ### Coercion of finite sums, and division of reals -/

/-- The coercion of reals into the extended reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A sum restricted by a predicate, every selected term the coercion of a real, is the coercion of the
    real sum over the selected indices. -/
theorem sum_ite_coe {ι : Type*} [Fintype ι] (p : ι → Prop) [DecidablePred p] (g : ι → EReal) (f : ι → ℝ)
    (h : ∀ i, p i → g i = ((f i : ℝ) : EReal)) :
    (∑ i, if p i then g i else 0) = ((∑ i ∈ Finset.univ.filter p, f i : ℝ) : EReal) := by
  rw [← Finset.sum_filter, coe_sum]
  exact Finset.sum_congr rfl fun i hi => h i (Finset.mem_filter.mp hi).2

/-- Division of a real by a nonzero real is real division. -/
theorem div_coe_coe (x y : ℝ) (hy : y ≠ 0) :
    Ideal.div (x : EReal) (y : EReal) = ((x / y : ℝ) : EReal) := by
  rw [Ideal.div, if_neg (by exact_mod_cast hy), ← EReal.coe_inv, ← EReal.coe_mul, div_eq_mul_inv]

/-- The literal one denotes the real number one. -/
theorem one_eq : Cert.Spec.one = ((1 : ℝ) : EReal) := by
  simp [Cert.Spec.one, Ideal.ofBits, Ideal.ieee, -EReal.coe_mul]; norm_num

/-! ### Label words -/

/-- A class index below 1024 is non-negative as a signed 32-bit word. -/
theorem toInt_ofNat_nonneg (c : Fin 1024) : 0 ≤ (BitVec.ofNat 32 c.val).toInt := by
  have hc := c.isLt
  simp only [BitVec.toInt, BitVec.toNat_ofNat]
  omega

/-- Distinct class indices below 1024 give distinct words. -/
theorem ofNat_inj (a b : Fin 1024) : BitVec.ofNat 32 a.val = BitVec.ofNat 32 b.val ↔ a = b := by
  constructor
  · intro h
    have h' := congrArg BitVec.toNat h
    simp only [BitVec.toNat_ofNat] at h'
    have ha := a.isLt
    have hb := b.isLt
    apply Fin.ext
    omega
  · rintro rfl; rfl

/-! ### The real identity: the mean squared deviation is the mean square minus the squared mean -/

theorem var_identity {ι : Type*} (F : Finset ι) (f : ι → ℝ) :
    (∑ i ∈ F, f i * f i) / max (F.card : ℝ) 1
      - (∑ i ∈ F, f i) / max (F.card : ℝ) 1 * ((∑ i ∈ F, f i) / max (F.card : ℝ) 1)
    = (∑ i ∈ F, (f i - (∑ j ∈ F, f j) / max (F.card : ℝ) 1)
          * (f i - (∑ j ∈ F, f j) / max (F.card : ℝ) 1)) / max (F.card : ℝ) 1 := by
  rcases F.eq_empty_or_nonempty with rfl | hne
  · simp
  · have hc : (1 : ℝ) ≤ (F.card : ℝ) := by exact_mod_cast hne.card_pos
    rw [max_eq_left hc]
    generalize hS : ∑ i ∈ F, f i = S
    generalize hn : (F.card : ℝ) = n at hc
    have hn0 : n ≠ 0 := by linarith
    have hexp : ∑ i ∈ F, (f i - S / n) * (f i - S / n)
        = (∑ i ∈ F, f i * f i) - 2 * (S / n) * S + n * (S / n * (S / n)) := by
      have hterm : ∀ i, (f i - S / n) * (f i - S / n)
          = f i * f i - 2 * (S / n) * f i + S / n * (S / n) := fun i => by ring
      simp only [hterm]
      rw [Finset.sum_add_distrib, Finset.sum_sub_distrib, ← Finset.mul_sum, Finset.sum_const,
        nsmul_eq_mul, hS, hn]
    rw [hexp]
    field_simp
    ring

/-! ### The two results agree -/

theorem kres_eq_rres (z : Fin 1000000 → Fin 128 → EReal) (lab : Fin 1000000 → BitVec 32) (J : Fin 128 → EReal)
    (hz : ∀ i d, ∃ r : ℝ, z i d = (r : EReal)) (hJ : ∀ d, ∃ r : ℝ, J d = (r : EReal))
    (hlab : ∀ i, ∃ c : Fin 1024, lab i = BitVec.ofNat 32 c.val) :
    Cert.Spec.kres z lab J = Cert.Spec.rres z lab J := by
  choose zR hzR using hz
  choose JR hJR using hJ
  -- every row's quadratic form is the coercion of a real
  obtain ⟨qR, hq⟩ : ∃ qR : Fin 1000000 → ℝ, ∀ i, q z J i = ((qR i : ℝ) : EReal) := by
    refine ⟨fun i => ∑ d, zR i d * zR i d * JR d, fun i => ?_⟩
    rw [q, coe_sum]
    refine Finset.sum_congr rfl fun d _ => ?_
    rw [hzR, hJR, EReal.coe_mul, EReal.coe_mul]
  -- every label is non-negative, so the masked hinge sum is the plain one
  have h1 : hingeSumK z lab J = hingeSum z J := by
    unfold hingeSumK hingeSum
    refine Finset.sum_congr rfl fun i _ => ?_
    obtain ⟨c, hc⟩ := hlab i
    rw [if_pos (by rw [hc]; exact toInt_ofNat_nonneg c)]
  -- the remainder of a finite value is zero
  have h2 : ∀ c, smK z lab J c = sm z lab J c := by
    intro c
    unfold smK sm
    refine Finset.sum_congr rfl fun i _ => ?_
    rw [hq i, ← EReal.coe_sub, sub_self, EReal.coe_zero, add_zero]
  -- every row lies in exactly one class
  have h3 : ∑ c : Fin 1024, sm z lab J c = total z J := by
    unfold sm total
    rw [Finset.sum_comm]
    refine Finset.sum_congr rfl fun i _ => ?_
    obtain ⟨c0, hc0⟩ := hlab i
    simp only [hc0, ofNat_inj]
    rw [Finset.sum_ite_eq, if_pos (Finset.mem_univ _)]
  -- the class variances agree
  have h4 : ∀ c, Ideal.div (sqK z lab J c) (cntC lab c) - meanK z lab J c * meanK z lab J c
      = Ideal.div (dev z lab J c) (cntC lab c) := by
    intro c
    generalize hF : Finset.univ.filter (fun i => lab i = BitVec.ofNat 32 c.val) = F
    have hcnt : cnt lab c = (((F.card : ℝ)) : EReal) := by
      unfold cnt
      rw [sum_ite_coe _ (fun _ => (1 : EReal)) (fun _ => (1 : ℝ)) (fun _ _ => rfl), hF,
        Finset.sum_const, nsmul_eq_mul, mul_one]
    have hcntC : cntC lab c = ((max (F.card : ℝ) 1 : ℝ) : EReal) := by
      rw [cntC, hcnt, one_eq, EReal.coe_strictMono.monotone.map_max]
    have hN : max (F.card : ℝ) 1 ≠ 0 := by
      have : (1 : ℝ) ≤ max (F.card : ℝ) 1 := le_max_right _ _
      linarith
    have hsm : sm z lab J c = ((∑ i ∈ F, qR i : ℝ) : EReal) := by
      unfold sm
      rw [sum_ite_coe _ _ qR (fun i _ => hq i), hF]
    have hsq : sqK z lab J c = ((∑ i ∈ F, qR i * qR i : ℝ) : EReal) := by
      unfold sqK
      rw [sum_ite_coe _ _ (fun i => qR i * qR i) (fun i _ => ?_), hF]
      rw [hq i, ← EReal.coe_mul, ← EReal.coe_sub, sub_self, EReal.coe_zero, add_zero]
    have hmean : mean z lab J c = (((∑ i ∈ F, qR i) / max (F.card : ℝ) 1 : ℝ) : EReal) := by
      rw [mean, hsm, hcntC, div_coe_coe _ _ hN]
    have hmeanK : meanK z lab J c = (((∑ i ∈ F, qR i) / max (F.card : ℝ) 1 : ℝ) : EReal) := by
      rw [meanK, h2, hsm, hcntC, div_coe_coe _ _ hN]
    have hdev : dev z lab J c
        = ((∑ i ∈ F, (qR i - (∑ j ∈ F, qR j) / max (F.card : ℝ) 1)
              * (qR i - (∑ j ∈ F, qR j) / max (F.card : ℝ) 1) : ℝ) : EReal) := by
      unfold dev
      rw [sum_ite_coe _ _ (fun i => (qR i - (∑ j ∈ F, qR j) / max (F.card : ℝ) 1)
              * (qR i - (∑ j ∈ F, qR j) / max (F.card : ℝ) 1)) (fun i _ => ?_), hF]
      rw [hq i, hmean, ← EReal.coe_sub, ← EReal.coe_mul]
    rw [hsq, hmeanK, hdev, hcntC, div_coe_coe _ _ hN, div_coe_coe _ _ hN, ← EReal.coe_mul,
      ← EReal.coe_sub, var_identity]
  unfold kres rres
  simp only [h1, h2, h3, h4]

end Cert.Bridge

end
-- ==== Proof.PreDecode.lean ====
/-
  The printed precondition, read back. The precondition is the conjunction of four universally quantified
  element facts: |z i| < +∞ for every element of z, |J d| < +∞ for every element of J, 0 ≤ lab i (signed) and
  lab i < 1024 (signed) for every label. Each quantifier is printed as a reduction by `and` from the constant 1
  into the one-index shape, and the four are joined by `and`. The claim "the result is 1" therefore gives each
  element fact at every index. An extended real whose absolute value max x (-x) is below ⊤ is neither ⊤ nor ⊥,
  so it is a real number; a 32-bit word whose signed value lies in [0, 1024) is the word of a natural below 1024.
-/
import proofs.«421990_j76184129896577_3_alg».proof.Pre_finite_inputs
import proofs.«421990_j76184129896577_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreDecode

open Idealize.ShloMosaic Cert.Pre_finite_inputs

/-- The scalar shape has one index. -/
local instance subsingleton_S_ : Subsingleton S_.Idx := ⟨fun a b => funext fun d => d.elim0⟩

/-- The f32 pattern 0x7F800000 (all-ones exponent, zero fraction, sign clear) denotes +∞. -/
theorem ofBits_inf : Ideal.ofBits .f32 0x7F800000#32 = (⊤ : EReal) := by
  simp [Ideal.ofBits, Ideal.ieee]

/-- An extended real with |x| < +∞ is a real number. -/
theorem real_of_abs_lt (x : EReal)
    (h : Ideal.cmp .olt (max x (-x)) (Ideal.ofBits .f32 0x7F800000#32) = 1#1) : ∃ r : ℝ, x = (r : EReal) := by
  rw [ofBits_inf] at h
  have hlt : max x (-x) < ⊤ := by
    unfold Ideal.cmp at h
    simpa [StableHlo.Predicate.ofBool_eq_one_iff] using h
  have h1 : x < ⊤ := lt_of_le_of_lt (le_max_left _ _) hlt
  have h2 : -x < ⊤ := lt_of_le_of_lt (le_max_right _ _) hlt
  have hbot : x ≠ ⊥ := by
    rintro rfl
    rw [EReal.neg_bot] at h2
    exact lt_irrefl _ h2
  exact ⟨x.toReal, (EReal.coe_toReal h1.ne hbot).symm⟩

/-- A 32-bit word with 0 ≤ w and w < 1024, both signed, is the word of a natural below 1024. -/
theorem small_of_range (w : BitVec 32) (h0 : IntOp.cmpi .sge w 0#32 = 1#1) (h1 : IntOp.cmpi .slt w 1024#32 = 1#1) :
    ∃ c : Fin 1024, w = BitVec.ofNat 32 c.val := by
  rw [IntOp.cmpi_sge] at h0
  rw [IntOp.cmpi_slt] at h1
  have e0 : (0#32 : BitVec 32).toInt = 0 := by decide
  have e1 : (1024#32 : BitVec 32).toInt = 1024 := by decide
  rw [e0] at h0
  rw [e1] at h1
  have hw := w.isLt
  have hn : w.toNat < 1024 := by
    rw [BitVec.toInt_eq_toNat_cond] at h0 h1
    by_cases hc : 2 * w.toNat < 2 ^ 32
    · rw [if_pos hc] at h1; omega
    · rw [if_neg hc] at h0; omega
  exact ⟨⟨w.toNat, hn⟩, by apply BitVec.eq_of_toNat_eq; simp [BitVec.toNat_ofNat]⟩

theorem decode [hP : Cert.Pre_finite_inputs.Facts]
    (x0 : Cert.Pre_finite_inputs.S1000000x128.Idx → EReal) (x1 : Cert.Pre_finite_inputs.S1000000.Idx → BitVec 32) (x2 : Cert.Pre_finite_inputs.S128.Idx → EReal)
    (h : Cert.Pre_finite_inputs.fn (F := Idealize.ShloMosaic.Ideal) x0 x1 x2 = fun _ => 1#1) :
    (∀ i, ∃ r : ℝ, x0 i = (r : EReal)) ∧ (∀ d, ∃ r : ℝ, x2 d = (r : EReal)) ∧ (∀ i, ∃ c : Fin 1024, x1 i = BitVec.ofNat 32 c.val) := by
  have e := congrFun h ValueIdx.ix0
  dsimp only [fn, fn_part1, andi] at e
  rw [IntOp.andi_eq_one, IntOp.andi_eq_one, IntOp.andi_eq_one] at e
  obtain ⟨⟨⟨hz, hJ⟩, hge⟩, hlt⟩ := e
  refine ⟨fun i => ?_, fun d => ?_, fun i => ?_⟩
  · have hi := Host.reduce_andi_all _ _ _ _ _ hz i
    exact real_of_abs_lt (x0 i) hi
  · have hd := Host.reduce_andi_all _ _ _ _ _ hJ d
    exact real_of_abs_lt (x2 d) hd
  · have h0 := Host.reduce_andi_all _ _ _ _ _ hge i
    have h1 := Host.reduce_andi_all _ _ _ _ _ hlt i
    exact small_of_range (x1 i) h0 h1

end Cert.PreDecode

end
-- ==== Proof.lean ====
/-
  The kernel computes, in one pass over 1,000,000 rows `z i` (128 entries each, padded to 1,015,808 rows and walked by
  two cores in 62 grid steps of eight 1024-row chunks), the quadratic form `q i = ∑ d, z i d² · J d`, and per class
  `c < 1024` the count, the sum of `q` and the sum of `q²` of the rows labelled `c` — by a one-hot matrix product per
  chunk, `q` and `q²` each split into a rounded part and a remainder — together with the hinge sum `∑ max(ε − |q|, 0)`
  over rows with a non-negative label.  Its epilogue forms `hinge/N + mean_c (E[q²] − (E q)²) + ((∑_c S_c)/N)²`.
  The reference forms `mean(hinge) + mean_c (mean over the class of (q − class mean)²) + (mean q)²` by three
  scatter-adds and a gather.

  At the ideal instance a change of float format is the identity, so the remainders are `x − x`, zero on finite values;
  padded rows carry the label `-1` and add nothing.  Under the precondition — every entry of `z` and `J` finite, every
  label in `[0, 1024)` (the range the reference's segment sums and its gather of the class means are defined on) —
  every row has exactly one class, so the class sums add up to the sum over all rows, and per class with `n ≥ 1` rows
  `(∑ (q − S/n)²)/n = Q/n − (S/n)²`; an empty class gives `0` on both sides.  Hence the two results agree
  (`Bridge.kres_eq_rres`), the kernel's run ending at `Spec.kres` (`KFinal.run`) and the reference's at `Spec.rres`
  (`RefVal.res_eq`) of arguments that agree.  The two ledger entries are the rounded parts' format round trips.
-/
import proofs.«421990_j76184129896577_3_alg».proof.Defs
import proofs.«421990_j76184129896577_3_alg».proof.Proof.Gen.Kernel
import proofs.«421990_j76184129896577_3_alg».proof.Proof.Gen.Kernel.Skeleton
import proofs.«421990_j76184129896577_3_alg».proof.Proof.Gen.Kernel.Loops
import proofs.«421990_j76184129896577_3_alg».proof.Proof.Gen.Kernel.Launch
import proofs.«421990_j76184129896577_3_alg».proof.Proof.Gen.Kernel.Points
import proofs.«421990_j76184129896577_3_alg».proof.Proof.Gen.Kernel.Frame
import proofs.«421990_j76184129896577_3_alg».proof.Proof.Gen.KernelIdeal
import proofs.«421990_j76184129896577_3_alg».proof.Proof.Gen.KernelIdeal.Skeleton
import proofs.«421990_j76184129896577_3_alg».proof.Proof.Gen.KernelIdeal.Loops
import proofs.«421990_j76184129896577_3_alg».proof.Proof.Gen.KernelIdeal.Launch
import proofs.«421990_j76184129896577_3_alg».proof.Proof.Gen.KernelIdeal.Points
import proofs.«421990_j76184129896577_3_alg».proof.Proof.Gen.KernelIdeal.Frame
import proofs.«421990_j76184129896577_3_alg».proof.Proof.Gen.ReferenceIdeal
import proofs.«421990_j76184129896577_3_alg».proof.Proof.Gen.Pre_finite_inputs
import proofs.«421990_j76184129896577_3_alg».proof.Proof.Gen.ReferenceIdeal.Run
import proofs.«421990_j76184129896577_3_alg».proof.Proof.Gen.ReferenceIdeal.Read
import proofs.«421990_j76184129896577_3_alg».proof.Proof.KFinal
import proofs.«421990_j76184129896577_3_alg».proof.Proof.RefVal
import proofs.«421990_j76184129896577_3_alg».proof.Proof.Bridge
import proofs.«421990_j76184129896577_3_alg».proof.Proof.PreDecode
import Idealize.ShloMosaic.Adequacy
import Idealize.ShloMosaic.Init

noncomputable section

namespace Cert.Proof

open Idealize.ShloMosaic Idealize.SL.Sem

/-- The word-level kernel and its idealization run to the end with their arguments unchanged. -/
theorem frame_k : Cert.frame_Kernel := fun m ρ _ => Cert.Kernel.Gen.frame m ρ
theorem frame_ki : Cert.frame_KernelIdeal := fun m ρ _ => Cert.KernelIdeal.Gen.frame m ρ
/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two format round trips `extf (truncf x)` of `q` and of `q²`: the identity at the ideal instance. -/
theorem preserves : Cert.preserves_Kernel_KernelIdeal :=
  ⟨IdealRules.truncf_extf.statement _ _ _, IdealRules.truncf_extf.statement _ _ _⟩

/-- From arguments that agree, finite and with labels in range, both programs end at one value. -/
theorem algebraic : Cert.algebraic_KernelIdeal_ReferenceIdeal := by
  intro m ρ m' ρ' hpre hagree
  refine ⟨fun c => fun _ => Cert.Spec.kres (Cert.KernelIdeal.KDefs.zArg m c) (Cert.KernelIdeal.KDefs.labArg m c) (Cert.KernelIdeal.KDefs.jArg m c),
    Cert.KernelIdeal.KFinal.run m ρ, ?_⟩
  refine (θ_run Cert.ReferenceIdeal.defs _ _).mono (fun _ h c => ⟨(h c).1.trans ?_, (h c).2⟩)
    (Cert.ReferenceIdeal.Value.run (F := Ideal) m' ρ')
  obtain ⟨hz, hJ, hlab⟩ := Cert.PreDecode.decode _ _ _ (hpre c)
  refine (Cert.RefVal.res_eq m' c).trans ?_
  rw [(hagree c).1, (hagree c).2.1, (hagree c).2.2]
  funext _
  exact (Cert.Bridge.kres_eq_rres (Cert.KernelIdeal.KDefs.zArg m c) (Cert.KernelIdeal.KDefs.labArg m c) (Cert.KernelIdeal.KDefs.jArg m c)
    (fun i d => hz (ValueIdx.ix2 i d)) (fun d => hJ (ValueIdx.ix1 d)) (fun i => hlab (ValueIdx.ix1 i))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
